-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S50000x128 : Shape := ⟨2, ![50000, 128]⟩
abbrev S50000x8x128 : Shape := ⟨3, ![50000, 8, 128]⟩
abbrev S50000x8 : Shape := ⟨2, ![50000, 8]⟩
abbrev S50000x27 : Shape := ⟨2, ![50000, 27]⟩
abbrev S128x128 : Shape := ⟨2, ![128, 128]⟩
abbrev S128x256 : Shape := ⟨2, ![128, 256]⟩
abbrev S128 : Shape := ⟨1, ![128]⟩
abbrev S128x27 : Shape := ⟨2, ![128, 27]⟩
abbrev S512x416 : Shape := ⟨2, ![512, 416]⟩
abbrev S512 : Shape := ⟨1, ![512]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S50000x8x128 : S_.BroadcastsInDim S50000x8x128 (![] : Fin 0 → Fin S50000x8x128.rank)
  reducesTo_S50000x8x128_S_d0_1_2 : S50000x8x128.ReducesTo [0, 1, 2] S_
  bcast_S_S50000x27 : S_.BroadcastsInDim S50000x27 (![] : Fin 0 → Fin S50000x27.rank)
  reducesTo_S50000x27_S_d0_1 : S50000x27.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x27 : S_.BroadcastsInDim S128x27 (![] : Fin 0 → Fin S128x27.rank)
  reducesTo_S128x27_S_d0_1 : S128x27.ReducesTo [0, 1] S_
  bcast_S_S512x416 : S_.BroadcastsInDim S512x416 (![] : Fin 0 → Fin S512x416.rank)
  reducesTo_S512x416_S_d0_1 : S512x416.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S512 .f32) (main_arg13 : FVec F S128 .f32) (main_arg14 : FVec F S128 .f32) (main_v48 : IVec S_ 1) (main_v49 : FVec F S512x416 .f32) (main_v50 : FVec F S512x416 .f32) : IVec S_ 1 :=
  let main_v51 : IVec S512x416 1 := cmpf .olt main_v49 main_v50
  let main_c_19 : IVec S_ 1 := constantI S_ 1 1#1
  let main_v52 : IVec S_ 1 := (fun x v => Host.reduce IntOp.andi x v reducesTo_S512x416_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x27 .f32) (main_arg10 : FVec F S128 .f32) (main_arg11 : FVec F S512x416 .f32) (main_arg12 : FVec F S512 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x27 .f32 := Host.absf main_arg9
  let main_cst_14 : FVec F S_ .f32 := constant S_ .f32 0x7F800000#32
  let main_v40 : FVec F S128x27 .f32 := broadcastInDim S128x27 ![] bcast_S_S128x27 main_cst_14
  let main_v41 : IVec S128x27 1 := cmpf .olt main_v39 main_v40
  let main_c_15 : IVec S_ 1 := constantI S_ 1 1#1
  let main_v42 : IVec S_ 1 := (fun x v => Host.reduce IntOp.andi x v reducesTo_S128x27_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512x416 .f32 := Host.absf main_arg11
  let main_cst_18 : FVec F S_ .f32 := constant S_ .f32 0x7F800000#32
  let main_v50 : FVec F S512x416 .f32 := broadcastInDim S512x416 ![] bcast_S_S512x416 main_cst_18
  fn_part3 (F := F) main_arg12 main_arg13 main_arg14 main_v48 main_v49 main_v50

def fn_part1 {F : FTy → Type} [FloatOps F] (main_arg5 : FVec F S50000x27 .f32) (main_arg6 : FVec F S128x128 .f32) (main_arg7 : FVec F S128x256 .f32) (main_arg8 : FVec F S128 .f32) (main_arg9 : FVec F S128x27 .f32) (main_arg10 : FVec F S128 .f32) (main_arg11 : FVec F S512x416 .f32) (main_arg12 : FVec F S512 .f32) (main_arg13 : FVec F S128 .f32) (main_arg14 : FVec F S128 .f32) (main_v13 : IVec S_ 1) (main_v16 : IVec S50000x8x128 1) : IVec S_ 1 :=
  let main_c_5 : IVec S_ 1 := constantI S_ 1 1#1
  let main_v17 : IVec S_ 1 := (fun x v => Host.reduce IntOp.andi x v reducesTo_S50000x8x128_S_d0_1_2 h_S_) main_v16 main_c_5
  let main_v18 : IVec S_ 1 := andi main_v13 main_v17
  let main_v19 : FVec F S50000x27 .f32 := Host.absf main_arg5
  let main_cst_6 : FVec F S_ .f32 := constant S_ .f32 0x7F800000#32
  let main_v20 : FVec F S50000x27 .f32 := broadcastInDim S50000x27 ![] bcast_S_S50000x27 main_cst_6
  let main_v21 : IVec S50000x27 1 := cmpf .olt main_v19 main_v20
  let main_c_7 : IVec S_ 1 := constantI S_ 1 1#1
  let main_v22 : IVec S_ 1 := (fun x v => Host.reduce IntOp.andi x v reducesTo_S50000x27_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x32 .f32) (main_arg1 : FVec F S50000x128 .f32) (main_arg2 : FVec F S50000x128 .f32) (main_arg3 : FVec F S50000x8x128 .f32) (main_arg4 : IVec S50000x8 1) (main_arg5 : FVec F S50000x27 .f32) (main_arg6 : FVec F S128x128 .f32) (main_arg7 : FVec F S128x256 .f32) (main_arg8 : FVec F S128 .f32) (main_arg9 : FVec F S128x27 .f32) (main_arg10 : FVec F S128 .f32) (main_arg11 : FVec F S512x416 .f32) (main_arg12 : FVec F S512 .f32) (main_arg13 : FVec F S128 .f32) (main_arg14 : FVec F S128 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x8x128 .f32 := Host.absf main_arg3
  let main_cst_4 : FVec F S_ .f32 := constant S_ .f32 0x7F800000#32
  let main_v15 : FVec F S50000x8x128 .f32 := broadcastInDim S50000x8x128 ![] bcast_S_S50000x8x128 main_cst_4
  let main_v16 : IVec S50000x8x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x32 : Shape := ⟨2, ![50000, 32]⟩
abbrev S50000x128 : Shape := ⟨2, ![50000, 128]⟩
abbrev S50000x8x128 : Shape := ⟨3, ![50000, 8, 128]⟩
abbrev S50000x8 : Shape := ⟨2, ![50000, 8]⟩
abbrev S50000x27 : Shape := ⟨2, ![50000, 27]⟩
abbrev S128x128 : Shape := ⟨2, ![128, 128]⟩
abbrev S128x256 : Shape := ⟨2, ![128, 256]⟩
abbrev S128 : Shape := ⟨1, ![128]⟩
abbrev S128x27 : Shape := ⟨2, ![128, 27]⟩
abbrev S512x416 : Shape := ⟨2, ![512, 416]⟩
abbrev S512 : Shape := ⟨1, ![512]⟩
abbrev S50000x1024 : Shape := ⟨2, ![50000, 1024]⟩
abbrev S256x128 : Shape := ⟨2, ![256, 128]⟩
abbrev S27x128 : Shape := ⟨2, ![27, 128]⟩
abbrev S416x512 : Shape := ⟨2, ![416, 512]⟩
abbrev S32x512 : Shape := ⟨2, ![32, 512]⟩
abbrev S128x512 : Shape := ⟨2, ![128, 512]⟩
abbrev S1000x32 : Shape := ⟨2, ![1000, 32]⟩
abbrev S1000x128 : Shape := ⟨2, ![1000, 128]⟩
abbrev S1000x1024 : Shape := ⟨2, ![1000, 1024]⟩
abbrev S1000x8 : Shape := ⟨2, ![1000, 8]⟩
abbrev S1000x27 : Shape := ⟨2, ![1000, 27]⟩
abbrev S1000x1 : Shape := ⟨2, ![1000, 1]⟩
abbrev S1000x256 : Shape := ⟨2, ![1000, 256]⟩
abbrev S1x128 : Shape := ⟨2, ![1, 128]⟩
abbrev S1000x512 : Shape := ⟨2, ![1000, 512]⟩
abbrev S1x512 : Shape := ⟨2, ![1, 512]⟩
abbrev S1000 : Shape := ⟨1, ![1000]⟩

abbrev nBuf : Space → Nat
  | .hbm => 37
  | .vmem => 28
  | .smem => 0
  | _ => 0

abbrev bufTy : (tb : Table) → Fin (tcTables nBuf tb) → BufTy
  | .hbm, ⟨0, _⟩ => ⟨S50000x32, .f32⟩
  | .hbm, ⟨1, _⟩ => ⟨S50000x128, .f32⟩
  | .hbm, ⟨2, _⟩ => ⟨S50000x128, .f32⟩
  | .hbm, ⟨3, _⟩ => ⟨S50000x8x128, .f32⟩
  | .hbm, ⟨4, _⟩ => ⟨S50000x8, .i1⟩
  | .hbm, ⟨5, _⟩ => ⟨S50000x27, .f32⟩
  | .hbm, ⟨6, _⟩ => ⟨S128x128, .f32⟩
  | .hbm, ⟨7, _⟩ => ⟨S128x256, .f32⟩
  | .hbm, ⟨8, _⟩ => ⟨S128, .f32⟩
  | .hbm, ⟨9, _⟩ => ⟨S128x27, .f32⟩
  | .hbm, ⟨10, _⟩ => ⟨S128, .f32⟩
  | .hbm, ⟨11, _⟩ => ⟨S512x416, .f32⟩
  | .hbm, ⟨12, _⟩ => ⟨S512, .f32⟩
  | .hbm, ⟨13, _⟩ => ⟨S128, .f32⟩
  | .hbm, ⟨14, _⟩ => ⟨S128, .f32⟩
  | .hbm, ⟨15, _⟩ => ⟨S50000x8, .f32⟩
  | .hbm, ⟨16, _⟩ => ⟨S50000x1024, .f32⟩
  | .hbm, ⟨17, _⟩ => ⟨S128x128, .f32⟩
  | .hbm, ⟨18, _⟩ => ⟨S128x128, .f32⟩
  | .hbm, ⟨19, _⟩ => ⟨S256x128, .f32⟩
  | .hbm, ⟨20, _⟩ => ⟨S128x256, .f32⟩
  | .hbm, ⟨21, _⟩ => ⟨S128x256, .bf16⟩
  | .hbm, ⟨22, _⟩ => ⟨S128x128, .f32⟩
  | .hbm, ⟨23, _⟩ => ⟨S128x128, .bf16⟩
  | .hbm, ⟨24, _⟩ => ⟨S27x128, .f32⟩
  | .hbm, ⟨25, _⟩ => ⟨S27x128, .bf16⟩
  | .hbm, ⟨26, _⟩ => ⟨S416x512, .f32⟩
  | .hbm, ⟨27, _⟩ => ⟨S32x512, .f32⟩
  | .hbm, ⟨28, _⟩ => ⟨S32x512, .bf16⟩
  | .hbm, ⟨29, _⟩ => ⟨S128x512, .f32⟩
  | .hbm, ⟨30, _⟩ => ⟨S128x512, .bf16⟩
  | .hbm, ⟨31, _⟩ => ⟨S128x512, .f32⟩
  | .hbm, ⟨32, _⟩ => ⟨S128x512, .bf16⟩
  | .hbm, ⟨33, _⟩ => ⟨S128x512, .f32⟩
  | .hbm, ⟨34, _⟩ => ⟨S128x512, .bf16⟩
  | .hbm, ⟨35, _⟩ => ⟨S50000x128, .f32⟩
  | .hbm, ⟨36, _⟩ => ⟨S50000x128, .f32⟩
  | .local _ .vmem, ⟨0, _⟩ => ⟨S1000x32, .f32⟩
  | .local _ .vmem, ⟨1, _⟩ => ⟨S1000x32, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x1024, .f32⟩
  | .local _ .vmem, ⟨7, _⟩ => ⟨S1000x1024, .f32⟩
  | .local _ .vmem, ⟨8, _⟩ => ⟨S1000x8, .f32⟩
  | .local _ .vmem, ⟨9, _⟩ => ⟨S1000x8, .f32⟩
  | .local _ .vmem, ⟨10, _⟩ => ⟨S1000x27, .f32⟩
  | .local _ .vmem, ⟨11, _⟩ => ⟨S1000x27, .f32⟩
  | .local _ .vmem, ⟨12, _⟩ => ⟨S128x256, .bf16⟩
  | .local _ .vmem, ⟨13, _⟩ => ⟨S128x128, .bf16⟩
  | .local _ .vmem, ⟨14, _⟩ => ⟨S128, .f32⟩
  | .local _ .vmem, ⟨15, _⟩ => ⟨S27x128, .bf16⟩
  | .local _ .vmem, ⟨16, _⟩ => ⟨S128, .f32⟩
  | .local _ .vmem, ⟨17, _⟩ => ⟨S32x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S512, .f32⟩
  | .local _ .vmem, ⟨22, _⟩ => ⟨S128, .f32⟩
  | .local _ .vmem, ⟨23, _⟩ => ⟨S128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x27 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S27x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S50000x8x128_S50000x1024 : S50000x8x128.ShapeCasts S50000x1024
  slices_S128x256_S128x128_0_0 : S128x256.Slices ![0, 0] S128x128
  slices_S128x256_S128x128_0_128 : S128x256.Slices ![0, 128] S128x128
  concatenates_S128x128_S128x128_S256x128_d0 : Shape.Concatenates [S128x128, S128x128] S256x128 0
  transposes_S256x128_S128x256_1_0 : S256x128.Transposes [1, 0] S128x256
  bitsLt_bf16_f32 : FTy.bits .bf16 < FTy.bits .f32
  transposes_S128x128_S128x128_1_0 : S128x128.Transposes [1, 0] S128x128
  transposes_S128x27_S27x128_1_0 : S128x27.Transposes [1, 0] S27x128
  transposes_S512x416_S416x512_1_0 : S512x416.Transposes [1, 0] S416x512
  slices_S416x512_S32x512_0_0 : S416x512.Slices ![0, 0] S32x512
  slices_S416x512_S128x512_32_0 : S416x512.Slices ![32, 0] S128x512
  slices_S416x512_S128x512_160_0 : S416x512.Slices ![160, 0] S128x512
  slices_S416x512_S128x512_288_0 : S416x512.Slices ![288, 0] S128x512
  inb_S1000x32_S1000x32_0_0 : ∀ a, (![0, 0] : Fin 2 → Nat) a + S1000x32.size a ≤ S1000x32.size a
  h_S1000x32 : 0 < S1000x32.numel
  inb_S1000x128_S1000x128_0_0 : ∀ a, (![0, 0] : Fin 2 → Nat) a + S1000x128.size a ≤ S1000x128.size a
  h_S1000x128 : 0 < S1000x128.numel
  inb_S1000x27_S1000x27_0_0 : ∀ a, (![0, 0] : Fin 2 → Nat) a + S1000x27.size a ≤ S1000x27.size a
  h_S1000x27 : 0 < S1000x27.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  inb_S1000x1024_S1000x128_0_0 : ∀ a, (![0, 0] : Fin 2 → Nat) a + S1000x128.size a ≤ S1000x1024.size a
  shapeCasts_S1000x128_S1000x128 : S1000x128.ShapeCasts S1000x128
  inb_S1000x8_S1000x1_0_0 : ∀ a, (![0, 0] : Fin 2 → Nat) a + S1000x1.size a ≤ S1000x8.size a
  h_S1000x1 : 0 < S1000x1.numel
  shapeCasts_S1000x1_S1000x1 : S1000x1.ShapeCasts S1000x1
  slices_S1000x256_o0_0_S1000x128 : S1000x256.Slices ![0, 0] S1000x128
  slices_S1000x256_o0_128_S1000x128 : S1000x256.Slices ![0, 128] S1000x128
  shapeCasts_S128_S1x128 : S128.ShapeCasts S1x128
  broadcasts_S1x128_S1000x128 : S1x128.Broadcasts S1000x128
  broadcasts_S1000x1_S1000x128 : S1000x1.Broadcasts S1000x128
  inb_S1000x1024_S1000x128_0_128 : ∀ a, (![0, 128] : Fin 2 → Nat) a + S1000x128.size a ≤ S1000x1024.size a
  inb_S1000x8_S1000x1_0_1 : ∀ a, (![0, 1] : Fin 2 → Nat) a + S1000x1.size a ≤ S1000x8.size a
  inb_S1000x1024_S1000x128_0_256 : ∀ a, (![0, 256] : Fin 2 → Nat) a + S1000x128.size a ≤ S1000x1024.size a
  inb_S1000x8_S1000x1_0_2 : ∀ a, (![0, 2] : Fin 2 → Nat) a + S1000x1.size a ≤ S1000x8.size a
  inb_S1000x1024_S1000x128_0_384 : ∀ a, (![0, 384] : Fin 2 → Nat) a + S1000x128.size a ≤ S1000x1024.size a
  inb_S1000x8_S1000x1_0_3 : ∀ a, (![0, 3] : Fin 2 → Nat) a + S1000x1.size a ≤ S1000x8.size a
  inb_S1000x1024_S1000x128_0_512 : ∀ a, (![0, 512] : Fin 2 → Nat) a + S1000x128.size a ≤ S1000x1024.size a
  inb_S1000x8_S1000x1_0_4 : ∀ a, (![0, 4] : Fin 2 → Nat) a + S1000x1.size a ≤ S1000x8.size a
  inb_S1000x1024_S1000x128_0_640 : ∀ a, (![0, 640] : Fin 2 → Nat) a + S1000x128.size a ≤ S1000x1024.size a
  inb_S1000x8_S1000x1_0_5 : ∀ a, (![0, 5] : Fin 2 → Nat) a + S1000x1.size a ≤ S1000x8.size a
  inb_S1000x1024_S1000x128_0_768 : ∀ a, (![0, 768] : Fin 2 → Nat) a + S1000x128.size a ≤ S1000x1024.size a
  inb_S1000x8_S1000x1_0_6 : ∀ a, (![0, 6] : Fin 2 → Nat) a + S1000x1.size a ≤ S1000x8.size a
  inb_S1000x1024_S1000x128_0_896 : ∀ a, (![0, 896] : Fin 2 → Nat) a + S1000x128.size a ≤ S1000x1024.size a
  inb_S1000x8_S1000x1_0_7 : ∀ a, (![0, 7] : Fin 2 → Nat) a + S1000x1.size a ≤ S1000x8.size a
  shapeCasts_S512_S1x512 : S512.ShapeCasts S1x512
  broadcasts_S1x512_S1000x512 : S1x512.Broadcasts S1000x512
  slices_S1000x512_o0_0_S1000x128 : S1000x512.Slices ![0, 0] S1000x128
  slices_S1000x512_o0_128_S1000x128 : S1000x512.Slices ![0, 128] S1000x128
  slices_S1000x512_o0_256_S1000x128 : S1000x512.Slices ![0, 256] S1000x128
  slices_S1000x512_o0_384_S1000x128 : S1000x512.Slices ![0, 384] S1000x128
  reduces_S1000x128_S1000 : S1000x128.Reduces [1] S1000
  shapeCasts_S1000_S1000x1 : S1000.ShapeCasts S1000x1
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S1000x27_S27x128_S1000x128_1_0_0_1_n_n_wf : DotDims.WF S1000x27 S27x128 S1000x128 [1] [0] [0] [1] [] []
  dot_S1000x32_S32x512_S1000x512_1_0_0_1_n_n_wf : DotDims.WF S1000x32 S32x512 S1000x512 [1] [0] [0] [1] [] []
  dot_S1000x128_S128x512_S1000x512_1_0_0_1_n_n_wf : DotDims.WF S1000x128 S128x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S50000x32.size a
  hwx0_0 : ∀ i : grid0.Coords, EltTy.bits .f32 = 32 ∨ (Rect.block (s := S50000x32) S1000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S50000x1024.size a
  hwx0_3 : ∀ i : grid0.Coords, EltTy.bits .f32 = 32 ∨ (Rect.block (s := S50000x1024) S1000x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x8.size a ≤ S50000x8.size a
  hwx0_4 : ∀ i : grid0.Coords, EltTy.bits .f32 = 32 ∨ (Rect.block (s := S50000x8) S1000x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x27.size a ≤ S50000x27.size a
  hwx0_5 : ∀ i : grid0.Coords, EltTy.bits .f32 = 32 ∨ (Rect.block (s := S50000x27) S1000x27.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S27x128.size a ≤ S27x128.size a
  hwx0_9 : ∀ i : grid0.Coords, EltTy.bits .bf16 = 32 ∨ (Rect.block (s := S27x128) S27x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x512.size a ≤ S32x512.size a
  hwx0_11 : ∀ i : grid0.Coords, EltTy.bits .bf16 = 32 ∨ (Rect.block (s := S32x512) S32x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S128x512.size a
  hwx0_12 : ∀ i : grid0.Coords, EltTy.bits .bf16 = 32 ∨ (Rect.block (s := S128x512) S128x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x512.size a ≤ S128x512.size a
  hwx0_13 : ∀ i : grid0.Coords, EltTy.bits .bf16 = 32 ∨ (Rect.block (s := S128x512) S128x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x512.size a ≤ S128x512.size a
  hwx0_14 : ∀ i : grid0.Coords, EltTy.bits .bf16 = 32 ∨ (Rect.block (s := S128x512) S128x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x128.size a ≤ S50000x128.size a
  hwx0_18 : ∀ i : grid0.Coords, EltTy.bits .f32 = 32 ∨ (Rect.block (s := S50000x128) S1000x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1000x128.size a ≤ S50000x128.size a
  hwx0_19 : ∀ i : grid0.Coords, EltTy.bits .f32 = 32 ∨ (Rect.block (s := S50000x128) S1000x128.size (cc0_transform_19 i) (hinb0_19 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x27_S27x128_S1000x128_1_0_0_1_n_n : DotDims S1000x27 S27x128 S1000x128 where
  lhsContracting := [1]
  rhsContracting := [0]
  lhsNonContracting := [0]
  rhsNonContracting := [1]
  lhsBatch := []
  rhsBatch := []
  wf := dot_S1000x27_S27x128_S1000x128_1_0_0_1_n_n_wf
def dot_S1000x32_S32x512_S1000x512_1_0_0_1_n_n : DotDims S1000x32 S32x512 S1000x512 where
  lhsContracting := [1]
  rhsContracting := [0]
  lhsNonContracting := [0]
  rhsNonContracting := [1]
  lhsBatch := []
  rhsBatch := []
  wf := dot_S1000x32_S32x512_S1000x512_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf

abbrev win0_0 : Pipeline.Window sig grid0 :=
  Pipeline.Window.ofSpec (Memref.whole main_arg0) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1000x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1000x27.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S27x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S32x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S128x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S128x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S128x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg13) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg14) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20_0) S1000x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v20_1) S1000x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S50000x32 : Shape := ⟨2, ![50000, 32]⟩
abbrev S50000x128 : Shape := ⟨2, ![50000, 128]⟩
abbrev S50000x8x128 : Shape := ⟨3, ![50000, 8, 128]⟩
abbrev S50000x8 : Shape := ⟨2, ![50000, 8]⟩
abbrev S50000x27 : Shape := ⟨2, ![50000, 27]⟩
abbrev S128x128 : Shape := ⟨2, ![128, 128]⟩
abbrev S128x256 : Shape := ⟨2, ![128, 256]⟩
abbrev S128 : Shape := ⟨1, ![128]⟩
abbrev S128x27 : Shape := ⟨2, ![128, 27]⟩
abbrev S512x416 : Shape := ⟨2, ![512, 416]⟩
abbrev S512 : Shape := ⟨1, ![512]⟩
abbrev S50000x1x128 : Shape := ⟨3, ![50000, 1, 128]⟩
abbrev S50000x8x256 : Shape := ⟨3, ![50000, 8, 256]⟩
abbrev S1x1x128 : Shape := ⟨3, ![1, 1, 128]⟩
abbrev S_ : Shape := ⟨0, ![]⟩
abbrev S50000x8x1 : Shape := ⟨3, ![50000, 8, 1]⟩
abbrev S27x128 : Shape := ⟨2, ![27, 128]⟩
abbrev S1x128 : Shape := ⟨2, ![1, 128]⟩
abbrev S50000x416 : Shape := ⟨2, ![50000, 416]⟩
abbrev S416x512 : Shape := ⟨2, ![416, 512]⟩
abbrev S50000x512 : Shape := ⟨2, ![50000, 512]⟩
abbrev S1x512 : Shape := ⟨2, ![1, 512]⟩
abbrev S50000 : Shape := ⟨1, ![50000]⟩
abbrev S50000x1 : Shape := ⟨2, ![50000, 1]⟩

abbrev nBuf : Space → Nat
  | .hbm => 112
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S50000x128, .f32⟩
  | .hbm, ⟨2, _⟩ => ⟨S50000x128, .f32⟩
  | .hbm, ⟨3, _⟩ => ⟨S50000x8x128, .f32⟩
  | .hbm, ⟨4, _⟩ => ⟨S50000x8, .i1⟩
  | .hbm, ⟨5, _⟩ => ⟨S50000x27, .f32⟩
  | .hbm, ⟨6, _⟩ => ⟨S128x128, .f32⟩
  | .hbm, ⟨7, _⟩ => ⟨S128x256, .f32⟩
  | .hbm, ⟨8, _⟩ => ⟨S128, .f32⟩
  | .hbm, ⟨9, _⟩ => ⟨S128x27, .f32⟩
  | .hbm, ⟨10, _⟩ => ⟨S128, .f32⟩
  | .hbm, ⟨11, _⟩ => ⟨S512x416, .f32⟩
  | .hbm, ⟨12, _⟩ => ⟨S512, .f32⟩
  | .hbm, ⟨13, _⟩ => ⟨S128, .f32⟩
  | .hbm, ⟨14, _⟩ => ⟨S128, .f32⟩
  | .hbm, ⟨15, _⟩ => ⟨S50000x8x128, .f32⟩
  | .hbm, ⟨16, _⟩ => ⟨S50000x1x128, .f32⟩
  | .hbm, ⟨17, _⟩ => ⟨S50000x8x128, .f32⟩
  | .hbm, ⟨18, _⟩ => ⟨S50000x8x256, .f32⟩
  | .hbm, ⟨19, _⟩ => ⟨S50000x8x128, .f32⟩
  | .hbm, ⟨20, _⟩ => ⟨S1x1x128, .f32⟩
  | .hbm, ⟨21, _⟩ => ⟨S50000x8x128, .f32⟩
  | .hbm, ⟨22, _⟩ => ⟨S50000x8x128, .f32⟩
  | .hbm, ⟨23, _⟩ => ⟨S50000x8x128, .f32⟩
  | .hbm, ⟨24, _⟩ => ⟨S50000x8x128, .f32⟩
  | .hbm, ⟨25, _⟩ => ⟨S_, .f32⟩
  | .hbm, ⟨26, _⟩ => ⟨S50000x8x128, .f32⟩
  | .hbm, ⟨27, _⟩ => ⟨S50000x8x128, .f32⟩
  | .hbm, ⟨28, _⟩ => ⟨S_, .f32⟩
  | .hbm, ⟨29, _⟩ => ⟨S50000x8x128, .f32⟩
  | .hbm, ⟨30, _⟩ => ⟨S50000x8x128, .f32⟩
  | .hbm, ⟨31, _⟩ => ⟨S50000x8x1, .i1⟩
  | .hbm, ⟨32, _⟩ => ⟨S50000x8x1, .f32⟩
  | .hbm, ⟨33, _⟩ => ⟨S50000x8x128, .f32⟩
  | .hbm, ⟨34, _⟩ => ⟨S50000x8x128, .f32⟩
  | .hbm, ⟨35, _⟩ => ⟨S50000x8x128, .f32⟩
  | .hbm, ⟨36, _⟩ => ⟨S_, .f32⟩
  | .hbm, ⟨37, _⟩ => ⟨S50000x128, .f32⟩
  | .hbm, ⟨38, _⟩ => ⟨S27x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x416, .f32⟩
  | .hbm, ⟨44, _⟩ => ⟨S416x512, .f32⟩
  | .hbm, ⟨45, _⟩ => ⟨S50000x512, .f32⟩
  | .hbm, ⟨46, _⟩ => ⟨S1x512, .f32⟩
  | .hbm, ⟨47, _⟩ => ⟨S50000x512, .f32⟩
  | .hbm, ⟨48, _⟩ => ⟨S50000x512, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000, .f32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S_, .f32⟩
  | .hbm, ⟨96, _⟩ => ⟨S50000x1, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]

class Facts₀ : Prop where
  bcast_S50000x128_S50000x1x128_0_2 : S50000x128.BroadcastsInDim S50000x1x128 (![0, 2] : Fin 2 → Fin S50000x1x128.rank)
  bcast_S50000x1x128_S50000x8x128_0_1_2 : S50000x1x128.BroadcastsInDim S50000x8x128 (![0, 1, 2] : Fin 3 → Fin S50000x8x128.rank)
  concatenates_S50000x8x128_S50000x8x128_S50000x8x256_d2 : Shape.Concatenates [S50000x8x128, S50000x8x128] S50000x8x256 2
  bcast_S128_S1x1x128_2 : S128.BroadcastsInDim S1x1x128 (![2] : Fin 1 → Fin S1x1x128.rank)
  bcast_S1x1x128_S50000x8x128_0_1_2 : S1x1x128.BroadcastsInDim S50000x8x128 (![0, 1, 2] : Fin 3 → Fin S50000x8x128.rank)
  bcast_S_S50000x8x128 : S_.BroadcastsInDim S50000x8x128 (![] : Fin 0 → Fin S50000x8x128.rank)
  bcast_S50000x8_S50000x8x1_0_1 : S50000x8.BroadcastsInDim S50000x8x1 (![0, 1] : Fin 2 → Fin S50000x8x1.rank)
  bcast_S50000x8x1_S50000x8x128_0_1_2 : S50000x8x1.BroadcastsInDim S50000x8x128 (![0, 1, 2] : Fin 3 → Fin S50000x8x128.rank)
  reducesTo_S50000x8x128_S50000x128_d1 : S50000x8x128.ReducesTo [1] S50000x128
  h_S_ : 0 < S_.numel
  transposes_S128x27_S27x128_1_0 : S128x27.Transposes [1, 0] S27x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x32_S50000x128_S50000x128_S50000x128_S50000x416_d1 : Shape.Concatenates [S50000x32, S50000x128, S50000x128, S50000x128] S50000x416 1
  transposes_S512x416_S416x512_1_0 : S512x416.Transposes [1, 0] S416x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S50000x128 : S_.BroadcastsInDim S50000x128 (![] : Fin 0 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x8x128_S128x128_S50000x8x128_2_1_01_0_n_n_wf : DotDims.WF S50000x8x128 S128x128 S50000x8x128 [2] [1] [0, 1] [0] [] []
  dot_S50000x8x256_S128x256_S50000x8x128_2_1_01_0_n_n_wf : DotDims.WF S50000x8x256 S128x256 S50000x8x128 [2] [1] [0, 1] [0] [] []
  dot_S50000x27_S27x128_S50000x128_1_0_0_1_n_n_wf : DotDims.WF S50000x27 S27x128 S50000x128 [1] [0] [0] [1] [] []
  dot_S50000x416_S416x512_S50000x512_1_0_0_1_n_n_wf : DotDims.WF S50000x416 S416x512 S50000x512 [1] [0] [0] [1] [] []

variable [Facts₀]

def dot_S50000x8x128_S128x128_S50000x8x128_2_1_01_0_n_n : DotDims S50000x8x128 S128x128 S50000x8x128 where
  lhsContracting := [2]
  rhsContracting := [1]
  lhsNonContracting := [0, 1]
  rhsNonContracting := [0]
  lhsBatch := []
  rhsBatch := []
  wf := dot_S50000x8x128_S128x128_S50000x8x128_2_1_01_0_n_n_wf
def dot_S50000x8x256_S128x256_S50000x8x128_2_1_01_0_n_n : DotDims S50000x8x256 S128x256 S50000x8x128 where
  lhsContracting := [2]
  rhsContracting := [1]
  lhsNonContracting := [0, 1]
  rhsNonContracting := [0]
  lhsBatch := []
  rhsBatch := []
  wf := dot_S50000x8x256_S128x256_S50000x8x128_2_1_01_0_n_n_wf
def dot_S50000x27_S27x128_S50000x128_1_0_0_1_n_n : DotDims S50000x27 S27x128 S50000x128 where
  lhsContracting := [1]
  rhsContracting := [0]
  lhsNonContracting := [0]
  rhsNonContracting := [1]
  lhsBatch := []
  rhsBatch := []
  wf := dot_S50000x27_S27x128_S50000x128_1_0_0_1_n_n_wf
def dot_S50000x416_S416x512_S50000x512_1_0_0_1_n_n : DotDims S50000x416 S416x512 S50000x512 where
  lhsContracting := [1]
  rhsContracting := [0]
  lhsNonContracting := [0]
  rhsNonContracting := [1]
  lhsBatch := []
  rhsBatch := []
  wf := dot_S50000x416_S416x512_S50000x512_1_0_0_1_n_n_wf

class Facts : Prop extends Facts₀ where

variable [Facts]
-- ==== Proof.CellSpec.lean ====
/-
  One row of the neighbour-gated LSTM cell with layer normalisation, on the extended reals.

  A row carries its input features `x`, its own hidden and cell state `h`, `c`, the hidden states of its
  eight inflow neighbours `hin k`, one 0/1 validity weight per neighbour `mask k`, and its static features `st`.
  The weights are read through plain accessors (output coordinate first, contracted coordinate second), the
  gate matrix already cut at the neighbour / self boundary (`wg1`, `wg2`) and the LSTM matrix already cut at
  the four boundaries of its input `[x | h | context | static projection]` (`wl0 … wl3`).

  message k o   = Σ_h hin k h · wn o h
  gate k o      = σ((Σ_h hin k h · wg1 o h + Σ_h h h · wg2 o h) + bg o)
  context o     = Σ_k (gate k o · message k o) · mask k
  static o      = Σ_j st j · ws o j + bs o
  z c           = (((Σ x·wl0 + Σ h·wl1) + Σ context·wl2) + Σ static·wl3) + bl c,        c < 512 = [i | f | o | g]
  cNew o        = σ(z f) · c o + σ(z i) · tanh(z g)
  hRaw o        = σ(z o) · tanh(cNew o)
  hOut o        = ((hRaw o − μ) · rsqrt(var + ε)) · lnw o + lnb o,   μ = Σ hRaw / 128,  var = Σ (hRaw − μ)² / 128

  Every sum is a finite sum in the additive commutative monoid of the extended reals, so the grouping of the
  terms is immaterial; products, quotients and the transcendental functions are the exact extended-real ones.
-/
import Idealize.ShloMosaic.PureOps.Ideal
import Idealize.ShloMosaic.Lib.ValueIdx

noncomputable section

namespace Cert.RiverCell

open Idealize.ShloMosaic

/-- The cell's weights, each read as (output coordinate, contracted coordinate). -/
structure Weights where
  wn  : Fin 128 → Fin 128 → EReal
  wg1 : Fin 128 → Fin 128 → EReal
  wg2 : Fin 128 → Fin 128 → EReal
  bg  : Fin 128 → EReal
  ws  : Fin 128 → Fin 27 → EReal
  bs  : Fin 128 → EReal
  wl0 : Fin 512 → Fin 32 → EReal
  wl1 : Fin 512 → Fin 128 → EReal
  wl2 : Fin 512 → Fin 128 → EReal
  wl3 : Fin 512 → Fin 128 → EReal
  bl  : Fin 512 → EReal
  lnw : Fin 128 → EReal
  lnb : Fin 128 → EReal

/-- One row's data. -/
structure Row where
  x    : Fin 32 → EReal
  h    : Fin 128 → EReal
  c    : Fin 128 → EReal
  hin  : Fin 8 → Fin 128 → EReal
  mask : Fin 8 → EReal
  st   : Fin 27 → EReal

/-- Column `o` of the `j`-th quarter of the 512 LSTM pre-activations. -/
abbrev quarter (j : Fin 4) (o : Fin 128) : Fin 512 := ⟨o.val + 128 * j.val, by have := o.isLt; have := j.isLt; omega⟩

variable (W : Weights) (r : Row)

/-- Neighbour `k`'s message. -/
def msg (k : Fin 8) (o : Fin 128) : EReal := ∑ h : Fin 128, r.hin k h * W.wn o h

/-- The neighbour half of gate `k`'s logit. -/
def gateNb (k : Fin 8) (o : Fin 128) : EReal := ∑ h : Fin 128, r.hin k h * W.wg1 o h

/-- The self half of every gate's logit. -/
def gateSelf (o : Fin 128) : EReal := ∑ h : Fin 128, r.h h * W.wg2 o h

/-- Gate `k`. -/
def gate (k : Fin 8) (o : Fin 128) : EReal := Ideal.logistic ((gateNb W r k o + gateSelf W r o) + W.bg o)

/-- Neighbour `k`'s gated, masked contribution. -/
def contrib (k : Fin 8) (o : Fin 128) : EReal := (gate W r k o * msg W r k o) * r.mask k

/-- The neighbour context: the sum of the eight contributions. -/
def context (o : Fin 128) : EReal := ∑ k : Fin 8, contrib W r k o

/-- The static projection. -/
def static (o : Fin 128) : EReal := (∑ j : Fin 27, r.st j * W.ws o j) + W.bs o

/-- The LSTM pre-activations. -/
def z (c : Fin 512) : EReal :=
  ((((∑ j : Fin 32, r.x j * W.wl0 c j) + ∑ h : Fin 128, r.h h * W.wl1 c h)
      + ∑ h : Fin 128, context W r h * W.wl2 c h) + ∑ h : Fin 128, static W r h * W.wl3 c h) + W.bl c

/-- The new cell state. -/
def cNew (o : Fin 128) : EReal :=
  Ideal.logistic (z W r (quarter 1 o)) * r.c o + Ideal.logistic (z W r (quarter 0 o)) * Ideal.tanh (z W r (quarter 3 o))

/-- The new hidden state before normalisation. -/
def hRaw (o : Fin 128) : EReal := Ideal.logistic (z W r (quarter 2 o)) * Ideal.tanh (cNew W r o)

/-- Its mean over the 128 hidden coordinates. -/
def mean : EReal := Ideal.div (∑ o : Fin 128, hRaw W r o) (Ideal.ofBits .f32 0x43000000#32)

/-- Its variance about that mean. -/
def var : EReal :=
  Ideal.div (∑ o : Fin 128, (hRaw W r o - mean W r) * (hRaw W r o - mean W r)) (Ideal.ofBits .f32 0x43000000#32)

/-- The normalised, affinely rescaled hidden state. -/
def hOut (o : Fin 128) : EReal :=
  ((hRaw W r o - mean W r) * Ideal.rsqrt (var W r + Ideal.ofBits .f32 0x3727C5AC#32)) * W.lnw o + W.lnb o

end Cert.RiverCell

end
-- ==== Proof.KernelNbr.lean ====
/-
  The neighbour context the kernel body accumulates, read at one element.

  The body threads one accumulator through eight neighbours. Each neighbour adds the same seven-operation term: its
  hidden state times the fused [message | neighbour-gate] matrix, the two halves of that product cut apart, the gate
  half plus the self-gate product plus the bias through the logistic function, times the message half, times the
  neighbour's validity weight. The term is named once (`nbrTerm`), read at an element once (`nbrTerm_apply`), and
  the payloads are the accumulator's eight additions of it, by unfolding.
-/
import proofs.«409955_j30081950941525_3_alg».proof.Proof.Gen.KernelIdeal.Skeleton
import proofs.«409955_j30081950941525_3_alg».proof.Proof.CellSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.RiverCell

/-! ## The two products at an element -/

/-- The row coordinate of the left operand of the [1000,128] × [128,256] product is the output's row. -/
theorem lhs256_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
/-- Its column coordinate is the contracted one. -/
theorem lhs256_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
/-- The row coordinate of the right operand is the contracted one. -/
theorem rhs256_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
/-- Its column coordinate is the output's column. -/
theorem rhs256_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The [1000,128] × [128,256] product into the zero splat, at row `p`, column `j`: the sum over the 128 contracted
    coordinates. -/
theorem dot128x256_apply (a : FVec Ideal S1000x128 .bf16) (w : FVec Ideal S128x256 .bf16) (p : Fin 1000) (j : Fin 256) :
    matmul dot_S1000x128_S128x256_S1000x256_1_0_0_1_n_n none a w (constant (F := Ideal) S1000x256 .f32 0x00000000#32) (ix2 p j)
      = ∑ h : Fin 128, a (ix2 p h) * w (ix2 h j) := by
  refine (Ideal.matmul_constant_zero_apply dot_S1000x128_S128x256_S1000x256_1_0_0_1_n_n none a w (ix2 p j)).trans ?_
  rw [← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 p j) ((contrEquiv1 dot_S1000x128_S128x256_S1000x256_1_0_0_1_n_n 128 rfl rfl).symm k) = ix2 p k := funext fun a => Fin.ext (by
    match a with
    | ⟨0, _⟩ => exact lhs256_0 _ _
    | ⟨1, _⟩ => exact (lhs256_1 _ _).trans hk)
  have er : dot_S1000x128_S128x256_S1000x256_1_0_0_1_n_n.rhsIdx (ix2 p j) ((contrEquiv1 dot_S1000x128_S128x256_S1000x256_1_0_0_1_n_n 128 rfl rfl).symm k) = ix2 k j := funext fun a => Fin.ext (by
    match a with
    | ⟨0, _⟩ => exact (rhs256_0 _ _).trans hk
    | ⟨1, _⟩ => exact rhs256_1 _ _)
  rw [el, er]

/-- The row coordinate of the left operand of the [1000,128] × [128,128] product is the output's row. -/
theorem lhs128_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- Its column coordinate is the contracted one. -/
theorem lhs128_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The row coordinate of the right operand is the contracted one. -/
theorem rhs128_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- Its column coordinate is the output's column. -/
theorem rhs128_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The [1000,128] × [128,128] product into the zero splat, at row `p`, column `j`. -/
theorem dot128x128_apply (a : FVec Ideal S1000x128 .bf16) (w : FVec Ideal S128x128 .bf16) (p : Fin 1000) (j : Fin 128) :
    matmul dot_S1000x128_S128x128_S1000x128_1_0_0_1_n_n none a w (constant (F := Ideal) S1000x128 .f32 0x00000000#32) (ix2 p j)
      = ∑ h : Fin 128, a (ix2 p h) * w (ix2 h j) := by
  refine (Ideal.matmul_constant_zero_apply dot_S1000x128_S128x128_S1000x128_1_0_0_1_n_n none a w (ix2 p j)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p j) ((contrEquiv1 dot_S1000x128_S128x128_S1000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S1000x128_S128x128_S1000x128_1_0_0_1_n_n.rhsIdx (ix2 p j) ((contrEquiv1 dot_S1000x128_S128x128_S1000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-! ## One neighbour's term -/

/-- A [1000,1] column broadcast over the 128 columns reads, at `(p, c)`, the column at row `p`. -/
theorem broadcastTo_a1_ab_apply {α : Type} (v : S1000x1.Idx → α) (h : S1000x1.Broadcasts S1000x128) (p : Fin 1000) (c : Fin 128) :
    broadcastTo S1000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The logistic function of a vector reads elementwise. -/
theorem logistic_apply {s : Shape} {φ : FTy} (v : FVec Ideal s φ) (i : s.Idx) : logistic v i = Ideal.logistic (v i) := rfl

/-- One neighbour's contribution to the accumulator, as the body spells it: the neighbour's hidden state `hk` times the
    fused matrix `w`; the product's right half plus the self-gate product `g2` plus the bias `b`, through the logistic
    function; times the product's left half; times the neighbour's validity weight `mk` spread over the columns. -/
def nbrTerm (w : FVec Ideal S128x256 .bf16) (b : Vec Ideal S128 .f32) (g2 : FVec Ideal S1000x128 .f32)
    (hk : Vec Ideal S1000x128 .f32) (mk : Vec Ideal S1000x1 .f32) : FVec Ideal S1000x128 .f32 :=
  mulf
    (mulf
      (logistic
        (addf
          (addf
            (extractStridedSlice S1000x128 ![0, 128]
              (matmul dot_S1000x128_S128x256_S1000x256_1_0_0_1_n_n none
                (truncf .bf16 (shapeCast S1000x128 hk shapeCasts_S1000x128_S1000x128) bitsLt_bf16_f32) w
                (constant S1000x256 .f32 0x00000000#32))
              slices_S1000x256_o0_128_S1000x128)
            g2)
          (broadcastTo S1000x128 (shapeCast S1x128 b shapeCasts_S128_S1x128) broadcasts_S1x128_S1000x128)))
      (extractStridedSlice S1000x128 ![0, 0]
        (matmul dot_S1000x128_S128x256_S1000x256_1_0_0_1_n_n none
          (truncf .bf16 (shapeCast S1000x128 hk shapeCasts_S1000x128_S1000x128) bitsLt_bf16_f32) w
          (constant S1000x256 .f32 0x00000000#32))
        slices_S1000x256_o0_0_S1000x128))
    (broadcastTo S1000x128 (shapeCast S1000x1 mk shapeCasts_S1000x1_S1000x1) broadcasts_S1000x1_S1000x128)

/-- The term at row `p`, column `q`. -/
theorem nbrTerm_apply (w : FVec Ideal S128x256 .bf16) (b : Vec Ideal S128 .f32) (g2 : FVec Ideal S1000x128 .f32)
    (hk : Vec Ideal S1000x128 .f32) (mk : Vec Ideal S1000x1 .f32) (p : Fin 1000) (q : Fin 128) :
    nbrTerm w b g2 hk mk (ix2 p q)
      = (Ideal.logistic (((∑ h : Fin 128, hk (ix2 p h) * w (ix2 h (⟨q.val + 128, by have := q.isLt; omega⟩ : Fin 256)))
            + g2 (ix2 p q)) + b (ix1 q))
          * ∑ h : Fin 128, hk (ix2 p h) * w (ix2 h (⟨q.val, by have := q.isLt; omega⟩ : Fin 256)))
        * mk (ix2 p (0 : Fin 1)) := by
  have hcast : shapeCast S1000x128 hk shapeCasts_S1000x128_S1000x128 = hk := shapeCast_self _ _
  have hm : ∀ j : Fin 256,
      matmul dot_S1000x128_S128x256_S1000x256_1_0_0_1_n_n none
        (truncf .bf16 (shapeCast S1000x128 hk shapeCasts_S1000x128_S1000x128) bitsLt_bf16_f32) w
        (constant (F := Ideal) S1000x256 .f32 0x00000000#32) (ix2 p j) = ∑ h : Fin 128, hk (ix2 p h) * w (ix2 h j) := fun j => by
    rw [hcast]
    exact dot128x256_apply _ w p j
  unfold nbrTerm
  simp only [mulf_apply, addf_apply, logistic_apply]
  rw [slice2_axis1_apply 128 _ slices_S1000x256_o0_128_S1000x128 p q (⟨q.val + 128, by have := q.isLt; omega⟩ : Fin 256) (Nat.add_comm _ _),
    slice2_axis1_apply 0 _ slices_S1000x256_o0_0_S1000x128 p q (⟨q.val, by have := q.isLt; omega⟩ : Fin 256) (Nat.zero_add _).symm,
    hm, hm, broadcastTo_1b_ab_apply, shapeCast_a_1a_apply, broadcastTo_a1_ab_apply,
    shapeCast_self mk shapeCasts_S1000x1_S1000x1]

/-! ## The payloads are the accumulator's additions of that term -/

/-- The first stretch of the body adds neighbours 0 and 1 to the incoming accumulator. -/
theorem pay12_eq (v8 : FVec Ideal S128x256 .bf16) (v11 : Vec Ideal S128 .f32) (v26 v27 : FVec Ideal S1000x128 .f32)
    (v28 : Vec Ideal S1000x128 .f32) (v31 : Vec Ideal S1000x1 .f32) (v45 : Vec Ideal S1000x128 .f32) (v48 : Vec Ideal S1000x1 .f32) :
    k0_pay12 v8 v11 v26 v27 v28 v31 v45 v48
      = addf (addf v27 (nbrTerm v8 v11 v26 v28 v31)) (nbrTerm v8 v11 v26 v45 v48) := rfl

/-- The second stretch adds neighbour 2, whose product, message half and gate were computed before the cut, then
    neighbours 3 and 4. -/
theorem pay17_eq (v8 : FVec Ideal S128x256 .bf16) (v11 : Vec Ideal S128 .f32) (v26 v61 : FVec Ideal S1000x128 .f32)
    (n2 : Vec Ideal S1000x128 .f32) (m2 : Vec Ideal S1000x1 .f32)
    (v79 : Vec Ideal S1000x128 .f32) (v82 : Vec Ideal S1000x1 .f32) (v96 : Vec Ideal S1000x128 .f32) (v99 : Vec Ideal S1000x1 .f32) :
    k0_pay17 v8 v11 v26 v61 (k0_pay13 m2) (k0_pay15 v8 n2) (k0_pay16 v8 v11 v26 n2) v79 v82 v96 v99
      = addf (addf (addf v61 (nbrTerm v8 v11 v26 n2 m2)) (nbrTerm v8 v11 v26 v79 v82)) (nbrTerm v8 v11 v26 v96 v99) := rfl

/-- The last stretch adds neighbour 5, whose product and message half were computed before the cut, then neighbours 6
    and 7, and changes the format of the total. -/
theorem pay22_eq (v8 : FVec Ideal S128x256 .bf16) (v11 : Vec Ideal S128 .f32) (v26 v112 : FVec Ideal S1000x128 .f32)
    (n5 : Vec Ideal S1000x128 .f32) (m5 : Vec Ideal S1000x1 .f32)
    (v130 : Vec Ideal S1000x128 .f32) (v133 : Vec Ideal S1000x1 .f32) (v147 : Vec Ideal S1000x128 .f32) (v150 : Vec Ideal S1000x1 .f32) :
    k0_pay22 v8 v11 v26 v112 (k0_pay18 m5) (k0_pay19 v8 n5) (k0_pay20 v8 n5) v130 v133 v147 v150
      = truncf .bf16
          (addf (addf (addf v112 (nbrTerm v8 v11 v26 n5 m5)) (nbrTerm v8 v11 v26 v130 v133)) (nbrTerm v8 v11 v26 v147 v150))
          bitsLt_bf16_f32 := rfl

/-- The self-gate product at row `p`, column `q`. -/
theorem pay10_apply (h1 : Vec Ideal S1000x128 .f32) (w7 : Vec Ideal S128x128 .bf16) (p : Fin 1000) (q : Fin 128) :
    k0_pay10 h1 w7 (ix2 p q) = ∑ h : Fin 128, h1 (ix2 p h) * w7 (ix2 h q) := by
  unfold k0_pay10
  rw [shapeCast_self w7 shapeCasts_S128x128_S128x128]
  exact dot128x128_apply _ w7 p q

/-- The fused matrix is read as loaded. -/
theorem pay4_eq (w6 : Vec Ideal S128x256 .bf16) : k0_pay4 w6 = w6 := shapeCast_self _ _

/-- The accumulator starts at zero. -/
theorem pay11_apply (i : S1000x128.Idx) : k0_pay11 (F := Ideal) i = 0 := Ideal.ofBits_zero_f32

/-- The body's accumulated neighbour context at row `p`, column `q` of the block is the row's `context`, when the
    weights' accessors read the fused [message | neighbour-gate] matrix `w6` (columns 0..127 and 128..255), the
    self-gate matrix `w7` and the gate bias `b8`, and the row's data are row `p` of the loaded blocks: `h1` its own
    hidden state, `nb k` its `k`-th neighbour's, `mk k` that neighbour's validity weight. -/
theorem context_apply (w6 : Vec Ideal S128x256 .bf16) (w7 : Vec Ideal S128x128 .bf16) (b8 : Vec Ideal S128 .f32)
    (h1 : Vec Ideal S1000x128 .f32) (nb : Fin 8 → Vec Ideal S1000x128 .f32) (mk : Fin 8 → Vec Ideal S1000x1 .f32)
    (W : Weights) (r : Row) (p : Fin 1000)
    (hwn : ∀ o h : Fin 128, W.wn o h = w6 (ix2 h (⟨o.val, by have := o.isLt; omega⟩ : Fin 256)))
    (hwg1 : ∀ o h : Fin 128, W.wg1 o h = w6 (ix2 h (⟨o.val + 128, by have := o.isLt; omega⟩ : Fin 256)))
    (hwg2 : ∀ o h : Fin 128, W.wg2 o h = w7 (ix2 h o))
    (hbg : ∀ o : Fin 128, W.bg o = b8 (ix1 o))
    (hh : ∀ j : Fin 128, r.h j = h1 (ix2 p j))
    (hhin : ∀ (k : Fin 8) (h : Fin 128), r.hin k h = nb k (ix2 p h))
    (hmask : ∀ k : Fin 8, r.mask k = mk k (ix2 p (0 : Fin 1)))
    (q : Fin 128) :
    k0_pay22 (k0_pay4 w6) b8 (k0_pay10 h1 w7)
      (k0_pay17 (k0_pay4 w6) b8 (k0_pay10 h1 w7)
        (k0_pay12 (k0_pay4 w6) b8 (k0_pay10 h1 w7) (k0_pay11 (F := Ideal)) (nb 0) (mk 0) (nb 1) (mk 1))
        (k0_pay13 (mk 2)) (k0_pay15 (k0_pay4 w6) (nb 2)) (k0_pay16 (k0_pay4 w6) b8 (k0_pay10 h1 w7) (nb 2))
        (nb 3) (mk 3) (nb 4) (mk 4))
      (k0_pay18 (mk 5)) (k0_pay19 (k0_pay4 w6) (nb 5)) (k0_pay20 (k0_pay4 w6) (nb 5))
      (nb 6) (mk 6) (nb 7) (mk 7) (ix2 p q)
      = context W r q := by
  rw [pay4_eq, pay22_eq, pay17_eq, pay12_eq]
  simp only [truncf_apply, addf_apply, nbrTerm_apply, pay10_apply, pay11_apply]
  unfold context
  rw [Fin.sum_univ_eight, zero_add]
  simp only [contrib, gate, msg, gateNb, gateSelf, hwn, hwg1, hwg2, hbg, hh, hhin, hmask]

end Cert.KernelIdeal.Body

end
-- ==== Proof.KernelTail.lean ====
/-
  The static projection, the LSTM pre-activations, the new cell state and the normalised hidden state the kernel
  body computes, read at one element.

  Each non-pointwise operation of the body is first read at one element over arbitrary operands: a product into the
  zero splat is the sum over the contracted coordinate of the operands' products; a parameter row broadcast over the
  rows reads its entry at the column; a 128-wide column slice cut at `128·j` reads column `quarter j q`; a row sum kept
  as a column and broadcast back reads the sum of the row. The pointwise operations read through by definition. The
  three results then follow by matching the sums term by term with the row-level specification.
-/
import proofs.«409955_j30081950941525_3_alg».proof.Proof.Gen.KernelIdeal.Skeleton
import proofs.«409955_j30081950941525_3_alg».proof.Proof.CellSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.RiverCell

/-! ## The non-pointwise operations of the body read at one element -/

/-- A vector of length `b` laid out as one row and broadcast over `a` rows reads, at `(p, c)`, its entry `c`. -/
theorem rowBroadcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The left operand's index of the `[1000,27] × [27,128]` product keeps the output row … -/
theorem lhs27_0 (i : S1000x128.Idx) (q : dot_S1000x27_S27x128_S1000x128_1_0_0_1_n_n.contr.Idx) :
    (dot_S1000x27_S27x128_S1000x128_1_0_0_1_n_n.lhsIdx i q 0).val = (i 0).val := by
  unfold DotDims.lhsIdx
  rw [dif_neg (show ¬(0 : Fin S1000x27.rank) ∈ dot_S1000x27_S27x128_S1000x128_1_0_0_1_n_n.lhsBatch by decide), dif_pos (show (0 : Fin S1000x27.rank) ∈ dot_S1000x27_S27x128_S1000x128_1_0_0_1_n_n.lhsNonContracting by decide)]
  rfl
/-- … and takes the contracted coordinate as its column; -/
theorem lhs27_1 (i : S1000x128.Idx) (q : dot_S1000x27_S27x128_S1000x128_1_0_0_1_n_n.contr.Idx) :
    (dot_S1000x27_S27x128_S1000x128_1_0_0_1_n_n.lhsIdx i q 1).val = (q ⟨0, by decide⟩).val :=
  dot_S1000x27_S27x128_S1000x128_1_0_0_1_n_n.lhsIdx_val_of_single rfl i q
/-- the right operand's index takes the contracted coordinate as its row … -/
theorem rhs27_0 (i : S1000x128.Idx) (q : dot_S1000x27_S27x128_S1000x128_1_0_0_1_n_n.contr.Idx) :
    (dot_S1000x27_S27x128_S1000x128_1_0_0_1_n_n.rhsIdx i q 0).val = (q ⟨0, by decide⟩).val :=
  dot_S1000x27_S27x128_S1000x128_1_0_0_1_n_n.rhsIdx_val_of_single rfl i q
/-- … and keeps the output column. -/
theorem rhs27_1 (i : S1000x128.Idx) (q : dot_S1000x27_S27x128_S1000x128_1_0_0_1_n_n.contr.Idx) :
    (dot_S1000x27_S27x128_S1000x128_1_0_0_1_n_n.rhsIdx i q 1).val = (i 1).val := by
  unfold DotDims.rhsIdx
  rw [dif_neg (show ¬(1 : Fin S27x128.rank) ∈ dot_S1000x27_S27x128_S1000x128_1_0_0_1_n_n.rhsBatch by decide), dif_pos (show (1 : Fin S27x128.rank) ∈ dot_S1000x27_S27x128_S1000x128_1_0_0_1_n_n.rhsNonContracting by decide)]
  rfl

/-- The `[1000,27] × [27,128]` product into the zero splat, at `(p, j)`: the sum over the 27 contracted coordinates. -/
theorem dot27_apply (a : FVec Ideal S1000x27 .bf16) (w : FVec Ideal S27x128 .bf16) (p : Fin 1000) (j : Fin 128) :
    matmul dot_S1000x27_S27x128_S1000x128_1_0_0_1_n_n none a w (constant (F := Ideal) S1000x128 .f32 0x00000000#32) (ix2 p j)
      = ∑ h : Fin 27, a (ix2 p h) * w (ix2 h j) := by
  refine (Ideal.matmul_constant_zero_apply dot_S1000x27_S27x128_S1000x128_1_0_0_1_n_n none a w (ix2 p j)).trans ?_
  rw [← Equiv.sum_comp (contrEquiv1 dot_S1000x27_S27x128_S1000x128_1_0_0_1_n_n 27 rfl rfl).symm]
  refine Finset.sum_congr rfl fun k _ => ?_
  have hk := contrEquiv1_symm_val dot_S1000x27_S27x128_S1000x128_1_0_0_1_n_n 27 rfl rfl k
  have el : dot_S1000x27_S27x128_S1000x128_1_0_0_1_n_n.lhsIdx (ix2 p j) ((contrEquiv1 dot_S1000x27_S27x128_S1000x128_1_0_0_1_n_n 27 rfl rfl).symm k) = ix2 p k := funext fun c => Fin.ext (by
    match c with
    | ⟨0, _⟩ => exact lhs27_0 _ _
    | ⟨1, _⟩ => exact (lhs27_1 _ _).trans hk)
  have er : dot_S1000x27_S27x128_S1000x128_1_0_0_1_n_n.rhsIdx (ix2 p j) ((contrEquiv1 dot_S1000x27_S27x128_S1000x128_1_0_0_1_n_n 27 rfl rfl).symm k) = ix2 k j := funext fun c => Fin.ext (by
    match c with
    | ⟨0, _⟩ => exact (rhs27_0 _ _).trans hk
    | ⟨1, _⟩ => exact rhs27_1 _ _)
  rw [el, er]

/-- The left operand's index of the `[1000,32] × [32,512]` product keeps the output row … -/
theorem lhs32_0 (i : S1000x512.Idx) (q : dot_S1000x32_S32x512_S1000x512_1_0_0_1_n_n.contr.Idx) :
    (dot_S1000x32_S32x512_S1000x512_1_0_0_1_n_n.lhsIdx i q 0).val = (i 0).val := by
  unfold DotDims.lhsIdx
  rw [dif_neg (show ¬(0 : Fin S1000x32.rank) ∈ dot_S1000x32_S32x512_S1000x512_1_0_0_1_n_n.lhsBatch by decide), dif_pos (show (0 : Fin S1000x32.rank) ∈ dot_S1000x32_S32x512_S1000x512_1_0_0_1_n_n.lhsNonContracting by decide)]
  rfl
/-- … and takes the contracted coordinate as its column; -/
theorem lhs32_1 (i : S1000x512.Idx) (q : dot_S1000x32_S32x512_S1000x512_1_0_0_1_n_n.contr.Idx) :
    (dot_S1000x32_S32x512_S1000x512_1_0_0_1_n_n.lhsIdx i q 1).val = (q ⟨0, by decide⟩).val :=
  dot_S1000x32_S32x512_S1000x512_1_0_0_1_n_n.lhsIdx_val_of_single rfl i q
/-- the right operand's index takes the contracted coordinate as its row … -/
theorem rhs32_0 (i : S1000x512.Idx) (q : dot_S1000x32_S32x512_S1000x512_1_0_0_1_n_n.contr.Idx) :
    (dot_S1000x32_S32x512_S1000x512_1_0_0_1_n_n.rhsIdx i q 0).val = (q ⟨0, by decide⟩).val :=
  dot_S1000x32_S32x512_S1000x512_1_0_0_1_n_n.rhsIdx_val_of_single rfl i q
/-- … and keeps the output column. -/
theorem rhs32_1 (i : S1000x512.Idx) (q : dot_S1000x32_S32x512_S1000x512_1_0_0_1_n_n.contr.Idx) :
    (dot_S1000x32_S32x512_S1000x512_1_0_0_1_n_n.rhsIdx i q 1).val = (i 1).val := by
  unfold DotDims.rhsIdx
  rw [dif_neg (show ¬(1 : Fin S32x512.rank) ∈ dot_S1000x32_S32x512_S1000x512_1_0_0_1_n_n.rhsBatch by decide), dif_pos (show (1 : Fin S32x512.rank) ∈ dot_S1000x32_S32x512_S1000x512_1_0_0_1_n_n.rhsNonContracting by decide)]
  rfl

/-- The `[1000,32] × [32,512]` product into the zero splat, at `(p, j)`: the sum over the 32 contracted coordinates. -/
theorem dot32_apply (a : FVec Ideal S1000x32 .bf16) (w : FVec Ideal S32x512 .bf16) (p : Fin 1000) (j : Fin 512) :
    matmul dot_S1000x32_S32x512_S1000x512_1_0_0_1_n_n none a w (constant (F := Ideal) S1000x512 .f32 0x00000000#32) (ix2 p j)
      = ∑ h : Fin 32, a (ix2 p h) * w (ix2 h j) := by
  refine (Ideal.matmul_constant_zero_apply dot_S1000x32_S32x512_S1000x512_1_0_0_1_n_n none a w (ix2 p j)).trans ?_
  rw [← Equiv.sum_comp (contrEquiv1 dot_S1000x32_S32x512_S1000x512_1_0_0_1_n_n 32 rfl rfl).symm]
  refine Finset.sum_congr rfl fun k _ => ?_
  have hk := contrEquiv1_symm_val dot_S1000x32_S32x512_S1000x512_1_0_0_1_n_n 32 rfl rfl k
  have el : dot_S1000x32_S32x512_S1000x512_1_0_0_1_n_n.lhsIdx (ix2 p j) ((contrEquiv1 dot_S1000x32_S32x512_S1000x512_1_0_0_1_n_n 32 rfl rfl).symm k) = ix2 p k := funext fun c => Fin.ext (by
    match c with
    | ⟨0, _⟩ => exact lhs32_0 _ _
    | ⟨1, _⟩ => exact (lhs32_1 _ _).trans hk)
  have er : dot_S1000x32_S32x512_S1000x512_1_0_0_1_n_n.rhsIdx (ix2 p j) ((contrEquiv1 dot_S1000x32_S32x512_S1000x512_1_0_0_1_n_n 32 rfl rfl).symm k) = ix2 k j := funext fun c => Fin.ext (by
    match c with
    | ⟨0, _⟩ => exact (rhs32_0 _ _).trans hk
    | ⟨1, _⟩ => exact rhs32_1 _ _)
  rw [el, er]

/-- The left operand's index of the `[1000,128] × [128,512]` product keeps the output row … -/
theorem tail_lhs128_0 (i : S1000x512.Idx) (q : dot_S1000x128_S128x512_S1000x512_1_0_0_1_n_n.contr.Idx) :
    (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl
/-- … and takes the contracted coordinate as its column; -/
theorem tail_lhs128_1 (i : S1000x512.Idx) (q : dot_S1000x128_S128x512_S1000x512_1_0_0_1_n_n.contr.Idx) :
    (dot_S1000x128_S128x512_S1000x512_1_0_0_1_n_n.lhsIdx i q 1).val = (q ⟨0, by decide⟩).val :=
  dot_S1000x128_S128x512_S1000x512_1_0_0_1_n_n.lhsIdx_val_of_single rfl i q
/-- the right operand's index takes the contracted coordinate as its row … -/
theorem tail_rhs128_0 (i : S1000x512.Idx) (q : dot_S1000x128_S128x512_S1000x512_1_0_0_1_n_n.contr.Idx) :
    (dot_S1000x128_S128x512_S1000x512_1_0_0_1_n_n.rhsIdx i q 0).val = (q ⟨0, by decide⟩).val :=
  dot_S1000x128_S128x512_S1000x512_1_0_0_1_n_n.rhsIdx_val_of_single rfl i q
/-- … and keeps the output column. -/
theorem tail_rhs128_1 (i : S1000x512.Idx) (q : dot_S1000x128_S128x512_S1000x512_1_0_0_1_n_n.contr.Idx) :
    (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl

/-- The `[1000,128] × [128,512]` product into the zero splat, at `(p, j)`: the sum over the 128 contracted coordinates. -/
theorem dot128_apply (a : FVec Ideal S1000x128 .bf16) (w : FVec Ideal S128x512 .bf16) (p : Fin 1000) (j : Fin 512) :
    matmul dot_S1000x128_S128x512_S1000x512_1_0_0_1_n_n none a w (constant (F := Ideal) S1000x512 .f32 0x00000000#32) (ix2 p j)
      = ∑ h : Fin 128, a (ix2 p h) * w (ix2 h j) := by
  refine (Ideal.matmul_constant_zero_apply dot_S1000x128_S128x512_S1000x512_1_0_0_1_n_n none a w (ix2 p j)).trans ?_
  rw [← Equiv.sum_comp (contrEquiv1 dot_S1000x128_S128x512_S1000x512_1_0_0_1_n_n 128 rfl rfl).symm]
  refine Finset.sum_congr rfl fun k _ => ?_
  have hk := contrEquiv1_symm_val dot_S1000x128_S128x512_S1000x512_1_0_0_1_n_n 128 rfl rfl k
  have el : dot_S1000x128_S128x512_S1000x512_1_0_0_1_n_n.lhsIdx (ix2 p j) ((contrEquiv1 dot_S1000x128_S128x512_S1000x512_1_0_0_1_n_n 128 rfl rfl).symm k) = ix2 p k := funext fun c => Fin.ext (by
    match c with
    | ⟨0, _⟩ => exact tail_lhs128_0 _ _
    | ⟨1, _⟩ => exact (tail_lhs128_1 _ _).trans hk)
  have er : dot_S1000x128_S128x512_S1000x512_1_0_0_1_n_n.rhsIdx (ix2 p j) ((contrEquiv1 dot_S1000x128_S128x512_S1000x512_1_0_0_1_n_n 128 rfl rfl).symm k) = ix2 k j := funext fun c => Fin.ext (by
    match c with
    | ⟨0, _⟩ => exact (tail_rhs128_0 _ _).trans hk
    | ⟨1, _⟩ => exact tail_rhs128_1 _ _)
  rw [el, er]

/-- A 128-wide column slice of the 512 pre-activations, cut at `128·j`, reads at `(p, q)` column `quarter j q`. -/
theorem quarterSlice_apply {α : Type} (P : S1000x512.Idx → α) (o : ℕ) (h : S1000x512.Slices ![0, o] S1000x128) (j : Fin 4)
    (ho : o = 128 * j.val) (p : Fin 1000) (q : Fin 128) :
    extractStridedSlice S1000x128 ![0, o] P h (ix2 p q) = P (ix2 p (quarter j q)) :=
  slice2_axis1_apply o P h p q (quarter j q) (by subst ho; show q.val + 128 * j.val = 128 * j.val + q.val; omega)

/-- The sum of a `[1000,128]` block over its columns, at row `p`: the sum of that row's 128 entries. -/
theorem rowSum_apply (Y : FVec Ideal S1000x128 .f32) (p : Fin 1000) :
    multiReduction .add [1] S1000 Y 0x00000000#32 reduces_S1000x128_S1000 (.inl rfl) rfl (ix1 p) = ∑ k : Fin 128, Y (ix2 p k) :=
  (Ideal.multiReduction_add_single Y 0x00000000#32 reduces_S1000x128_S1000 (.inl rfl) rfl (ix1 p)).trans
    (Finset.sum_congr rfl fun k _ => congrArg Y (funext fun c => Fin.ext (by
      match c with
      | ⟨0, _⟩ => rfl
      | ⟨1, _⟩ => rfl)))

/-- A vector of length `a` laid out as one column reads, at `(p, u)`, its entry `p`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over 128 columns reads, at `(p, c)`, the column's entry at row `p`. -/
theorem colBroadcast_apply {α : Type} (v : S1000x1.Idx → α) (h : S1000x1.Broadcasts S1000x128) (p : Fin 1000) (c : Fin 128) :
    broadcastTo S1000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The body's static projection at row `p`, column `q` is the row's `static`. -/
theorem static_apply (v6 : FVec Ideal S1000x27 .bf16) (v13 : FVec Ideal S27x128 .bf16) (v14 : Vec Ideal S128 .f32)
    (W : Weights) (r : Row) (p : Fin 1000)
    (hst : ∀ j : Fin 27, r.st j = v6 (ix2 p j))
    (hws : ∀ (o : Fin 128) (j : Fin 27), W.ws o j = v13 (ix2 j o))
    (hbs : ∀ o : Fin 128, W.bs o = v14 (ix1 o))
    (q : Fin 128) :
    k0_pay21 v6 v13 v14 (ix2 p q) = static W r q := by
  unfold k0_pay21
  refine (addf_apply _ _ _).trans ?_
  refine (congrArg₂ (· + ·) (dot27_apply v6 v13 p q) (rowBroadcast_apply v14 _ _ p q)).trans ?_
  unfold static
  rw [hbs q]
  exact congrArg (· + v14 (ix1 q)) (Finset.sum_congr rfl fun j _ => by rw [hst j, hws q j])

/-- The body's 512 LSTM pre-activations at row `p`, column `d` are the row's `z`, when `v167` and `v168` hold the row's
    static projection and neighbour context (the static projection's change of format before the last product is the
    identity on extended reals). -/
theorem z_apply (v4 : FVec Ideal S1000x32 .bf16) (v5 : FVec Ideal S1000x128 .bf16)
    (v16 : FVec Ideal S32x512 .bf16) (v18 v20 v22 : FVec Ideal S128x512 .bf16) (v23 : Vec Ideal S512 .f32)
    (v167 : FVec Ideal S1000x128 .f32) (v168 : FVec Ideal S1000x128 .bf16)
    (W : Weights) (r : Row) (p : Fin 1000)
    (hx : ∀ j : Fin 32, r.x j = v4 (ix2 p j))
    (hh : ∀ j : Fin 128, r.h j = v5 (ix2 p j))
    (hw0 : ∀ (c : Fin 512) (j : Fin 32), W.wl0 c j = v16 (ix2 j c))
    (hw1 : ∀ (c : Fin 512) (h : Fin 128), W.wl1 c h = v18 (ix2 h c))
    (hw2 : ∀ (c : Fin 512) (h : Fin 128), W.wl2 c h = v20 (ix2 h c))
    (hw3 : ∀ (c : Fin 512) (h : Fin 128), W.wl3 c h = v22 (ix2 h c))
    (hbl : ∀ c : Fin 512, W.bl c = v23 (ix1 c))
    (hsp : ∀ o : Fin 128, static W r o = v167 (ix2 p o))
    (hnc : ∀ o : Fin 128, context W r o = v168 (ix2 p o))
    (d : Fin 512) :
    k0_pay23 v4 v5 v16 v18 v20 v22 v23 v167 v168 (ix2 p d) = z W r d := by
  have e1 := dot32_apply v4 v16 p d
  have e2 := dot128_apply v5 v18 p d
  have e3 := dot128_apply v168 v20 p d
  have e4 := dot128_apply (truncf .bf16 v167 bitsLt_bf16_f32) v22 p d
  have e5 := rowBroadcast_apply v23 shapeCasts_S512_S1x512 broadcasts_S1x512_S1000x512 p d
  unfold k0_pay23
  refine (congrArg₂ (· + ·) (congrArg₂ (· + ·) (congrArg₂ (· + ·) (congrArg₂ (· + ·) e1 e2) e3) e4) e5).trans ?_
  unfold z
  rw [hbl d]
  refine congrArg (· + v23 (ix1 d)) (congrArg₂ (· + ·) (congrArg₂ (· + ·) (congrArg₂ (· + ·) ?_ ?_) ?_) ?_)
  · exact Finset.sum_congr rfl fun j _ => by rw [hx j, hw0 d j]
  · exact Finset.sum_congr rfl fun j _ => by rw [hh j, hw1 d j]
  · exact Finset.sum_congr rfl fun j _ => by rw [hnc j, hw2 d j]
  · exact Finset.sum_congr rfl fun j _ => by
      show v167 (ix2 p j) * v22 (ix2 j d) = _
      rw [hsp j, hw3 d j]

/-- The body's new cell state at row `p`, column `q` is the row's `cNew`, when `v167` and `v168` hold the row's static
    projection and neighbour context. -/
theorem cNew_apply (v2 : Vec Ideal S1000x128 .f32) (v4 : FVec Ideal S1000x32 .bf16) (v5 : FVec Ideal S1000x128 .bf16)
    (v16 : FVec Ideal S32x512 .bf16) (v18 v20 v22 : FVec Ideal S128x512 .bf16) (v23 : Vec Ideal S512 .f32)
    (v167 : FVec Ideal S1000x128 .f32) (v168 : FVec Ideal S1000x128 .bf16)
    (W : Weights) (r : Row) (p : Fin 1000)
    (hx : ∀ j : Fin 32, r.x j = v4 (ix2 p j))
    (hh : ∀ j : Fin 128, r.h j = v5 (ix2 p j))
    (hc : ∀ o : Fin 128, r.c o = v2 (ix2 p o))
    (hw0 : ∀ (c : Fin 512) (j : Fin 32), W.wl0 c j = v16 (ix2 j c))
    (hw1 : ∀ (c : Fin 512) (h : Fin 128), W.wl1 c h = v18 (ix2 h c))
    (hw2 : ∀ (c : Fin 512) (h : Fin 128), W.wl2 c h = v20 (ix2 h c))
    (hw3 : ∀ (c : Fin 512) (h : Fin 128), W.wl3 c h = v22 (ix2 h c))
    (hbl : ∀ c : Fin 512, W.bl c = v23 (ix1 c))
    (hsp : ∀ o : Fin 128, static W r o = v167 (ix2 p o))
    (hnc : ∀ o : Fin 128, context W r o = v168 (ix2 p o))
    (q : Fin 128) :
    k0_pay24 v2 v4 v5 v16 v18 v20 v22 v23 v167 v168 (ix2 p q) = cNew W r q := by
  have hz := z_apply v4 v5 v16 v18 v20 v22 v23 v167 v168 W r p hx hh hw0 hw1 hw2 hw3 hbl hsp hnc
  have e0 := (quarterSlice_apply (k0_pay23 v4 v5 v16 v18 v20 v22 v23 v167 v168) 0 slices_S1000x512_o0_0_S1000x128 0 rfl p q).trans
    (hz (quarter 0 q))
  have e1 := (quarterSlice_apply (k0_pay23 v4 v5 v16 v18 v20 v22 v23 v167 v168) 128 slices_S1000x512_o0_128_S1000x128 1 rfl p q).trans
    (hz (quarter 1 q))
  have e3 := (quarterSlice_apply (k0_pay23 v4 v5 v16 v18 v20 v22 v23 v167 v168) 384 slices_S1000x512_o0_384_S1000x128 3 rfl p q).trans
    (hz (quarter 3 q))
  unfold cNew
  rw [hc q, ← e0, ← e1, ← e3]
  rfl

/-! ## The layer normalisation of a block, row by row -/

/-- The mean over its 128 columns of each row of a block, kept as a column: the row sums divided by the literal 128. -/
def meanCol (Y : FVec Ideal S1000x128 .f32) : FVec Ideal S1000x1 .f32 :=
  divf (shapeCast S1000x1 (multiReduction .add [1] S1000 Y 0x00000000#32 reduces_S1000x128_S1000 (.inl rfl) rfl) shapeCasts_S1000_S1000x1)
    (broadcast S1000x1 (Scalar.ofBits .f32 0x43000000#32))

/-- At row `p` it is the sum of the row's entries over 128. -/
theorem meanCol_apply (Y : FVec Ideal S1000x128 .f32) (p : Fin 1000) (u : Fin 1) :
    meanCol Y (ix2 p u) = Ideal.div (∑ k : Fin 128, Y (ix2 p k)) (Ideal.ofBits .f32 0x43000000#32) :=
  congrArg (Ideal.div · (Ideal.ofBits .f32 0x43000000#32))
    ((shapeCast_a_a1_apply _ shapeCasts_S1000_S1000x1 p u).trans (rowSum_apply Y p))

/-- A block with each row's mean subtracted from the row. -/
def centred (X : FVec Ideal S1000x128 .f32) : FVec Ideal S1000x128 .f32 :=
  subf X (broadcastTo S1000x128 (meanCol X) broadcasts_S1000x1_S1000x128)

/-- At `(p, k)`: the entry minus the row's mean, the row `p` of the block being `f`. -/
theorem centred_apply (X : FVec Ideal S1000x128 .f32) (p : Fin 1000) (f : Fin 128 → EReal) (hf : ∀ o, X (ix2 p o) = f o)
    (k : Fin 128) :
    centred X (ix2 p k) = f k - Ideal.div (∑ o : Fin 128, f o) (Ideal.ofBits .f32 0x43000000#32) :=
  congrArg₂ (· - ·) (hf k)
    (((colBroadcast_apply (meanCol X) broadcasts_S1000x1_S1000x128 p k).trans (meanCol_apply X p 0)).trans
      (congrArg (Ideal.div · (Ideal.ofBits .f32 0x43000000#32)) (Finset.sum_congr rfl fun o _ => hf o)))

/-- The layer normalisation of a block: centre each row, scale it by the reciprocal square root of its variance plus
    the literal ε, then scale and shift column-wise by the two parameter rows. -/
def layerNorm (X : FVec Ideal S1000x128 .f32) (v24 v25 : Vec Ideal S128 .f32) : FVec Ideal S1000x128 .f32 :=
  addf
    (mulf
      (mulf (centred X)
        (broadcastTo S1000x128
          (rsqrt (addf (meanCol (mulf (centred X) (centred X))) (broadcast S1000x1 (Scalar.ofBits .f32 0x3727C5AC#32))))
          broadcasts_S1000x1_S1000x128))
      (broadcastTo S1000x128 (shapeCast S1x128 v24 shapeCasts_S128_S1x128) broadcasts_S1x128_S1000x128))
    (broadcastTo S1000x128 (shapeCast S1x128 v25 shapeCasts_S128_S1x128) broadcasts_S1x128_S1000x128)

/-- At `(p, q)`, the row `p` of the block being `f`. -/
theorem layerNorm_apply (X : FVec Ideal S1000x128 .f32) (v24 v25 : Vec Ideal S128 .f32) (p : Fin 1000)
    (f : Fin 128 → EReal) (hf : ∀ o, X (ix2 p o) = f o) (q : Fin 128) :
    layerNorm X v24 v25 (ix2 p q)
      = ((f q - Ideal.div (∑ o : Fin 128, f o) (Ideal.ofBits .f32 0x43000000#32))
          * Ideal.rsqrt
              (Ideal.div
                  (∑ o : Fin 128, (f o - Ideal.div (∑ o : Fin 128, f o) (Ideal.ofBits .f32 0x43000000#32))
                    * (f o - Ideal.div (∑ o : Fin 128, f o) (Ideal.ofBits .f32 0x43000000#32)))
                  (Ideal.ofBits .f32 0x43000000#32)
                + Ideal.ofBits .f32 0x3727C5AC#32))
          * v24 (ix1 q) + v25 (ix1 q) := by
  have hc := centred_apply X p f hf
  have hv : meanCol (mulf (centred X) (centred X)) (ix2 p (0 : Fin 1))
      = Ideal.div
          (∑ o : Fin 128, (f o - Ideal.div (∑ o : Fin 128, f o) (Ideal.ofBits .f32 0x43000000#32))
            * (f o - Ideal.div (∑ o : Fin 128, f o) (Ideal.ofBits .f32 0x43000000#32)))
          (Ideal.ofBits .f32 0x43000000#32) :=
    (meanCol_apply _ p 0).trans
      (congrArg (Ideal.div · (Ideal.ofBits .f32 0x43000000#32))
        (Finset.sum_congr rfl fun o _ => congrArg₂ (· * ·) (hc o) (hc o)))
  have hs := (colBroadcast_apply
      (rsqrt (addf (meanCol (mulf (centred X) (centred X))) (broadcast S1000x1 (Scalar.ofBits .f32 0x3727C5AC#32))))
      broadcasts_S1000x1_S1000x128 p q).trans
    (congrArg (fun t => Ideal.rsqrt (t + Ideal.ofBits .f32 0x3727C5AC#32)) hv)
  unfold layerNorm
  exact congrArg₂ (· + ·)
    (congrArg₂ (· * ·) (congrArg₂ (· * ·) (hc q) hs)
      (rowBroadcast_apply v24 shapeCasts_S128_S1x128 broadcasts_S1x128_S1000x128 p q))
    (rowBroadcast_apply v25 shapeCasts_S128_S1x128 broadcasts_S1x128_S1000x128 p q)

/-- The body's normalised hidden state at row `p`, column `q` is the row's `hOut`. -/
theorem hOut_apply (v2 : Vec Ideal S1000x128 .f32) (v4 : FVec Ideal S1000x32 .bf16) (v5 : FVec Ideal S1000x128 .bf16)
    (v16 : FVec Ideal S32x512 .bf16) (v18 v20 v22 : FVec Ideal S128x512 .bf16) (v23 : Vec Ideal S512 .f32)
    (v24 v25 : Vec Ideal S128 .f32)
    (v167 : FVec Ideal S1000x128 .f32) (v168 : FVec Ideal S1000x128 .bf16)
    (W : Weights) (r : Row) (p : Fin 1000)
    (hx : ∀ j : Fin 32, r.x j = v4 (ix2 p j))
    (hh : ∀ j : Fin 128, r.h j = v5 (ix2 p j))
    (hc : ∀ o : Fin 128, r.c o = v2 (ix2 p o))
    (hw0 : ∀ (c : Fin 512) (j : Fin 32), W.wl0 c j = v16 (ix2 j c))
    (hw1 : ∀ (c : Fin 512) (h : Fin 128), W.wl1 c h = v18 (ix2 h c))
    (hw2 : ∀ (c : Fin 512) (h : Fin 128), W.wl2 c h = v20 (ix2 h c))
    (hw3 : ∀ (c : Fin 512) (h : Fin 128), W.wl3 c h = v22 (ix2 h c))
    (hbl : ∀ c : Fin 512, W.bl c = v23 (ix1 c))
    (hlnw : ∀ o : Fin 128, W.lnw o = v24 (ix1 o))
    (hlnb : ∀ o : Fin 128, W.lnb o = v25 (ix1 o))
    (hsp : ∀ o : Fin 128, static W r o = v167 (ix2 p o))
    (hnc : ∀ o : Fin 128, context W r o = v168 (ix2 p o))
    (q : Fin 128) :
    k0_pay25 v2 v4 v5 v16 v18 v20 v22 v23 v24 v25 v167 v168 (ix2 p q) = hOut W r q := by
  have hz := z_apply v4 v5 v16 v18 v20 v22 v23 v167 v168 W r p hx hh hw0 hw1 hw2 hw3 hbl hsp hnc
  have hcn := cNew_apply v2 v4 v5 v16 v18 v20 v22 v23 v167 v168 W r p hx hh hc hw0 hw1 hw2 hw3 hbl hsp hnc
  have hX : ∀ o : Fin 128,
      mulf (logistic (extractStridedSlice S1000x128 ![0, 256] (k0_pay23 v4 v5 v16 v18 v20 v22 v23 v167 v168)
          slices_S1000x512_o0_256_S1000x128))
        (tanh (k0_pay24 v2 v4 v5 v16 v18 v20 v22 v23 v167 v168)) (ix2 p o) = hRaw W r o := fun o => by
    have e2 := (quarterSlice_apply (k0_pay23 v4 v5 v16 v18 v20 v22 v23 v167 v168) 256 slices_S1000x512_o0_256_S1000x128 2 rfl p o).trans
      (hz (quarter 2 o))
    unfold hRaw
    rw [← e2, ← hcn o]
    rfl
  show layerNorm
      (mulf (logistic (extractStridedSlice S1000x128 ![0, 256] (k0_pay23 v4 v5 v16 v18 v20 v22 v23 v167 v168)
          slices_S1000x512_o0_256_S1000x128))
        (tanh (k0_pay24 v2 v4 v5 v16 v18 v20 v22 v23 v167 v168))) v24 v25 (ix2 p q) = _
  refine (layerNorm_apply _ v24 v25 p (hRaw W r) hX q).trans ?_
  unfold hOut var mean
  rw [hlnw q, hlnb q]

end Cert.KernelIdeal.Body

end
-- ==== Proof.KernelHost.lean ====
/-
  What the region finds in the arrays the host operations before it wrote, read back to the argument arrays.

  Each such array is a composition of layout operations over the argument arrays (a reshape, slices, a
  concatenation, transposes) followed, for the weights, by a change of float format, which is the identity on the
  extended reals; the 0/1 validity bits are converted entrywise. Read at an index, every layout operation moves
  the index and leaves the value alone, so each entry is one entry of an argument array.
-/
import proofs.«409955_j30081950941525_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The validity weights: each bit as the number it denotes. -/
theorem mask_apply (n : Fin 50000) (k : Fin 8) :
    (V m c main_v0 : S50000x8.Idx → EReal) (ix2 n k)
      = FloatOps.uitofp (F := Ideal) .f32 ((m ((c : Thread nD τ).loc main_arg4) : S50000x8.Idx → BitVec 1) (ix2 n k)) := by
  have e : (V m c main_v0 : S50000x8.Idx → EReal)
      = uitofp (F := Ideal) .f32 (m ((c : Thread nD τ).loc main_arg4) : S50000x8.Idx → BitVec 1) := by
    dsimp only [Gen.V, Gen.hostOps0]; after_results
  rw [e]; rfl

/-- The neighbours' states with the last two axes merged: column `128·k + h` is neighbour `k`, coordinate `h`. -/
theorem hin_apply (n : Fin 50000) (k : Fin 8) (h : Fin 128) :
    (V m c main_v1 : S50000x1024.Idx → EReal) (ix2 n (⟨128 * k.val + h.val, by have := k.isLt; have := h.isLt; omega⟩ : Fin 1024))
      = (m ((c : Thread nD τ).loc main_arg3) : S50000x8x128.Idx → EReal) (ix3 n k h) := by
  -- the array is the argument reshaped: the same row-major position
  have e : (V m c main_v1 : S50000x1024.Idx → EReal)
      = shapeCast S50000x1024 (m ((c : Thread nD τ).loc main_arg3) : S50000x8x128.Idx → EReal) shapeCasts_S50000x8x128_S50000x1024 := by
    dsimp only [Gen.V, Gen.hostOps0]; after_results; rfl
  rw [e]
  refine shapeCast_apply _ _ _ (ix3 n k h) ?_
  rw [Shape.rowMajor_val_two, Shape.rowMajor_val_three]
  show (n.val * 8 + k.val) * 128 + h.val = n.val * 1024 + (128 * k.val + h.val)
  omega

/-- The fused matrix before the region: the message matrix stacked on the neighbour half of the gate matrix, transposed. -/
theorem wcat_eq :
    (V m c main_v6 : S128x256.Idx → EReal)
      = truncf (F := Ideal) .bf16 (transpose S128x256 [1, 0]
          (concatenate S256x128 0
            [⟨S128x128, (m ((c : Thread nD τ).loc main_arg6) : S128x128.Idx → EReal)⟩,
             ⟨S128x128, extractStridedSlice S128x128 ![0, 0] (m ((c : Thread nD τ).loc main_arg7) : S128x256.Idx → EReal) slices_S128x256_S128x128_0_0⟩]
            concatenates_S128x128_S128x128_S256x128_d0)
          transposes_S256x128_S128x256_1_0) bitsLt_bf16_f32 := by
  dsimp only [Gen.V, Gen.hostOps0]; after_results

/-- The fused matrix: its columns 0..127 are the message matrix transposed. -/
theorem wcat_lo_apply (h o : Fin 128) :
    (V m c main_v6 : S128x256.Idx → EReal) (ix2 h (⟨o.val, by have := o.isLt; omega⟩ : Fin 256))
      = (m ((c : Thread nD τ).loc main_arg6) : S128x128.Idx → EReal) (ix2 o h) := by
  rw [wcat_eq m c]
  refine (truncf_apply (ψ := .bf16) (φ := .f32) _ bitsLt_bf16_f32 _).trans ?_
  refine (transpose_apply _ _ _ _ (ix2 (⟨o.val, by have := o.isLt; omega⟩ : Fin 256) h)
    (fun b => match b with | ⟨0, _⟩ => rfl | ⟨1, _⟩ => rfl)).trans ?_
  exact concatenate_pair_apply_left (t := S256x128) (s₁ := S128x128) (s₂ := S128x128) 0 _ _
    concatenates_S128x128_S128x128_S256x128_d0 (ix2 (⟨o.val, by have := o.isLt; omega⟩ : Fin 256) h) rfl (ix2 o h)
    (fun b => match b with | ⟨0, _⟩ => rfl | ⟨1, _⟩ => rfl)

/-- … and its columns 128..255 the neighbour half of the gate matrix transposed. -/
theorem wcat_hi_apply (h o : Fin 128) :
    (V m c main_v6 : S128x256.Idx → EReal) (ix2 h (⟨o.val + 128, by have := o.isLt; omega⟩ : Fin 256))
      = (m ((c : Thread nD τ).loc main_arg7) : S128x256.Idx → EReal) (ix2 o (⟨h.val, by have := h.isLt; omega⟩ : Fin 256)) := by
  rw [wcat_eq m c]
  refine (truncf_apply (ψ := .bf16) (φ := .f32) _ bitsLt_bf16_f32 _).trans ?_
  refine (transpose_apply _ _ _ _ (ix2 (⟨o.val + 128, by have := o.isLt; omega⟩ : Fin 256) h)
    (fun b => match b with | ⟨0, _⟩ => rfl | ⟨1, _⟩ => rfl)).trans ?_
  refine (concatenate_pair_apply_right (t := S256x128) (s₁ := S128x128) (s₂ := S128x128) 0 _ _
    concatenates_S128x128_S128x128_S256x128_d0 (ix2 (⟨o.val + 128, by have := o.isLt; omega⟩ : Fin 256) h) rfl rfl (ix2 o h)
    (fun b hb => match b, hb with | ⟨0, _⟩, hb => (hb rfl).elim | ⟨1, _⟩, _ => rfl) rfl).trans ?_
  exact extractStridedSlice_apply _ _ _ _ (ix2 o (⟨h.val, by have := h.isLt; omega⟩ : Fin 256))
    (fun a => match a with | ⟨0, _⟩ => (Nat.zero_add _).symm | ⟨1, _⟩ => (Nat.zero_add _).symm)

/-- The self half of the gate matrix transposed. -/
theorem wg2_apply (h o : Fin 128) :
    (V m c main_v8 : S128x128.Idx → EReal) (ix2 h o)
      = (m ((c : Thread nD τ).loc main_arg7) : S128x256.Idx → EReal) (ix2 o (⟨h.val + 128, by have := h.isLt; omega⟩ : Fin 256)) := by
  have e : (V m c main_v8 : S128x128.Idx → EReal)
      = truncf (F := Ideal) .bf16 (transpose S128x128 [1, 0]
          (extractStridedSlice S128x128 ![0, 128] (m ((c : Thread nD τ).loc main_arg7) : S128x256.Idx → EReal) slices_S128x256_S128x128_0_128)
          transposes_S128x128_S128x128_1_0) bitsLt_bf16_f32 := by
    dsimp only [Gen.V, Gen.hostOps0]; after_results
  rw [e]
  refine (truncf_apply (ψ := .bf16) (φ := .f32) _ bitsLt_bf16_f32 _).trans ?_
  refine (transpose_apply _ _ _ _ (ix2 o h)
    (fun b => match b with | ⟨0, _⟩ => rfl | ⟨1, _⟩ => rfl)).trans ?_
  exact extractStridedSlice_apply _ _ _ _ (ix2 o (⟨h.val + 128, by have := h.isLt; omega⟩ : Fin 256))
    (fun a => match a with | ⟨0, _⟩ => (Nat.zero_add _).symm | ⟨1, _⟩ => Nat.add_comm _ _)

/-- The static matrix transposed. -/
theorem ws_apply (j : Fin 27) (o : Fin 128) :
    (V m c main_v10 : S27x128.Idx → EReal) (ix2 j o)
      = (m ((c : Thread nD τ).loc main_arg9) : S128x27.Idx → EReal) (ix2 o j) := by
  have e : (V m c main_v10 : S27x128.Idx → EReal)
      = truncf (F := Ideal) .bf16 (transpose S27x128 [1, 0]
          (m ((c : Thread nD τ).loc main_arg9) : S128x27.Idx → EReal) transposes_S128x27_S27x128_1_0) bitsLt_bf16_f32 := by
    dsimp only [Gen.V, Gen.hostOps0]; after_results
  rw [e]
  refine (truncf_apply (ψ := .bf16) (φ := .f32) _ bitsLt_bf16_f32 _).trans ?_
  exact transpose_apply _ _ _ _ (ix2 o j)
    (fun b => match b with | ⟨0, _⟩ => rfl | ⟨1, _⟩ => rfl)

/-- The four row blocks of the LSTM matrix transposed. -/
theorem wl0_apply (j : Fin 32) (d : Fin 512) :
    (V m c main_v13 : S32x512.Idx → EReal) (ix2 j d)
      = (m ((c : Thread nD τ).loc main_arg11) : S512x416.Idx → EReal) (ix2 d (⟨j.val, by have := j.isLt; omega⟩ : Fin 416)) := by
  -- rows 0..31 of the transposed matrix
  have e : (V m c main_v13 : S32x512.Idx → EReal)
      = truncf (F := Ideal) .bf16 (extractStridedSlice S32x512 ![0, 0]
          (transpose S416x512 [1, 0] (m ((c : Thread nD τ).loc main_arg11) : S512x416.Idx → EReal) transposes_S512x416_S416x512_1_0)
          slices_S416x512_S32x512_0_0) bitsLt_bf16_f32 := by
    dsimp only [Gen.V, Gen.hostOps0]; after_results
  rw [e]
  refine (truncf_apply (ψ := .bf16) (φ := .f32) _ bitsLt_bf16_f32 _).trans ?_
  refine (extractStridedSlice_apply _ _ _ _ (ix2 (⟨j.val, by have := j.isLt; omega⟩ : Fin 416) d)
    (fun a => match a with | ⟨0, _⟩ => (Nat.zero_add _).symm | ⟨1, _⟩ => (Nat.zero_add _).symm)).trans ?_
  exact transpose_apply _ _ _ _ (ix2 d (⟨j.val, by have := j.isLt; omega⟩ : Fin 416))
    (fun b => match b with | ⟨0, _⟩ => rfl | ⟨1, _⟩ => rfl)

theorem wl1_apply (h : Fin 128) (d : Fin 512) :
    (V m c main_v15 : S128x512.Idx → EReal) (ix2 h d)
      = (m ((c : Thread nD τ).loc main_arg11) : S512x416.Idx → EReal) (ix2 d (⟨h.val + 32, by have := h.isLt; omega⟩ : Fin 416)) := by
  -- rows 32..159 of the transposed matrix
  have e : (V m c main_v15 : S128x512.Idx → EReal)
      = truncf (F := Ideal) .bf16 (extractStridedSlice S128x512 ![32, 0]
          (transpose S416x512 [1, 0] (m ((c : Thread nD τ).loc main_arg11) : S512x416.Idx → EReal) transposes_S512x416_S416x512_1_0)
          slices_S416x512_S128x512_32_0) bitsLt_bf16_f32 := by
    dsimp only [Gen.V, Gen.hostOps0]; after_results
  rw [e]
  refine (truncf_apply (ψ := .bf16) (φ := .f32) _ bitsLt_bf16_f32 _).trans ?_
  refine (extractStridedSlice_apply _ _ _ _ (ix2 (⟨h.val + 32, by have := h.isLt; omega⟩ : Fin 416) d)
    (fun a => match a with | ⟨0, _⟩ => Nat.add_comm _ _ | ⟨1, _⟩ => (Nat.zero_add _).symm)).trans ?_
  exact transpose_apply _ _ _ _ (ix2 d (⟨h.val + 32, by have := h.isLt; omega⟩ : Fin 416))
    (fun b => match b with | ⟨0, _⟩ => rfl | ⟨1, _⟩ => rfl)

theorem wl2_apply (h : Fin 128) (d : Fin 512) :
    (V m c main_v17 : S128x512.Idx → EReal) (ix2 h d)
      = (m ((c : Thread nD τ).loc main_arg11) : S512x416.Idx → EReal) (ix2 d (⟨h.val + 160, by have := h.isLt; omega⟩ : Fin 416)) := by
  -- rows 160..287 of the transposed matrix
  have e : (V m c main_v17 : S128x512.Idx → EReal)
      = truncf (F := Ideal) .bf16 (extractStridedSlice S128x512 ![160, 0]
          (transpose S416x512 [1, 0] (m ((c : Thread nD τ).loc main_arg11) : S512x416.Idx → EReal) transposes_S512x416_S416x512_1_0)
          slices_S416x512_S128x512_160_0) bitsLt_bf16_f32 := by
    dsimp only [Gen.V, Gen.hostOps0]; after_results
  rw [e]
  refine (truncf_apply (ψ := .bf16) (φ := .f32) _ bitsLt_bf16_f32 _).trans ?_
  refine (extractStridedSlice_apply _ _ _ _ (ix2 (⟨h.val + 160, by have := h.isLt; omega⟩ : Fin 416) d)
    (fun a => match a with | ⟨0, _⟩ => Nat.add_comm _ _ | ⟨1, _⟩ => (Nat.zero_add _).symm)).trans ?_
  exact transpose_apply _ _ _ _ (ix2 d (⟨h.val + 160, by have := h.isLt; omega⟩ : Fin 416))
    (fun b => match b with | ⟨0, _⟩ => rfl | ⟨1, _⟩ => rfl)

theorem wl3_apply (h : Fin 128) (d : Fin 512) :
    (V m c main_v19 : S128x512.Idx → EReal) (ix2 h d)
      = (m ((c : Thread nD τ).loc main_arg11) : S512x416.Idx → EReal) (ix2 d (⟨h.val + 288, by have := h.isLt; omega⟩ : Fin 416)) := by
  -- rows 288..415 of the transposed matrix
  have e : (V m c main_v19 : S128x512.Idx → EReal)
      = truncf (F := Ideal) .bf16 (extractStridedSlice S128x512 ![288, 0]
          (transpose S416x512 [1, 0] (m ((c : Thread nD τ).loc main_arg11) : S512x416.Idx → EReal) transposes_S512x416_S416x512_1_0)
          slices_S416x512_S128x512_288_0) bitsLt_bf16_f32 := by
    dsimp only [Gen.V, Gen.hostOps0]; after_results
  rw [e]
  refine (truncf_apply (ψ := .bf16) (φ := .f32) _ bitsLt_bf16_f32 _).trans ?_
  refine (extractStridedSlice_apply _ _ _ _ (ix2 (⟨h.val + 288, by have := h.isLt; omega⟩ : Fin 416) d)
    (fun a => match a with | ⟨0, _⟩ => Nat.add_comm _ _ | ⟨1, _⟩ => (Nat.zero_add _).symm)).trans ?_
  exact transpose_apply _ _ _ _ (ix2 d (⟨h.val + 288, by have := h.isLt; omega⟩ : Fin 416))
    (fun b => match b with | ⟨0, _⟩ => rfl | ⟨1, _⟩ => rfl)

end Cert.KernelIdeal.HostPrefix

end
-- ==== Proof.CellArrays.lean ====
/-
  The cell's weights and a row's data read off the program's argument arrays, and the two results as whole arrays.

  The arguments, in the order of both programs: x [50000,32], h [50000,128], c [50000,128], the neighbours'
  hidden states [50000,8,128], their validity bits [50000,8], the static features [50000,27]; then the message
  matrix [128,128], the gate matrix [128,256] (columns 0..127 act on a neighbour's state, 128..255 on the row's own)
  and its bias, the static matrix [128,27] and its bias, the LSTM matrix [512,416] (columns 0..31 act on x,
  32..159 on h, 160..287 on the context, 288..415 on the static projection) and its bias, and the
  normalisation's scale and shift.  Every matrix is stored (output, input).  A validity bit enters as the
  real number 0 or 1 it denotes.
-/
import proofs.«409955_j30081950941525_3_alg».proof.Proof.CellSpec

noncomputable section

namespace Cert.RiverCell

open Idealize.ShloMosaic Idealize.ShloMosaic.ValueIdx

/-- The weights, read off the nine weight arrays. -/
def arrW (a6 : (⟨2, ![128, 128]⟩ : Shape).Idx → EReal) (a7 : (⟨2, ![128, 256]⟩ : Shape).Idx → EReal)
    (a8 : (⟨1, ![128]⟩ : Shape).Idx → EReal) (a9 : (⟨2, ![128, 27]⟩ : Shape).Idx → EReal)
    (a10 : (⟨1, ![128]⟩ : Shape).Idx → EReal) (a11 : (⟨2, ![512, 416]⟩ : Shape).Idx → EReal)
    (a12 : (⟨1, ![512]⟩ : Shape).Idx → EReal) (a13 a14 : (⟨1, ![128]⟩ : Shape).Idx → EReal) : Weights where
  wn o h := a6 (ix2 o h)
  wg1 o h := a7 (ix2 o (⟨h.val, by have := h.isLt; omega⟩ : Fin 256))
  wg2 o h := a7 (ix2 o (⟨h.val + 128, by have := h.isLt; omega⟩ : Fin 256))
  bg o := a8 (ix1 o)
  ws o j := a9 (ix2 o j)
  bs o := a10 (ix1 o)
  wl0 c j := a11 (ix2 c (⟨j.val, by have := j.isLt; omega⟩ : Fin 416))
  wl1 c h := a11 (ix2 c (⟨h.val + 32, by have := h.isLt; omega⟩ : Fin 416))
  wl2 c h := a11 (ix2 c (⟨h.val + 160, by have := h.isLt; omega⟩ : Fin 416))
  wl3 c h := a11 (ix2 c (⟨h.val + 288, by have := h.isLt; omega⟩ : Fin 416))
  bl c := a12 (ix1 c)
  lnw o := a13 (ix1 o)
  lnb o := a14 (ix1 o)

/-- Row `n`'s data, read off the six per-row arrays. -/
def arrRow (a0 : (⟨2, ![50000, 32]⟩ : Shape).Idx → EReal) (a1 a2 : (⟨2, ![50000, 128]⟩ : Shape).Idx → EReal)
    (a3 : (⟨3, ![50000, 8, 128]⟩ : Shape).Idx → EReal) (a4 : (⟨2, ![50000, 8]⟩ : Shape).Idx → BitVec 1)
    (a5 : (⟨2, ![50000, 27]⟩ : Shape).Idx → EReal) (n : Fin 50000) : Row where
  x j := a0 (ix2 n j)
  h j := a1 (ix2 n j)
  c j := a2 (ix2 n j)
  hin k h := a3 (ix3 n k h)
  mask k := FloatOps.uitofp (F := Ideal) .f32 (a4 (ix2 n k))
  st j := a5 (ix2 n j)

/-- The normalised hidden state of every row: the first result. -/
def hidden (a0 : (⟨2, ![50000, 32]⟩ : Shape).Idx → EReal) (a1 a2 : (⟨2, ![50000, 128]⟩ : Shape).Idx → EReal)
    (a3 : (⟨3, ![50000, 8, 128]⟩ : Shape).Idx → EReal) (a4 : (⟨2, ![50000, 8]⟩ : Shape).Idx → BitVec 1)
    (a5 : (⟨2, ![50000, 27]⟩ : Shape).Idx → EReal)
    (a6 : (⟨2, ![128, 128]⟩ : Shape).Idx → EReal) (a7 : (⟨2, ![128, 256]⟩ : Shape).Idx → EReal)
    (a8 : (⟨1, ![128]⟩ : Shape).Idx → EReal) (a9 : (⟨2, ![128, 27]⟩ : Shape).Idx → EReal)
    (a10 : (⟨1, ![128]⟩ : Shape).Idx → EReal) (a11 : (⟨2, ![512, 416]⟩ : Shape).Idx → EReal)
    (a12 : (⟨1, ![512]⟩ : Shape).Idx → EReal) (a13 a14 : (⟨1, ![128]⟩ : Shape).Idx → EReal) :
    (⟨2, ![50000, 128]⟩ : Shape).Idx → EReal :=
  fun i => hOut (arrW a6 a7 a8 a9 a10 a11 a12 a13 a14) (arrRow a0 a1 a2 a3 a4 a5 (i 0)) (i 1)

/-- The new cell state of every row: the second result. -/
def cell (a0 : (⟨2, ![50000, 32]⟩ : Shape).Idx → EReal) (a1 a2 : (⟨2, ![50000, 128]⟩ : Shape).Idx → EReal)
    (a3 : (⟨3, ![50000, 8, 128]⟩ : Shape).Idx → EReal) (a4 : (⟨2, ![50000, 8]⟩ : Shape).Idx → BitVec 1)
    (a5 : (⟨2, ![50000, 27]⟩ : Shape).Idx → EReal)
    (a6 : (⟨2, ![128, 128]⟩ : Shape).Idx → EReal) (a7 : (⟨2, ![128, 256]⟩ : Shape).Idx → EReal)
    (a8 : (⟨1, ![128]⟩ : Shape).Idx → EReal) (a9 : (⟨2, ![128, 27]⟩ : Shape).Idx → EReal)
    (a10 : (⟨1, ![128]⟩ : Shape).Idx → EReal) (a11 : (⟨2, ![512, 416]⟩ : Shape).Idx → EReal)
    (a12 : (⟨1, ![512]⟩ : Shape).Idx → EReal) (a13 a14 : (⟨1, ![128]⟩ : Shape).Idx → EReal) :
    (⟨2, ![50000, 128]⟩ : Shape).Idx → EReal :=
  fun i => cNew (arrW a6 a7 a8 a9 a10 a11 a12 a13 a14) (arrRow a0 a1 a2 a3 a4 a5 (i 0)) (i 1)

/-- The cell's outputs depend on the weights and the row only through their components. -/
theorem Weights.ext' {W W' : Weights} (h1 : W.wn = W'.wn) (h2 : W.wg1 = W'.wg1) (h3 : W.wg2 = W'.wg2) (h4 : W.bg = W'.bg)
    (h5 : W.ws = W'.ws) (h6 : W.bs = W'.bs) (h7 : W.wl0 = W'.wl0) (h8 : W.wl1 = W'.wl1) (h9 : W.wl2 = W'.wl2)
    (h10 : W.wl3 = W'.wl3) (h11 : W.bl = W'.bl) (h12 : W.lnw = W'.lnw) (h13 : W.lnb = W'.lnb) : W = W' := by
  cases W; cases W'; simp only [Weights.mk.injEq]; exact ⟨h1, h2, h3, h4, h5, h6, h7, h8, h9, h10, h11, h12, h13⟩

theorem Row.ext' {r r' : Row} (h1 : r.x = r'.x) (h2 : r.h = r'.h) (h3 : r.c = r'.c) (h4 : r.hin = r'.hin)
    (h5 : r.mask = r'.mask) (h6 : r.st = r'.st) : r = r' := by
  cases r; cases r'; simp only [Row.mk.injEq]; exact ⟨h1, h2, h3, h4, h5, h6⟩

end Cert.RiverCell

end
-- ==== Proof.KernelArray.lean ====
/-
  From the output blocks to the output arrays of the idealized kernel.

  Grid point t stages rows 1000·t … 1000·t + 999 of the six per-row arrays and the whole of every weight array, and
  writes back rows 1000·t … 1000·t + 999 of both results. Row p of the block a point writes is the cell applied to
  row p of its input blocks with the weights read off the weight blocks; the per-row blocks are rows of the argument
  arrays (the neighbours' states with their last two axes merged, the validity bits as numbers) and the weight blocks are
  the argument matrices transposed, the gate matrix cut in its two halves and the LSTM matrix in its four row blocks.
  So point t writes block t of the whole-array functions `hidden` and `cell` of the arguments, the fifty blocks tile
  the 50000 rows, and both result arrays end at those functions.
-/
import proofs.«409955_j30081950941525_3_alg».proof.Proof.KernelBlocks
import proofs.«409955_j30081950941525_3_alg».proof.Proof.KernelNbr
import proofs.«409955_j30081950941525_3_alg».proof.Proof.KernelTail
import proofs.«409955_j30081950941525_3_alg».proof.Proof.KernelHost
import proofs.«409955_j30081950941525_3_alg».proof.Proof.CellArrays

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.RiverCell
open Idealize.ShloMosaic.Pipeline (Dat)

/-! ## One output block at an element -/

theorem zero2 : (![0, 0] : Fin 2 → Nat) = fun _ => 0 := funext fun a => by fin_cases a <;> rfl
theorem zero1 : (![0] : Fin 1 → Nat) = fun _ => 0 := funext fun a => by fin_cases a; rfl

/-- The weights as the body finds them in its twelve weight blocks: each matrix block is stored (input, output). -/
def blockW (x6 : Vec Ideal S128x256 .bf16) (x7 : Vec Ideal S128x128 .bf16) (x8 : Vec Ideal S128 .f32)
    (x9 : Vec Ideal S27x128 .bf16) (x10 : Vec Ideal S128 .f32) (x11 : Vec Ideal S32x512 .bf16)
    (x12 x13 x14 : Vec Ideal S128x512 .bf16) (x15 : Vec Ideal S512 .f32) (x16 x17 : Vec Ideal S128 .f32) : Weights where
  wn o h := x6 (ix2 h (⟨o.val, by have := o.isLt; omega⟩ : Fin 256))
  wg1 o h := x6 (ix2 h (⟨o.val + 128, by have := o.isLt; omega⟩ : Fin 256))
  wg2 o h := x7 (ix2 h o)
  bg o := x8 (ix1 o)
  ws o j := x9 (ix2 j o)
  bs o := x10 (ix1 o)
  wl0 d j := x11 (ix2 j d)
  wl1 d h := x12 (ix2 h d)
  wl2 d h := x13 (ix2 h d)
  wl3 d h := x14 (ix2 h d)
  bl d := x15 (ix1 d)
  lnw o := x16 (ix1 o)
  lnb o := x17 (ix1 o)

/-- Row `p` of the six per-row blocks. -/
def blockRow (x0 : Vec Ideal S1000x32 .f32) (x1 x2 : Vec Ideal S1000x128 .f32) (x3 : Vec Ideal S1000x1024 .f32)
    (x4 : Vec Ideal S1000x8 .f32) (x5 : Vec Ideal S1000x27 .f32) (p : Fin 1000) : Row where
  x j := x0 (ix2 p j)
  h j := x1 (ix2 p j)
  c j := x2 (ix2 p j)
  hin k h := x3 (ix2 p (⟨128 * k.val + h.val, by have := k.isLt; have := h.isLt; omega⟩ : Fin 1024))
  mask k := x4 (ix2 p k)
  st j := x5 (ix2 p j)

/-- A load of 128 columns from column `o` of the merged neighbour block. -/
theorem ld_cols (X : Vec Ideal S1000x1024 .f32) (o : Nat) (inb) (p : Fin 1000) (h : Fin 128) (ho : o + h.val < 1024) :
    View.ld X (Rect.unit (s := S1000x1024) ![0, o] S1000x128.size inb) (ix2 p h) = X (ix2 p (⟨o + h.val, ho⟩ : Fin 1024)) := by
  show X ((Rect.unit (s := S1000x1024) ![0, o] S1000x128.size inb).emb (ix2 p h)) = _
  congr 1; funext a; apply Fin.ext
  match a with
  | ⟨0, _⟩ => show 0 + 1 * p.val = p.val; omega
  | ⟨1, _⟩ => show o + 1 * h.val = o + h.val; omega

/-- A load of one column `k` of the validity block. -/
theorem ld_col (X : Vec Ideal S1000x8 .f32) (k : Nat) (inb) (p : Fin 1000) (hk : k < 8) :
    View.ld X (Rect.unit (s := S1000x8) ![0, k] S1000x1.size inb) (ix2 p (0 : Fin 1)) = X (ix2 p (⟨k, hk⟩ : Fin 8)) := by
  show X ((Rect.unit (s := S1000x8) ![0, k] S1000x1.size inb).emb (ix2 p (0 : Fin 1))) = _
  congr 1; funext a; apply Fin.ext
  match a with
  | ⟨0, _⟩ => show 0 + 1 * p.val = p.val; omega
  | ⟨1, _⟩ => show k + 1 * 0 = k; omega

/-- The eight 128-column loads of the merged neighbour block, neighbour by neighbour. -/
abbrev nbLd (x3 : Vec Ideal S1000x1024 .f32) : Fin 8 → Vec Ideal S1000x128 .f32 :=
  ![View.ld x3 r0_10, View.ld x3 r0_12, View.ld x3 r0_14, View.ld x3 r0_16, View.ld x3 r0_18, View.ld x3 r0_20, View.ld x3 r0_22, View.ld x3 r0_24]

/-- The eight one-column loads of the validity block. -/
abbrev mkLd (x4 : Vec Ideal S1000x8 .f32) : Fin 8 → Vec Ideal S1000x1 .f32 :=
  ![View.ld x4 r0_11, View.ld x4 r0_13, View.ld x4 r0_15, View.ld x4 r0_17, View.ld x4 r0_19, View.ld x4 r0_21, View.ld x4 r0_23, View.ld x4 r0_25]

theorem nbLd_apply (x3 : Vec Ideal S1000x1024 .f32) (k : Fin 8) (p : Fin 1000) (h : Fin 128) :
    nbLd x3 k (ix2 p h) = x3 (ix2 p (⟨128 * k.val + h.val, by have := k.isLt; have := h.isLt; omega⟩ : Fin 1024)) := by
  have hh := h.isLt
  fin_cases k
  · exact ld_cols x3 0 _ p h (by omega)
  · exact ld_cols x3 128 _ p h (by omega)
  · exact ld_cols x3 256 _ p h (by omega)
  · exact ld_cols x3 384 _ p h (by omega)
  · exact ld_cols x3 512 _ p h (by omega)
  · exact ld_cols x3 640 _ p h (by omega)
  · exact ld_cols x3 768 _ p h (by omega)
  · exact ld_cols x3 896 _ p h (by omega)

theorem mkLd_apply (x4 : Vec Ideal S1000x8 .f32) (k : Fin 8) (p : Fin 1000) :
    mkLd x4 k (ix2 p (0 : Fin 1)) = x4 (ix2 p k) := by
  fin_cases k
  · exact ld_col x4 0 _ p (by omega)
  · exact ld_col x4 1 _ p (by omega)
  · exact ld_col x4 2 _ p (by omega)
  · exact ld_col x4 3 _ p (by omega)
  · exact ld_col x4 4 _ p (by omega)
  · exact ld_col x4 5 _ p (by omega)
  · exact ld_col x4 6 _ p (by omega)
  · exact ld_col x4 7 _ p (by omega)

section Block

variable (x0 : Vec Ideal S1000x32 .f32) (x1 x2 : Vec Ideal S1000x128 .f32) (x3 : Vec Ideal S1000x1024 .f32)
  (x4 : Vec Ideal S1000x8 .f32) (x5 : Vec Ideal S1000x27 .f32) (x6 : Vec Ideal S128x256 .bf16) (x7 : Vec Ideal S128x128 .bf16)
  (x8 : Vec Ideal S128 .f32) (x9 : Vec Ideal S27x128 .bf16) (x10 : Vec Ideal S128 .f32) (x11 : Vec Ideal S32x512 .bf16)
  (x12 x13 x14 : Vec Ideal S128x512 .bf16) (x15 : Vec Ideal S512 .f32) (x16 x17 : Vec Ideal S128 .f32)

/-- The static projection the body computes is the block row's. -/
theorem static_block (p : Fin 1000) (o : Fin 128) :
    static (blockW x6 x7 x8 x9 x10 x11 x12 x13 x14 x15 x16 x17) (blockRow x0 x1 x2 x3 x4 x5 p) o
      = k0_pay21 (k0_pay3 x5) (k0_pay5 x9) x10 (ix2 p o) :=
  (Body.static_apply (k0_pay3 x5) (k0_pay5 x9) x10 (blockW x6 x7 x8 x9 x10 x11 x12 x13 x14 x15 x16 x17)
    (blockRow x0 x1 x2 x3 x4 x5 p) p (fun j => rfl)
    (fun o j => (congrFun (shapeCast_self x9 shapeCasts_S27x128_S27x128) (ix2 j o)).symm) (fun o => rfl) o).symm

/-- The neighbour context the body accumulates is the block row's. -/
theorem context_block (p : Fin 1000) (o : Fin 128) :
    context (blockW x6 x7 x8 x9 x10 x11 x12 x13 x14 x15 x16 x17) (blockRow x0 x1 x2 x3 x4 x5 p) o
      = k0_pay22 (k0_pay4 x6) x8 (k0_pay10 x1 x7)
          (k0_pay17 (k0_pay4 x6) x8 (k0_pay10 x1 x7)
            (k0_pay12 (k0_pay4 x6) x8 (k0_pay10 x1 x7) (k0_pay11 (F := Ideal)) (nbLd x3 0) (mkLd x4 0) (nbLd x3 1) (mkLd x4 1))
            (k0_pay13 (mkLd x4 2)) (k0_pay15 (k0_pay4 x6) (nbLd x3 2)) (k0_pay16 (k0_pay4 x6) x8 (k0_pay10 x1 x7) (nbLd x3 2))
            (nbLd x3 3) (mkLd x4 3) (nbLd x3 4) (mkLd x4 4))
          (k0_pay18 (mkLd x4 5)) (k0_pay19 (k0_pay4 x6) (nbLd x3 5)) (k0_pay20 (k0_pay4 x6) (nbLd x3 5))
          (nbLd x3 6) (mkLd x4 6) (nbLd x3 7) (mkLd x4 7) (ix2 p o) :=
  (Body.context_apply x6 x7 x8 x1 (nbLd x3) (mkLd x4) (blockW x6 x7 x8 x9 x10 x11 x12 x13 x14 x15 x16 x17)
    (blockRow x0 x1 x2 x3 x4 x5 p) p (fun o h => rfl) (fun o h => rfl) (fun o h => rfl) (fun o => rfl) (fun j => rfl)
    (fun k h => (nbLd_apply x3 k p h).symm) (fun k => (mkLd_apply x4 k p).symm) o).symm

/-- Row `p`, column `q` of the block a point leaves in the second result's buffer. -/
theorem out19_apply (p : Fin 1000) (q : Fin 128) :
    out0_19 x0 x1 x2 x3 x4 x5 x6 x7 x8 x9 x10 x11 x12 x13 x14 x15 x16 x17 (ix2 p q)
      = cNew (blockW x6 x7 x8 x9 x10 x11 x12 x13 x14 x15 x16 x17) (blockRow x0 x1 x2 x3 x4 x5 p) q := by
  unfold out0_19
  rw [View.canon_unit_zero zero2]
  simp only [View.ld_unit_zero (S := S1000x32) zero2, View.ld_unit_zero (S := S1000x128) zero2,
    View.ld_unit_zero (S := S1000x27) zero2, View.ld_unit_zero (S := S128x256) zero2, View.ld_unit_zero (S := S128x128) zero2,
    View.ld_unit_zero (S := S128) zero1, View.ld_unit_zero (S := S27x128) zero2, View.ld_unit_zero (S := S32x512) zero2,
    View.ld_unit_zero (S := S128x512) zero2, View.ld_unit_zero (S := S512) zero1]
  exact Body.cNew_apply x2 (k0_pay1 x0) (k0_pay2 x1) (k0_pay6 x11) (k0_pay7 x12) (k0_pay8 x13) (k0_pay9 x14) x15 _ _
    (blockW x6 x7 x8 x9 x10 x11 x12 x13 x14 x15 x16 x17) (blockRow x0 x1 x2 x3 x4 x5 p) p
    (fun j => rfl) (fun j => rfl) (fun o => rfl)
    (fun d j => (congrFun (shapeCast_self x11 shapeCasts_S32x512_S32x512) (ix2 j d)).symm)
    (fun d h => (congrFun (shapeCast_self x12 shapeCasts_S128x512_S128x512) (ix2 h d)).symm)
    (fun d h => (congrFun (shapeCast_self x13 shapeCasts_S128x512_S128x512) (ix2 h d)).symm)
    (fun d h => (congrFun (shapeCast_self x14 shapeCasts_S128x512_S128x512) (ix2 h d)).symm)
    (fun d => rfl)
    (static_block x0 x1 x2 x3 x4 x5 x6 x7 x8 x9 x10 x11 x12 x13 x14 x15 x16 x17 p)
    (context_block x0 x1 x2 x3 x4 x5 x6 x7 x8 x9 x10 x11 x12 x13 x14 x15 x16 x17 p) q

/-- Row `p`, column `q` of the block a point leaves in the first result's buffer. -/
theorem out18_apply (p : Fin 1000) (q : Fin 128) :
    out0_18 x0 x1 x2 x3 x4 x5 x6 x7 x8 x9 x10 x11 x12 x13 x14 x15 x16 x17 (ix2 p q)
      = hOut (blockW x6 x7 x8 x9 x10 x11 x12 x13 x14 x15 x16 x17) (blockRow x0 x1 x2 x3 x4 x5 p) q := by
  unfold out0_18
  rw [View.canon_unit_zero zero2]
  simp only [View.ld_unit_zero (S := S1000x32) zero2, View.ld_unit_zero (S := S1000x128) zero2,
    View.ld_unit_zero (S := S1000x27) zero2, View.ld_unit_zero (S := S128x256) zero2, View.ld_unit_zero (S := S128x128) zero2,
    View.ld_unit_zero (S := S128) zero1, View.ld_unit_zero (S := S27x128) zero2, View.ld_unit_zero (S := S32x512) zero2,
    View.ld_unit_zero (S := S128x512) zero2, View.ld_unit_zero (S := S512) zero1]
  exact Body.hOut_apply x2 (k0_pay1 x0) (k0_pay2 x1) (k0_pay6 x11) (k0_pay7 x12) (k0_pay8 x13) (k0_pay9 x14) x15 x16 x17 _ _
    (blockW x6 x7 x8 x9 x10 x11 x12 x13 x14 x15 x16 x17) (blockRow x0 x1 x2 x3 x4 x5 p) p
    (fun j => rfl) (fun j => rfl) (fun o => rfl)
    (fun d j => (congrFun (shapeCast_self x11 shapeCasts_S32x512_S32x512) (ix2 j d)).symm)
    (fun d h => (congrFun (shapeCast_self x12 shapeCasts_S128x512_S128x512) (ix2 h d)).symm)
    (fun d h => (congrFun (shapeCast_self x13 shapeCasts_S128x512_S128x512) (ix2 h d)).symm)
    (fun d h => (congrFun (shapeCast_self x14 shapeCasts_S128x512_S128x512) (ix2 h d)).symm)
    (fun d => rfl) (fun o => rfl) (fun o => rfl)
    (static_block x0 x1 x2 x3 x4 x5 x6 x7 x8 x9 x10 x11 x12 x13 x14 x15 x16 x17 p)
    (context_block x0 x1 x2 x3 x4 x5 x6 x7 x8 x9 x10 x11 x12 x13 x14 x15 x16 x17 p) q

end Block

/-! ## The input blocks of a grid point, read off the arrays the region finds -/

variable (m : (ℓ : Loc nD τ sig) → Buf (Elt Ideal) ℓ) (ρ : Dev nD → PrngReg)

theorem lt50 (t : Fin cfg0.N) : t.val < 50 := lt_of_lt_of_eq t.isLt (N_0 : cfg0.N = 50)

/-- Row `p` of grid point `t`'s blocks is row `1000·t + p` of the arrays. -/
abbrev rowOf (t : Fin cfg0.N) (p : Fin 1000) : Fin 50000 := ⟨1000 * t.val + p.val, by have := lt50 t; have := p.isLt; omega⟩

theorem idx0 : ∀ t : Fin cfg0.N, win0_0.index t (0 : Fin 2) = t.val ∧ win0_0.index t (1 : Fin 2) = 0 :=
  (by decide +kernel : ∀ t : Fin grid0.N, _)

/-- Window 0's block at point `t` is rows `1000·t …` of its array. -/
theorem blk0_apply (c : Dev nD) (t : Fin cfg0.N) (p : Fin 1000) (j : Fin 32) :
    (iblk m c 0 t : Vec Ideal S1000x32 .f32) (ix2 p j) = (V m c main_arg0 : S50000x32.Idx → EReal) (ix2 (rowOf t p) j) := by
  obtain ⟨h0, h1⟩ := idx0 t
  unfold iblk
  rw [View.read_apply]
  show V m c main_arg0 _ = V m c main_arg0 _
  congr 1
  funext a; apply Fin.ext
  match a with
  | ⟨0, _⟩ => show win0_0.index t 0 * 1000 + 1 * p.val = 1000 * t.val + p.val; rw [h0]; omega
  | ⟨1, _⟩ => show win0_0.index t 1 * 32 + 1 * j.val = j.val; rw [h1]; omega

theorem idx1 : ∀ t : Fin cfg0.N, win0_1.index t (0 : Fin 2) = t.val ∧ win0_1.index t (1 : Fin 2) = 0 :=
  (by decide +kernel : ∀ t : Fin grid0.N, _)

/-- Window 1's block at point `t` is rows `1000·t …` of its array. -/
theorem blk1_apply (c : Dev nD) (t : Fin cfg0.N) (p : Fin 1000) (j : Fin 128) :
    (iblk m c 1 t : Vec Ideal S1000x128 .f32) (ix2 p j) = (V m c main_arg1 : S50000x128.Idx → EReal) (ix2 (rowOf t p) j) := by
  obtain ⟨h0, h1⟩ := idx1 t
  unfold iblk
  rw [View.read_apply]
  show V m c main_arg1 _ = V m c main_arg1 _
  congr 1
  funext a; apply Fin.ext
  match a with
  | ⟨0, _⟩ => show win0_1.index t 0 * 1000 + 1 * p.val = 1000 * t.val + p.val; rw [h0]; omega
  | ⟨1, _⟩ => show win0_1.index t 1 * 128 + 1 * j.val = j.val; rw [h1]; omega

theorem idx2 : ∀ t : Fin cfg0.N, win0_2.index t (0 : Fin 2) = t.val ∧ win0_2.index t (1 : Fin 2) = 0 :=
  (by decide +kernel : ∀ t : Fin grid0.N, _)

/-- Window 2's block at point `t` is rows `1000·t …` of its array. -/
theorem blk2_apply (c : Dev nD) (t : Fin cfg0.N) (p : Fin 1000) (j : Fin 128) :
    (iblk m c 2 t : Vec Ideal S1000x128 .f32) (ix2 p j) = (V m c main_arg2 : S50000x128.Idx → EReal) (ix2 (rowOf t p) j) := by
  obtain ⟨h0, h1⟩ := idx2 t
  unfold iblk
  rw [View.read_apply]
  show V m c main_arg2 _ = V m c main_arg2 _
  congr 1
  funext a; apply Fin.ext
  match a with
  | ⟨0, _⟩ => show win0_2.index t 0 * 1000 + 1 * p.val = 1000 * t.val + p.val; rw [h0]; omega
  | ⟨1, _⟩ => show win0_2.index t 1 * 128 + 1 * j.val = j.val; rw [h1]; omega

theorem idx3 : ∀ t : Fin cfg0.N, win0_3.index t (0 : Fin 2) = t.val ∧ win0_3.index t (1 : Fin 2) = 0 :=
  (by decide +kernel : ∀ t : Fin grid0.N, _)

/-- Window 3's block at point `t` is rows `1000·t …` of its array. -/
theorem blk3_apply (c : Dev nD) (t : Fin cfg0.N) (p : Fin 1000) (j : Fin 1024) :
    (iblk m c 3 t : Vec Ideal S1000x1024 .f32) (ix2 p j) = (V m c main_v1 : S50000x1024.Idx → EReal) (ix2 (rowOf t p) j) := by
  obtain ⟨h0, h1⟩ := idx3 t
  unfold iblk
  rw [View.read_apply]
  show V m c main_v1 _ = V m c main_v1 _
  congr 1
  funext a; apply Fin.ext
  match a with
  | ⟨0, _⟩ => show win0_3.index t 0 * 1000 + 1 * p.val = 1000 * t.val + p.val; rw [h0]; omega
  | ⟨1, _⟩ => show win0_3.index t 1 * 1024 + 1 * j.val = j.val; rw [h1]; omega

theorem idx4 : ∀ t : Fin cfg0.N, win0_4.index t (0 : Fin 2) = t.val ∧ win0_4.index t (1 : Fin 2) = 0 :=
  (by decide +kernel : ∀ t : Fin grid0.N, _)

/-- Window 4's block at point `t` is rows `1000·t …` of its array. -/
theorem blk4_apply (c : Dev nD) (t : Fin cfg0.N) (p : Fin 1000) (j : Fin 8) :
    (iblk m c 4 t : Vec Ideal S1000x8 .f32) (ix2 p j) = (V m c main_v0 : S50000x8.Idx → EReal) (ix2 (rowOf t p) j) := by
  obtain ⟨h0, h1⟩ := idx4 t
  unfold iblk
  rw [View.read_apply]
  show V m c main_v0 _ = V m c main_v0 _
  congr 1
  funext a; apply Fin.ext
  match a with
  | ⟨0, _⟩ => show win0_4.index t 0 * 1000 + 1 * p.val = 1000 * t.val + p.val; rw [h0]; omega
  | ⟨1, _⟩ => show win0_4.index t 1 * 8 + 1 * j.val = j.val; rw [h1]; omega

theorem idx5 : ∀ t : Fin cfg0.N, win0_5.index t (0 : Fin 2) = t.val ∧ win0_5.index t (1 : Fin 2) = 0 :=
  (by decide +kernel : ∀ t : Fin grid0.N, _)

/-- Window 5's block at point `t` is rows `1000·t …` of its array. -/
theorem blk5_apply (c : Dev nD) (t : Fin cfg0.N) (p : Fin 1000) (j : Fin 27) :
    (iblk m c 5 t : Vec Ideal S1000x27 .f32) (ix2 p j) = (V m c main_arg5 : S50000x27.Idx → EReal) (ix2 (rowOf t p) j) := by
  obtain ⟨h0, h1⟩ := idx5 t
  unfold iblk
  rw [View.read_apply]
  show V m c main_arg5 _ = V m c main_arg5 _
  congr 1
  funext a; apply Fin.ext
  match a with
  | ⟨0, _⟩ => show win0_5.index t 0 * 1000 + 1 * p.val = 1000 * t.val + p.val; rw [h0]; omega
  | ⟨1, _⟩ => show win0_5.index t 1 * 27 + 1 * j.val = j.val; rw [h1]; omega

theorem idx6 : ∀ t : Fin cfg0.N, win0_6.index t (0 : Fin 2) = 0 ∧ win0_6.index t (1 : Fin 2) = 0 :=
  (by decide +kernel : ∀ t : Fin grid0.N, _)

/-- Window 6's block at every point is its whole array. -/
theorem blk6_apply (c : Dev nD) (t : Fin cfg0.N) (a : Fin 128) (b : Fin 256) :
    (iblk m c 6 t : Vec Ideal S128x256 .bf16) (ix2 a b) = (V m c main_v6 : S128x256.Idx → EReal) (ix2 a b) := by
  obtain ⟨h0, h1⟩ := idx6 t
  unfold iblk
  rw [View.read_apply]
  show V m c main_v6 _ = V m c main_v6 _
  congr 1
  funext x; apply Fin.ext
  match x with
  | ⟨0, _⟩ => show win0_6.index t 0 * 128 + 1 * a.val = a.val; rw [h0]; omega
  | ⟨1, _⟩ => show win0_6.index t 1 * 256 + 1 * b.val = b.val; rw [h1]; omega

theorem idx7 : ∀ t : Fin cfg0.N, win0_7.index t (0 : Fin 2) = 0 ∧ win0_7.index t (1 : Fin 2) = 0 :=
  (by decide +kernel : ∀ t : Fin grid0.N, _)

/-- Window 7's block at every point is its whole array. -/
theorem blk7_apply (c : Dev nD) (t : Fin cfg0.N) (a : Fin 128) (b : Fin 128) :
    (iblk m c 7 t : Vec Ideal S128x128 .bf16) (ix2 a b) = (V m c main_v8 : S128x128.Idx → EReal) (ix2 a b) := by
  obtain ⟨h0, h1⟩ := idx7 t
  unfold iblk
  rw [View.read_apply]
  show V m c main_v8 _ = V m c main_v8 _
  congr 1
  funext x; apply Fin.ext
  match x with
  | ⟨0, _⟩ => show win0_7.index t 0 * 128 + 1 * a.val = a.val; rw [h0]; omega
  | ⟨1, _⟩ => show win0_7.index t 1 * 128 + 1 * b.val = b.val; rw [h1]; omega

theorem idx9 : ∀ t : Fin cfg0.N, win0_9.index t (0 : Fin 2) = 0 ∧ win0_9.index t (1 : Fin 2) = 0 :=
  (by decide +kernel : ∀ t : Fin grid0.N, _)

/-- Window 9's block at every point is its whole array. -/
theorem blk9_apply (c : Dev nD) (t : Fin cfg0.N) (a : Fin 27) (b : Fin 128) :
    (iblk m c 9 t : Vec Ideal S27x128 .bf16) (ix2 a b) = (V m c main_v10 : S27x128.Idx → EReal) (ix2 a b) := by
  obtain ⟨h0, h1⟩ := idx9 t
  unfold iblk
  rw [View.read_apply]
  show V m c main_v10 _ = V m c main_v10 _
  congr 1
  funext x; apply Fin.ext
  match x with
  | ⟨0, _⟩ => show win0_9.index t 0 * 27 + 1 * a.val = a.val; rw [h0]; omega
  | ⟨1, _⟩ => show win0_9.index t 1 * 128 + 1 * b.val = b.val; rw [h1]; omega

theorem idx11 : ∀ t : Fin cfg0.N, win0_11.index t (0 : Fin 2) = 0 ∧ win0_11.index t (1 : Fin 2) = 0 :=
  (by decide +kernel : ∀ t : Fin grid0.N, _)

/-- Window 11's block at every point is its whole array. -/
theorem blk11_apply (c : Dev nD) (t : Fin cfg0.N) (a : Fin 32) (b : Fin 512) :
    (iblk m c 11 t : Vec Ideal S32x512 .bf16) (ix2 a b) = (V m c main_v13 : S32x512.Idx → EReal) (ix2 a b) := by
  obtain ⟨h0, h1⟩ := idx11 t
  unfold iblk
  rw [View.read_apply]
  show V m c main_v13 _ = V m c main_v13 _
  congr 1
  funext x; apply Fin.ext
  match x with
  | ⟨0, _⟩ => show win0_11.index t 0 * 32 + 1 * a.val = a.val; rw [h0]; omega
  | ⟨1, _⟩ => show win0_11.index t 1 * 512 + 1 * b.val = b.val; rw [h1]; omega

theorem idx12 : ∀ t : Fin cfg0.N, win0_12.index t (0 : Fin 2) = 0 ∧ win0_12.index t (1 : Fin 2) = 0 :=
  (by decide +kernel : ∀ t : Fin grid0.N, _)

/-- Window 12's block at every point is its whole array. -/
theorem blk12_apply (c : Dev nD) (t : Fin cfg0.N) (a : Fin 128) (b : Fin 512) :
    (iblk m c 12 t : Vec Ideal S128x512 .bf16) (ix2 a b) = (V m c main_v15 : S128x512.Idx → EReal) (ix2 a b) := by
  obtain ⟨h0, h1⟩ := idx12 t
  unfold iblk
  rw [View.read_apply]
  show V m c main_v15 _ = V m c main_v15 _
  congr 1
  funext x; apply Fin.ext
  match x with
  | ⟨0, _⟩ => show win0_12.index t 0 * 128 + 1 * a.val = a.val; rw [h0]; omega
  | ⟨1, _⟩ => show win0_12.index t 1 * 512 + 1 * b.val = b.val; rw [h1]; omega

theorem idx13 : ∀ t : Fin cfg0.N, win0_13.index t (0 : Fin 2) = 0 ∧ win0_13.index t (1 : Fin 2) = 0 :=
  (by decide +kernel : ∀ t : Fin grid0.N, _)

/-- Window 13's block at every point is its whole array. -/
theorem blk13_apply (c : Dev nD) (t : Fin cfg0.N) (a : Fin 128) (b : Fin 512) :
    (iblk m c 13 t : Vec Ideal S128x512 .bf16) (ix2 a b) = (V m c main_v17 : S128x512.Idx → EReal) (ix2 a b) := by
  obtain ⟨h0, h1⟩ := idx13 t
  unfold iblk
  rw [View.read_apply]
  show V m c main_v17 _ = V m c main_v17 _
  congr 1
  funext x; apply Fin.ext
  match x with
  | ⟨0, _⟩ => show win0_13.index t 0 * 128 + 1 * a.val = a.val; rw [h0]; omega
  | ⟨1, _⟩ => show win0_13.index t 1 * 512 + 1 * b.val = b.val; rw [h1]; omega

theorem idx14 : ∀ t : Fin cfg0.N, win0_14.index t (0 : Fin 2) = 0 ∧ win0_14.index t (1 : Fin 2) = 0 :=
  (by decide +kernel : ∀ t : Fin grid0.N, _)

/-- Window 14's block at every point is its whole array. -/
theorem blk14_apply (c : Dev nD) (t : Fin cfg0.N) (a : Fin 128) (b : Fin 512) :
    (iblk m c 14 t : Vec Ideal S128x512 .bf16) (ix2 a b) = (V m c main_v19 : S128x512.Idx → EReal) (ix2 a b) := by
  obtain ⟨h0, h1⟩ := idx14 t
  unfold iblk
  rw [View.read_apply]
  show V m c main_v19 _ = V m c main_v19 _
  congr 1
  funext x; apply Fin.ext
  match x with
  | ⟨0, _⟩ => show win0_14.index t 0 * 128 + 1 * a.val = a.val; rw [h0]; omega
  | ⟨1, _⟩ => show win0_14.index t 1 * 512 + 1 * b.val = b.val; rw [h1]; omega

theorem idx8 : ∀ t : Fin cfg0.N, win0_8.index t (0 : Fin 1) = 0 :=
  (by decide +kernel : ∀ t : Fin grid0.N, _)

/-- Window 8's block at every point is its whole array. -/
theorem blk8_apply (c : Dev nD) (t : Fin cfg0.N) (a : Fin 128) :
    (iblk m c 8 t : Vec Ideal S128 .f32) (ix1 a) = (V m c main_arg8 : S128.Idx → EReal) (ix1 a) := by
  have h0 := idx8 t
  unfold iblk
  rw [View.read_apply]
  show V m c main_arg8 _ = V m c main_arg8 _
  congr 1
  funext x; apply Fin.ext
  match x with
  | ⟨0, _⟩ => show win0_8.index t 0 * 128 + 1 * a.val = a.val; rw [h0]; omega

theorem idx10 : ∀ t : Fin cfg0.N, win0_10.index t (0 : Fin 1) = 0 :=
  (by decide +kernel : ∀ t : Fin grid0.N, _)

/-- Window 10's block at every point is its whole array. -/
theorem blk10_apply (c : Dev nD) (t : Fin cfg0.N) (a : Fin 128) :
    (iblk m c 10 t : Vec Ideal S128 .f32) (ix1 a) = (V m c main_arg10 : S128.Idx → EReal) (ix1 a) := by
  have h0 := idx10 t
  unfold iblk
  rw [View.read_apply]
  show V m c main_arg10 _ = V m c main_arg10 _
  congr 1
  funext x; apply Fin.ext
  match x with
  | ⟨0, _⟩ => show win0_10.index t 0 * 128 + 1 * a.val = a.val; rw [h0]; omega

theorem idx15 : ∀ t : Fin cfg0.N, win0_15.index t (0 : Fin 1) = 0 :=
  (by decide +kernel : ∀ t : Fin grid0.N, _)

/-- Window 15's block at every point is its whole array. -/
theorem blk15_apply (c : Dev nD) (t : Fin cfg0.N) (a : Fin 512) :
    (iblk m c 15 t : Vec Ideal S512 .f32) (ix1 a) = (V m c main_arg12 : S512.Idx → EReal) (ix1 a) := by
  have h0 := idx15 t
  unfold iblk
  rw [View.read_apply]
  show V m c main_arg12 _ = V m c main_arg12 _
  congr 1
  funext x; apply Fin.ext
  match x with
  | ⟨0, _⟩ => show win0_15.index t 0 * 512 + 1 * a.val = a.val; rw [h0]; omega

theorem idx16 : ∀ t : Fin cfg0.N, win0_16.index t (0 : Fin 1) = 0 :=
  (by decide +kernel : ∀ t : Fin grid0.N, _)

/-- Window 16's block at every point is its whole array. -/
theorem blk16_apply (c : Dev nD) (t : Fin cfg0.N) (a : Fin 128) :
    (iblk m c 16 t : Vec Ideal S128 .f32) (ix1 a) = (V m c main_arg13 : S128.Idx → EReal) (ix1 a) := by
  have h0 := idx16 t
  unfold iblk
  rw [View.read_apply]
  show V m c main_arg13 _ = V m c main_arg13 _
  congr 1
  funext x; apply Fin.ext
  match x with
  | ⟨0, _⟩ => show win0_16.index t 0 * 128 + 1 * a.val = a.val; rw [h0]; omega

theorem idx17 : ∀ t : Fin cfg0.N, win0_17.index t (0 : Fin 1) = 0 :=
  (by decide +kernel : ∀ t : Fin grid0.N, _)

/-- Window 17's block at every point is its whole array. -/
theorem blk17_apply (c : Dev nD) (t : Fin cfg0.N) (a : Fin 128) :
    (iblk m c 17 t : Vec Ideal S128 .f32) (ix1 a) = (V m c main_arg14 : S128.Idx → EReal) (ix1 a) := by
  have h0 := idx17 t
  unfold iblk
  rw [View.read_apply]
  show V m c main_arg14 _ = V m c main_arg14 _
  congr 1
  funext x; apply Fin.ext
  match x with
  | ⟨0, _⟩ => show win0_17.index t 0 * 128 + 1 * a.val = a.val; rw [h0]; omega

/-! ## Block `t` of the results -/

/-- Argument 0 as an array. -/
abbrev arg0 (c : Dev nD) : S50000x32.Idx → EReal := m ((c : Thread nD τ).loc main_arg0)

/-- Argument 1 as an array. -/
abbrev arg1 (c : Dev nD) : S50000x128.Idx → EReal := m ((c : Thread nD τ).loc main_arg1)

/-- Argument 2 as an array. -/
abbrev arg2 (c : Dev nD) : S50000x128.Idx → EReal := m ((c : Thread nD τ).loc main_arg2)

/-- Argument 3 as an array. -/
abbrev arg3 (c : Dev nD) : S50000x8x128.Idx → EReal := m ((c : Thread nD τ).loc main_arg3)

/-- Argument 4 as an array. -/
abbrev arg4 (c : Dev nD) : S50000x8.Idx → BitVec 1 := m ((c : Thread nD τ).loc main_arg4)

/-- Argument 5 as an array. -/
abbrev arg5 (c : Dev nD) : S50000x27.Idx → EReal := m ((c : Thread nD τ).loc main_arg5)

/-- Argument 6 as an array. -/
abbrev arg6 (c : Dev nD) : S128x128.Idx → EReal := m ((c : Thread nD τ).loc main_arg6)

/-- Argument 7 as an array. -/
abbrev arg7 (c : Dev nD) : S128x256.Idx → EReal := m ((c : Thread nD τ).loc main_arg7)

/-- Argument 8 as an array. -/
abbrev arg8 (c : Dev nD) : S128.Idx → EReal := m ((c : Thread nD τ).loc main_arg8)

/-- Argument 9 as an array. -/
abbrev arg9 (c : Dev nD) : S128x27.Idx → EReal := m ((c : Thread nD τ).loc main_arg9)

/-- Argument 10 as an array. -/
abbrev arg10 (c : Dev nD) : S128.Idx → EReal := m ((c : Thread nD τ).loc main_arg10)

/-- Argument 11 as an array. -/
abbrev arg11 (c : Dev nD) : S512x416.Idx → EReal := m ((c : Thread nD τ).loc main_arg11)

/-- Argument 12 as an array. -/
abbrev arg12 (c : Dev nD) : S512.Idx → EReal := m ((c : Thread nD τ).loc main_arg12)

/-- Argument 13 as an array. -/
abbrev arg13 (c : Dev nD) : S128.Idx → EReal := m ((c : Thread nD τ).loc main_arg13)

/-- Argument 14 as an array. -/
abbrev arg14 (c : Dev nD) : S128.Idx → EReal := m ((c : Thread nD τ).loc main_arg14)

/-- The two results as whole arrays of the arguments. -/
abbrev hiddenOf (c : Dev nD) : S50000x128.Idx → EReal := hidden (arg0 m c) (arg1 m c) (arg2 m c) (arg3 m c) (arg4 m c) (arg5 m c) (arg6 m c) (arg7 m c) (arg8 m c) (arg9 m c) (arg10 m c) (arg11 m c) (arg12 m c) (arg13 m c) (arg14 m c)
abbrev cellOf (c : Dev nD) : S50000x128.Idx → EReal := cell (arg0 m c) (arg1 m c) (arg2 m c) (arg3 m c) (arg4 m c) (arg5 m c) (arg6 m c) (arg7 m c) (arg8 m c) (arg9 m c) (arg10 m c) (arg11 m c) (arg12 m c) (arg13 m c) (arg14 m c)

/-- The weights a point finds in its weight blocks are the weights read off the argument arrays, field by field. -/
theorem bw_wn (c : Dev nD) (t : Fin cfg0.N) (o h : Fin 128) :
    (iblk m c 6 t : Vec Ideal S128x256 .bf16) (ix2 h (⟨o.val, by have := o.isLt; omega⟩ : Fin 256)) = arg6 m c (ix2 o h) :=
  (blk6_apply m c t h _).trans (HostPrefix.wcat_lo_apply m c h o)

theorem bw_wg1 (c : Dev nD) (t : Fin cfg0.N) (o h : Fin 128) :
    (iblk m c 6 t : Vec Ideal S128x256 .bf16) (ix2 h (⟨o.val + 128, by have := o.isLt; omega⟩ : Fin 256)) = arg7 m c (ix2 o (⟨h.val, by have := h.isLt; omega⟩ : Fin 256)) :=
  (blk6_apply m c t h _).trans (HostPrefix.wcat_hi_apply m c h o)

theorem bw_wg2 (c : Dev nD) (t : Fin cfg0.N) (o h : Fin 128) :
    (iblk m c 7 t : Vec Ideal S128x128 .bf16) (ix2 h o) = arg7 m c (ix2 o (⟨h.val + 128, by have := h.isLt; omega⟩ : Fin 256)) :=
  (blk7_apply m c t h o).trans (HostPrefix.wg2_apply m c h o)

theorem bw_bg (c : Dev nD) (t : Fin cfg0.N) (o : Fin 128) :
    (iblk m c 8 t : Vec Ideal S128 .f32) (ix1 o) = arg8 m c (ix1 o) :=
  (blk8_apply m c t o).trans (congrFun (V_main_arg8 m c) (ix1 o))

theorem bw_ws (c : Dev nD) (t : Fin cfg0.N) (o : Fin 128) (j : Fin 27) :
    (iblk m c 9 t : Vec Ideal S27x128 .bf16) (ix2 j o) = arg9 m c (ix2 o j) :=
  (blk9_apply m c t j o).trans (HostPrefix.ws_apply m c j o)

theorem bw_bs (c : Dev nD) (t : Fin cfg0.N) (o : Fin 128) :
    (iblk m c 10 t : Vec Ideal S128 .f32) (ix1 o) = arg10 m c (ix1 o) :=
  (blk10_apply m c t o).trans (congrFun (V_main_arg10 m c) (ix1 o))

theorem bw_wl0 (c : Dev nD) (t : Fin cfg0.N) (d : Fin 512) (j : Fin 32) :
    (iblk m c 11 t : Vec Ideal S32x512 .bf16) (ix2 j d) = arg11 m c (ix2 d (⟨j.val, by have := j.isLt; omega⟩ : Fin 416)) :=
  (blk11_apply m c t j d).trans (HostPrefix.wl0_apply m c j d)

theorem bw_wl1 (c : Dev nD) (t : Fin cfg0.N) (d : Fin 512) (h : Fin 128) :
    (iblk m c 12 t : Vec Ideal S128x512 .bf16) (ix2 h d) = arg11 m c (ix2 d (⟨h.val + 32, by have := h.isLt; omega⟩ : Fin 416)) :=
  (blk12_apply m c t h d).trans (HostPrefix.wl1_apply m c h d)

theorem bw_wl2 (c : Dev nD) (t : Fin cfg0.N) (d : Fin 512) (h : Fin 128) :
    (iblk m c 13 t : Vec Ideal S128x512 .bf16) (ix2 h d) = arg11 m c (ix2 d (⟨h.val + 160, by have := h.isLt; omega⟩ : Fin 416)) :=
  (blk13_apply m c t h d).trans (HostPrefix.wl2_apply m c h d)

theorem bw_wl3 (c : Dev nD) (t : Fin cfg0.N) (d : Fin 512) (h : Fin 128) :
    (iblk m c 14 t : Vec Ideal S128x512 .bf16) (ix2 h d) = arg11 m c (ix2 d (⟨h.val + 288, by have := h.isLt; omega⟩ : Fin 416)) :=
  (blk14_apply m c t h d).trans (HostPrefix.wl3_apply m c h d)

theorem bw_bl (c : Dev nD) (t : Fin cfg0.N) (d : Fin 512) :
    (iblk m c 15 t : Vec Ideal S512 .f32) (ix1 d) = arg12 m c (ix1 d) :=
  (blk15_apply m c t d).trans (congrFun (V_main_arg12 m c) (ix1 d))

theorem bw_lnw (c : Dev nD) (t : Fin cfg0.N) (o : Fin 128) :
    (iblk m c 16 t : Vec Ideal S128 .f32) (ix1 o) = arg13 m c (ix1 o) :=
  (blk16_apply m c t o).trans (congrFun (V_main_arg13 m c) (ix1 o))

theorem bw_lnb (c : Dev nD) (t : Fin cfg0.N) (o : Fin 128) :
    (iblk m c 17 t : Vec Ideal S128 .f32) (ix1 o) = arg14 m c (ix1 o) :=
  (blk17_apply m c t o).trans (congrFun (V_main_arg14 m c) (ix1 o))

set_option maxHeartbeats 1000000 in
theorem blockW_eq (c : Dev nD) (t : Fin cfg0.N) :
    blockW (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
      = arrW (arg6 m c) (arg7 m c) (arg8 m c) (arg9 m c) (arg10 m c) (arg11 m c) (arg12 m c) (arg13 m c) (arg14 m c) :=
  Weights.ext'
    (funext fun o => funext fun h => bw_wn m c t o h)
    (funext fun o => funext fun h => bw_wg1 m c t o h)
    (funext fun o => funext fun h => bw_wg2 m c t o h)
    (funext fun o => bw_bg m c t o)
    (funext fun o => funext fun j => bw_ws m c t o j)
    (funext fun o => bw_bs m c t o)
    (funext fun d => funext fun j => bw_wl0 m c t d j)
    (funext fun d => funext fun h => bw_wl1 m c t d h)
    (funext fun d => funext fun h => bw_wl2 m c t d h)
    (funext fun d => funext fun h => bw_wl3 m c t d h)
    (funext fun d => bw_bl m c t d)
    (funext fun o => bw_lnw m c t o)
    (funext fun o => bw_lnb m c t o)

/-- Row `p` of a point's per-row blocks is row `1000·t + p` of the argument arrays. -/
theorem blockRow_eq (c : Dev nD) (t : Fin cfg0.N) (p : Fin 1000) :
    blockRow (iblk m c 0 t) (iblk m c 1 t) (iblk m c 2 t) (iblk m c 3 t) (iblk m c 4 t) (iblk m c 5 t) p
      = arrRow (arg0 m c) (arg1 m c) (arg2 m c) (arg3 m c) (arg4 m c) (arg5 m c) (rowOf t p) := by
  refine Row.ext' ?_ ?_ ?_ ?_ ?_ ?_
  · funext j; exact (blk0_apply m c t p j).trans (congrFun (V_main_arg0 m c) (ix2 (rowOf t p) j))
  · funext j; exact (blk1_apply m c t p j).trans (congrFun (V_main_arg1 m c) (ix2 (rowOf t p) j))
  · funext j; exact (blk2_apply m c t p j).trans (congrFun (V_main_arg2 m c) (ix2 (rowOf t p) j))
  · funext k h; exact (blk3_apply m c t p _).trans (HostPrefix.hin_apply m c (rowOf t p) k h)
  · funext k; exact (blk4_apply m c t p k).trans (HostPrefix.mask_apply m c (rowOf t p) k)
  · funext j; exact (blk5_apply m c t p j).trans (congrFun (V_main_arg5 m c) (ix2 (rowOf t p) j))

theorem idx18 : ∀ t : Fin cfg0.N, win0_18.index t (0 : Fin 2) = t.val ∧ win0_18.index t (1 : Fin 2) = 0 :=
  (by decide +kernel : ∀ t : Fin grid0.N, _)

/-- What point `t` writes back to output window 18 is block `t` of `hiddenOf`. -/
theorem flushed18_eq (c : Dev nD) (t : Fin cfg0.N) :
    (dats m 0 c).flushed 18 t = ((cfg0.win 18).blk t).view.read (Elt Ideal) (hiddenOf m c) := by
  rw [Blocks.flushed18]
  obtain ⟨h0, h1⟩ := idx18 t
  refine funext fun (j : S1000x128.Idx) => ?_
  obtain ⟨p, q, rfl⟩ : ∃ (p : Fin 1000) (q : Fin 128), j = ix2 p q := ⟨j 0, j 1, eq_ix2 j⟩
  have e : ((cfg0.win 18).blk t).view.emb (ix2 p q) = (ix2 (rowOf t p) q : S50000x128.Idx) := by
    funext a; apply Fin.ext
    match a with
    | ⟨0, _⟩ => show win0_18.index t 0 * 1000 + 1 * p.val = 1000 * t.val + p.val; rw [h0]; omega
    | ⟨1, _⟩ => show win0_18.index t 1 * 128 + 1 * q.val = q.val; rw [h1]; omega
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p q) = hiddenOf m c (((cfg0.win 18).blk t).view.emb (ix2 p q))
  refine (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p q).trans ?_
  refine Eq.trans ?_ (congrArg (hiddenOf m c) e).symm
  show hOut (blockW (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (blockRow (iblk m c 0 t) (iblk m c 1 t) (iblk m c 2 t) (iblk m c 3 t) (iblk m c 4 t) (iblk m c 5 t) p) q
    = hOut (arrW (arg6 m c) (arg7 m c) (arg8 m c) (arg9 m c) (arg10 m c) (arg11 m c) (arg12 m c) (arg13 m c) (arg14 m c))
        (arrRow (arg0 m c) (arg1 m c) (arg2 m c) (arg3 m c) (arg4 m c) (arg5 m c) (rowOf t p)) q
  rw [blockW_eq m c t, blockRow_eq m c t p]

/-- An index of the array is in point `t`'s block iff each coordinate is in the block's range on its axis. -/
theorem mem_blk18 (t : Fin cfg0.N) (i : S50000x128.Idx) :
    i ∈ ((cfg0.win 18).blk t).view.set ↔ ∀ a : Fin 2, win0_18.index t a * S1000x128.size a ≤ (i a).val ∧ (i a).val < win0_18.index t a * S1000x128.size a + S1000x128.size a := by
  show i ∈ ((View.whole main_v20_0).slice (win0_18.rect t)).set ↔ _
  rw [View.set_slice_whole, Rect.mem_set_unit]
  exact Iff.rfl

/-- The fifty blocks tile the 50000 rows: row `r` is in the block of point `r / 1000`. -/
theorem cover18 (i : S50000x128.Idx) : ∃ t : Fin cfg0.N, (cfg0.win 18).flush t = true ∧ i ∈ ((cfg0.win 18).blk t).view.set := by
  have hi0 : (i 0).val < 50000 := (i 0).isLt
  have hi1 : (i 1).val < 128 := (i 1).isLt
  have ht : (i 0).val / 1000 < cfg0.N := lt_of_lt_of_eq (by omega : (i 0).val / 1000 < 50) (N_0 : cfg0.N = 50).symm
  refine ⟨⟨(i 0).val / 1000, ht⟩, flush0_18 _, ?_⟩
  obtain ⟨h0, h1⟩ := idx18 ⟨(i 0).val / 1000, ht⟩
  rw [mem_blk18]
  intro a
  match a with
  | ⟨0, _⟩ =>
    show win0_18.index ⟨(i 0).val / 1000, ht⟩ 0 * 1000 ≤ (i 0).val ∧ (i 0).val < win0_18.index ⟨(i 0).val / 1000, ht⟩ 0 * 1000 + 1000
    rw [h0]; show (i 0).val / 1000 * 1000 ≤ (i 0).val ∧ (i 0).val < (i 0).val / 1000 * 1000 + 1000; omega
  | ⟨1, _⟩ =>
    show win0_18.index ⟨(i 0).val / 1000, ht⟩ 1 * 128 ≤ (i 1).val ∧ (i 1).val < win0_18.index ⟨(i 0).val / 1000, ht⟩ 1 * 128 + 128
    rw [h1]; omega

/-- So output window 18's array ends at `hiddenOf` of the arguments. -/
theorem final18 (c : Dev nD) : (dats m 0 c).arrAt 18 cfg0.N = hiddenOf m c :=
  (dats m 0 c).arrAt_eq_of_cover 18 (hiddenOf m c) (fun t _ => flushed18_eq m c t) cover18

theorem idx19 : ∀ t : Fin cfg0.N, win0_19.index t (0 : Fin 2) = t.val ∧ win0_19.index t (1 : Fin 2) = 0 :=
  (by decide +kernel : ∀ t : Fin grid0.N, _)

/-- What point `t` writes back to output window 19 is block `t` of `cellOf`. -/
theorem flushed19_eq (c : Dev nD) (t : Fin cfg0.N) :
    (dats m 0 c).flushed 19 t = ((cfg0.win 19).blk t).view.read (Elt Ideal) (cellOf m c) := by
  rw [Blocks.flushed19]
  obtain ⟨h0, h1⟩ := idx19 t
  refine funext fun (j : S1000x128.Idx) => ?_
  obtain ⟨p, q, rfl⟩ : ∃ (p : Fin 1000) (q : Fin 128), j = ix2 p q := ⟨j 0, j 1, eq_ix2 j⟩
  have e : ((cfg0.win 19).blk t).view.emb (ix2 p q) = (ix2 (rowOf t p) q : S50000x128.Idx) := by
    funext a; apply Fin.ext
    match a with
    | ⟨0, _⟩ => show win0_19.index t 0 * 1000 + 1 * p.val = 1000 * t.val + p.val; rw [h0]; omega
    | ⟨1, _⟩ => show win0_19.index t 1 * 128 + 1 * q.val = q.val; rw [h1]; omega
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p q) = cellOf m c (((cfg0.win 19).blk t).view.emb (ix2 p q))
  refine (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p q).trans ?_
  refine Eq.trans ?_ (congrArg (cellOf m c) e).symm
  show cNew (blockW (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) (blockRow (iblk m c 0 t) (iblk m c 1 t) (iblk m c 2 t) (iblk m c 3 t) (iblk m c 4 t) (iblk m c 5 t) p) q
    = cNew (arrW (arg6 m c) (arg7 m c) (arg8 m c) (arg9 m c) (arg10 m c) (arg11 m c) (arg12 m c) (arg13 m c) (arg14 m c))
        (arrRow (arg0 m c) (arg1 m c) (arg2 m c) (arg3 m c) (arg4 m c) (arg5 m c) (rowOf t p)) q
  rw [blockW_eq m c t, blockRow_eq m c t p]

/-- An index of the array is in point `t`'s block iff each coordinate is in the block's range on its axis. -/
theorem mem_blk19 (t : Fin cfg0.N) (i : S50000x128.Idx) :
    i ∈ ((cfg0.win 19).blk t).view.set ↔ ∀ a : Fin 2, win0_19.index t a * S1000x128.size a ≤ (i a).val ∧ (i a).val < win0_19.index t a * S1000x128.size a + S1000x128.size a := by
  show i ∈ ((View.whole main_v20_1).slice (win0_19.rect t)).set ↔ _
  rw [View.set_slice_whole, Rect.mem_set_unit]
  exact Iff.rfl

/-- The fifty blocks tile the 50000 rows: row `r` is in the block of point `r / 1000`. -/
theorem cover19 (i : S50000x128.Idx) : ∃ t : Fin cfg0.N, (cfg0.win 19).flush t = true ∧ i ∈ ((cfg0.win 19).blk t).view.set := by
  have hi0 : (i 0).val < 50000 := (i 0).isLt
  have hi1 : (i 1).val < 128 := (i 1).isLt
  have ht : (i 0).val / 1000 < cfg0.N := lt_of_lt_of_eq (by omega : (i 0).val / 1000 < 50) (N_0 : cfg0.N = 50).symm
  refine ⟨⟨(i 0).val / 1000, ht⟩, flush0_19 _, ?_⟩
  obtain ⟨h0, h1⟩ := idx19 ⟨(i 0).val / 1000, ht⟩
  rw [mem_blk19]
  intro a
  match a with
  | ⟨0, _⟩ =>
    show win0_19.index ⟨(i 0).val / 1000, ht⟩ 0 * 1000 ≤ (i 0).val ∧ (i 0).val < win0_19.index ⟨(i 0).val / 1000, ht⟩ 0 * 1000 + 1000
    rw [h0]; show (i 0).val / 1000 * 1000 ≤ (i 0).val ∧ (i 0).val < (i 0).val / 1000 * 1000 + 1000; omega
  | ⟨1, _⟩ =>
    show win0_19.index ⟨(i 0).val / 1000, ht⟩ 1 * 128 ≤ (i 1).val ∧ (i 1).val < win0_19.index ⟨(i 0).val / 1000, ht⟩ 1 * 128 + 128
    rw [h1]; omega

/-- So output window 19's array ends at `cellOf` of the arguments. -/
theorem final19 (c : Dev nD) : (dats m 0 c).arrAt 19 cfg0.N = cellOf m c :=
  (dats m 0 c).arrAt_eq_of_cover 19 (cellOf m c) (fun t _ => flushed19_eq m c t) cover19

/-! ## The run, read -/

/-- The idealized kernel's run: both results at their functions of the arguments, the arguments unchanged. -/
theorem run : θ_run defs (onTc (τ := τ) (main (F := Ideal))) ⟨m, fun _ => 0, ρ⟩ fun r => ∀ c : Dev nD,
      r.2.mem ((c : Thread nD τ).loc main_v20_0) = hiddenOf m c
      ∧ r.2.mem ((c : Thread nD τ).loc main_v20_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final18 m c), (h c).2.1.trans (final19 m c), (h c).2.2⟩)
    (Blocks.run_blocks m ρ)

end Cert.KernelIdeal.ArrayValue

end
-- ==== Proof.RefContext.lean ====
/-
  The reference's neighbour context and static projection, read at one element, are the row's.

  The context is read one operation at a time at the index (row `n`, neighbour `k`, column `o`): the message is a
  contraction over the 128 hidden coordinates; the gate logit is ONE contraction over the 256 coordinates of the
  joined operand [neighbour | self], which splits as the sum over its first 128 coordinates (where the joined operand
  is the neighbour's state) plus the sum over its last 128 (where it is the row's own state); the gate is
  `1 / (1 + exp (-x))` of the logit plus the bias, which is the logistic function by definition; the sum over the
  eight neighbours starts from the zero literal, which is `0`.
-/
import proofs.«409955_j30081950941525_3_alg».proof.Proof.Gen.ReferenceIdeal.Read
import proofs.«409955_j30081950941525_3_alg».proof.Proof.CellArrays
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.RiverCell

variable (x0 : (⟨S50000x32, .f32⟩ : BufTy).Contents (Elt Ideal)) (x1 x2 : (⟨S50000x128, .f32⟩ : BufTy).Contents (Elt Ideal))
  (x3 : (⟨S50000x8x128, .f32⟩ : BufTy).Contents (Elt Ideal)) (x4 : (⟨S50000x8, .i1⟩ : BufTy).Contents (Elt Ideal))
  (x5 : (⟨S50000x27, .f32⟩ : BufTy).Contents (Elt Ideal)) (x6 : (⟨S128x128, .f32⟩ : BufTy).Contents (Elt Ideal))
  (x7 : (⟨S128x256, .f32⟩ : BufTy).Contents (Elt Ideal)) (x8 : (⟨S128, .f32⟩ : BufTy).Contents (Elt Ideal))
  (x9 : (⟨S128x27, .f32⟩ : BufTy).Contents (Elt Ideal)) (x10 : (⟨S128, .f32⟩ : BufTy).Contents (Elt Ideal))
  (x11 : (⟨S512x416, .f32⟩ : BufTy).Contents (Elt Ideal)) (x12 : (⟨S512, .f32⟩ : BufTy).Contents (Elt Ideal))
  (x13 x14 : (⟨S128, .f32⟩ : BufTy).Contents (Elt Ideal))

/-- The single-precision bit pattern of `1.0` denotes `1`. -/
theorem ofBits_one_f32 : Ideal.ofBits .f32 0x3F800000#32 = 1 := IdealRules.sign_bit.ideal_onePat .f32

/-- The message contraction at neighbour `k`, column `o` of row `n`. -/
theorem message_apply (n : Fin 50000) (k : Fin 8) (o : Fin 128) :
    Read.val_main_v0 x3 x6 (ix3 n k o) = ∑ h : Fin 128, x3 (ix3 n k h) * x6 (ix2 o h) := by
  rw [Read.val_main_v0_apply]
  refine Finset.sum_congr rfl fun h _ => ?_
  congr 1
  · exact congrArg x3 (funext fun a => match a with | ⟨0, _⟩ => rfl | ⟨1, _⟩ => rfl | ⟨2, _⟩ => rfl)
  · exact congrArg x6 (funext fun a => match a with | ⟨0, _⟩ => rfl | ⟨1, _⟩ => rfl)

/-- The joined operand [neighbour | self] at a coordinate of its first half is the neighbour's state. -/
theorem joined_left (n : Fin 50000) (k : Fin 8) (o h : Fin 128) :
    Read.val_main_v3 x1 x3 (Read.lidx_main_v4 (ix3 n k o) (Fin.castAdd 128 h)) = x3 (ix3 n k h) := by
  unfold Read.val_main_v3
  refine concatenate_pair_apply_left (2 : Fin 3) x3 (Read.val_main_v2 x1) _
    (Read.lidx_main_v4 (ix3 n k o) (Fin.castAdd 128 h)) rfl (ix3 n k h) ?_
  intro b
  match b with
  | ⟨0, _⟩ => rfl
  | ⟨1, _⟩ => rfl
  | ⟨2, _⟩ => rfl

/-- The joined operand at a coordinate of its second half is the row's own state, whichever the neighbour. -/
theorem joined_right (n : Fin 50000) (k : Fin 8) (o h : Fin 128) :
    Read.val_main_v3 x1 x3 (Read.lidx_main_v4 (ix3 n k o) (Fin.natAdd 128 h)) = x1 (ix2 n h) := by
  have e : Read.val_main_v3 x1 x3 (Read.lidx_main_v4 (ix3 n k o) (Fin.natAdd 128 h))
      = Read.val_main_v2 x1 (ix3 n k h) := by
    unfold Read.val_main_v3
    refine concatenate_pair_apply_right (2 : Fin 3) x3 (Read.val_main_v2 x1) _
      (Read.lidx_main_v4 (ix3 n k o) (Fin.natAdd 128 h)) rfl rfl (ix3 n k h) ?_ ?_
    · intro b
      match b with
      | ⟨0, _⟩ => exact fun _ => rfl
      | ⟨1, _⟩ => exact fun _ => rfl
      | ⟨2, _⟩ => exact fun hne => absurd rfl hne
    · exact Nat.add_comm h.val 128
  rw [e, Read.val_main_v2_apply, Read.val_main_v1_apply]
  exact congrArg x1 (funext fun a => match a with | ⟨0, _⟩ => rfl | ⟨1, _⟩ => rfl)

/-- The gate logit's contraction over the 256 joined coordinates is the neighbour half plus the self half. -/
theorem logit_apply (n : Fin 50000) (k : Fin 8) (o : Fin 128) :
    Read.val_main_v4 x1 x3 x7 (ix3 n k o)
      = (∑ h : Fin 128, x3 (ix3 n k h) * x7 (ix2 o (⟨h.val, by have := h.isLt; omega⟩ : Fin 256)))
        + ∑ h : Fin 128, x1 (ix2 n h) * x7 (ix2 o (⟨h.val + 128, by have := h.isLt; omega⟩ : Fin 256)) := by
  rw [Read.val_main_v4_apply]
  refine (Fin.sum_univ_add (a := 128) (b := 128) (fun q =>
    Read.val_main_v3 x1 x3 (Read.lidx_main_v4 (ix3 n k o) q) * x7 (Read.ridx_main_v4 (ix3 n k o) q))).trans ?_
  congr 1
  · refine Finset.sum_congr rfl fun h _ => ?_
    refine (congrArg (· * _) (joined_left x1 x3 n k o h)).trans ?_
    exact congrArg (x3 (ix3 n k h) * ·) (congrArg x7 (funext fun a => match a with
      | ⟨0, _⟩ => rfl
      | ⟨1, _⟩ => rfl))
  · refine Finset.sum_congr rfl fun h _ => ?_
    refine (congrArg (· * _) (joined_right x1 x3 n k o h)).trans ?_
    exact congrArg (x1 (ix2 n h) * ·) (congrArg x7 (funext fun a => match a with
      | ⟨0, _⟩ => rfl
      | ⟨1, _⟩ => Fin.ext (Nat.add_comm 128 h.val)))

/-- The gate: the expansion `1 / (1 + exp (-x))` of the logit plus the bias is the logistic function of it. -/
theorem gate_apply (n : Fin 50000) (k : Fin 8) (o : Fin 128) :
    Read.val_main_v13 x1 x3 x7 x8 (ix3 n k o)
      = Ideal.logistic
          (((∑ h : Fin 128, x3 (ix3 n k h) * x7 (ix2 o (⟨h.val, by have := h.isLt; omega⟩ : Fin 256)))
            + ∑ h : Fin 128, x1 (ix2 n h) * x7 (ix2 o (⟨h.val + 128, by have := h.isLt; omega⟩ : Fin 256)))
           + x8 (ix1 o)) := by
  rw [Read.val_main_v13_apply, Read.val_main_v12_apply, Read.val_main_cst_0_apply, Read.val_main_v11_apply,
    Read.val_main_v10_apply, Read.val_main_cst_apply, Read.val_main_v9_apply, Read.val_main_v8_apply,
    Read.val_main_v7_apply, logit_apply, Read.val_main_v6_apply, Read.val_main_v5_apply]
  have e : Read.idx_main_v5 (Read.idx_main_v6 (ix3 n k o)) = ix1 o :=
    funext fun a => match a with | ⟨0, _⟩ => rfl
  rw [e]
  show Ideal.div (Ideal.ofBits .f32 0x3F800000#32) (Ideal.ofBits .f32 0x3F800000#32 + Ideal.exp (-_)) = Ideal.div 1 (1 + Ideal.exp (-_))
  rw [ofBits_one_f32]
  rfl

/-- The validity weight, tiled over the columns, is the bit of neighbour `k` of row `n` read as a number. -/
theorem mask_apply (n : Fin 50000) (k : Fin 8) (o : Fin 128) :
    Read.val_main_v17 x4 (ix3 n k o) = FloatOps.uitofp (F := Ideal) .f32 (x4 (ix2 n k)) := by
  rw [Read.val_main_v17_apply, Read.val_main_v15_apply, Read.val_main_v14_apply]
  exact congrArg (fun b => FloatOps.uitofp (F := Ideal) .f32 b)
    (congrArg x4 (funext fun a => match a with | ⟨0, _⟩ => rfl | ⟨1, _⟩ => rfl))

/-- The gated, masked message of neighbour `k` at column `o` of row `n` is the row's `contrib`. -/
theorem contrib_apply (n : Fin 50000) (k : Fin 8) (o : Fin 128) :
    Read.val_main_v18 x1 x3 x4 x6 x7 x8 (ix3 n k o)
      = contrib (arrW x6 x7 x8 x9 x10 x11 x12 x13 x14) (arrRow x0 x1 x2 x3 x4 x5 n) k o := by
  rw [Read.val_main_v18_apply, Read.val_main_v16_apply, mask_apply, message_apply, gate_apply]
  rfl

/-- The reference's masked sum of gated messages at row `n`, column `o` is the row's `context`: its gate logit is ONE
    contraction over the 256 joined coordinates [neighbour | self], which is the sum of the two halves. -/
theorem context_apply (n : Fin 50000) (o : Fin 128) :
    Read.val_main_v19 x1 x3 x4 x6 x7 x8 (ix2 n o)
      = context (arrW x6 x7 x8 x9 x10 x11 x12 x13 x14) (arrRow x0 x1 x2 x3 x4 x5 n) o := by
  rw [Read.val_main_v19_apply, Read.val_main_cst_1_apply]
  refine (congrArg (· + _) Ideal.ofBits_zero_f32).trans ?_
  rw [zero_add]
  unfold context
  refine Finset.sum_congr rfl fun k _ => ?_
  have e : Read.idx_main_v19 (ix2 n o) k = ix3 n k o :=
    funext fun a => match a with | ⟨0, _⟩ => rfl | ⟨1, _⟩ => rfl | ⟨2, _⟩ => rfl
  rw [e]
  exact contrib_apply x0 x1 x2 x3 x4 x5 x6 x7 x8 x9 x10 x11 x12 x13 x14 n k o

/-- The reference's static projection at row `n`, column `o` is the row's `static`. -/
theorem static_apply (n : Fin 50000) (o : Fin 128) :
    Read.val_main_v24 x5 x9 x10 (ix2 n o)
      = static (arrW x6 x7 x8 x9 x10 x11 x12 x13 x14) (arrRow x0 x1 x2 x3 x4 x5 n) o := by
  rw [Read.val_main_v24_apply, Read.val_main_v21_apply, Read.val_main_v23_apply, Read.val_main_v22_apply]
  show (∑ k : Fin 27, x5 (Read.lidx_main_v21 (ix2 n o) k) * Read.val_main_v20 x9 (Read.ridx_main_v21 (ix2 n o) k))
      + x10 (Read.idx_main_v22 (Read.idx_main_v23 (ix2 n o)))
    = (∑ j : Fin 27, x5 (ix2 n j) * x9 (ix2 o j)) + x10 (ix1 o)
  congr 1
  · refine Finset.sum_congr rfl fun k _ => ?_
    rw [Read.val_main_v20_apply]
    congr 1
    · exact congrArg x5 (funext fun a => match a with | ⟨0, _⟩ => rfl | ⟨1, _⟩ => rfl)
    · exact congrArg x9 (funext fun a => match a with | ⟨0, _⟩ => rfl | ⟨1, _⟩ => rfl)
  · exact congrArg x10 (funext fun a => match a with | ⟨0, _⟩ => rfl)

end Cert.ReferenceIdeal.RefValue

end
-- ==== Proof.RefZ.lean ====
/-
  The reference's LSTM pre-activations, read at one element, are the row's.
  The joined row [x | h | context | static projection] is read part by part, and the one contraction over its 416
  coordinates is split into the four partial sums of the row's `z`.
-/
import proofs.«409955_j30081950941525_3_alg».proof.Proof.RefContext
import proofs.«409955_j30081950941525_3_alg».proof.Proof.CellArrays
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.RiverCell

variable (x0 : (⟨S50000x32, .f32⟩ : BufTy).Contents (Elt Ideal)) (x1 x2 : (⟨S50000x128, .f32⟩ : BufTy).Contents (Elt Ideal))
  (x3 : (⟨S50000x8x128, .f32⟩ : BufTy).Contents (Elt Ideal)) (x4 : (⟨S50000x8, .i1⟩ : BufTy).Contents (Elt Ideal))
  (x5 : (⟨S50000x27, .f32⟩ : BufTy).Contents (Elt Ideal)) (x6 : (⟨S128x128, .f32⟩ : BufTy).Contents (Elt Ideal))
  (x7 : (⟨S128x256, .f32⟩ : BufTy).Contents (Elt Ideal)) (x8 : (⟨S128, .f32⟩ : BufTy).Contents (Elt Ideal))
  (x9 : (⟨S128x27, .f32⟩ : BufTy).Contents (Elt Ideal)) (x10 : (⟨S128, .f32⟩ : BufTy).Contents (Elt Ideal))
  (x11 : (⟨S512x416, .f32⟩ : BufTy).Contents (Elt Ideal)) (x12 : (⟨S512, .f32⟩ : BufTy).Contents (Elt Ideal))
  (x13 x14 : (⟨S128, .f32⟩ : BufTy).Contents (Elt Ideal))

/-- A sum over the 416 joined coordinates is the sum of its four parts, of 32, 128, 128 and 128 coordinates. -/
theorem refZ_sum_416 (f : Fin 416 → EReal) :
    ∑ k : Fin 416, f k
      = (((∑ j : Fin 32, f ⟨j.val, by have := j.isLt; omega⟩) + ∑ h : Fin 128, f ⟨h.val + 32, by have := h.isLt; omega⟩)
          + ∑ h : Fin 128, f ⟨h.val + 160, by have := h.isLt; omega⟩)
        + ∑ h : Fin 128, f ⟨h.val + 288, by have := h.isLt; omega⟩ := by
  have h1 := Fin.sum_univ_add (a := 288) (b := 128) (f := f)
  have h2 := Fin.sum_univ_add (a := 160) (b := 128) (f := fun i : Fin 288 => f (Fin.castAdd 128 i))
  have h3 := Fin.sum_univ_add (a := 32) (b := 128) (f := fun i : Fin 160 => f (Fin.castAdd 128 (Fin.castAdd 128 i)))
  refine h1.trans ?_
  refine congrArg₂ (· + ·) (h2.trans (congrArg₂ (· + ·) (h3.trans (congrArg₂ (· + ·) ?_ ?_)) ?_)) ?_
  all_goals exact Finset.sum_congr rfl fun i _ => congrArg f (Fin.ext (by first | rfl | exact Nat.add_comm _ _))

/-- The joined row at a coordinate of its first part is the input feature. -/
theorem refZ_cat_x (n : Fin 50000) (j : Fin 32) :
    Read.val_main_v25 x0 x1 x3 x4 x5 x6 x7 x8 x9 x10 (ix2 n (⟨j.val, by have := j.isLt; omega⟩ : Fin 416)) = x0 (ix2 n j) := by
  unfold Read.val_main_v25
  refine concatenate_apply_piece (t := S50000x416) (1 : Fin 2) _ _ _ 0 ?_ S50000x32 x0 ?_ rfl 0 ?_ (ix2 n j) ?_ ?_
  · show 0 < 4; omega
  · rfl
  · rfl
  · intro b hb
    match b with
    | ⟨0, _⟩ => rfl
    | ⟨1, _⟩ => exact absurd rfl hb
  · exact Nat.zero_add _

/-- The joined row at a coordinate of its second part is the row's own hidden state. -/
theorem refZ_cat_h (n : Fin 50000) (h : Fin 128) :
    Read.val_main_v25 x0 x1 x3 x4 x5 x6 x7 x8 x9 x10 (ix2 n (⟨h.val + 32, by have := h.isLt; omega⟩ : Fin 416)) = x1 (ix2 n h) := by
  unfold Read.val_main_v25
  refine concatenate_apply_piece (t := S50000x416) (1 : Fin 2) _ _ _ 1 ?_ S50000x128 x1 ?_ rfl 32 ?_ (ix2 n h) ?_ ?_
  · show 1 < 4; omega
  · rfl
  · rfl
  · intro b hb
    match b with
    | ⟨0, _⟩ => rfl
    | ⟨1, _⟩ => exact absurd rfl hb
  · exact Nat.add_comm _ _

/-- The joined row at a coordinate of its third part is the neighbour context. -/
theorem refZ_cat_ctx (n : Fin 50000) (h : Fin 128) :
    Read.val_main_v25 x0 x1 x3 x4 x5 x6 x7 x8 x9 x10 (ix2 n (⟨h.val + 160, by have := h.isLt; omega⟩ : Fin 416))
      = Read.val_main_v19 x1 x3 x4 x6 x7 x8 (ix2 n h) := by
  unfold Read.val_main_v25
  refine concatenate_apply_piece (t := S50000x416) (1 : Fin 2) _ _ _ 2 ?_ S50000x128 (Read.val_main_v19 x1 x3 x4 x6 x7 x8) ?_ rfl 160 ?_
    (ix2 n h) ?_ ?_
  · show 2 < 4; omega
  · rfl
  · rfl
  · intro b hb
    match b with
    | ⟨0, _⟩ => rfl
    | ⟨1, _⟩ => exact absurd rfl hb
  · exact Nat.add_comm _ _

/-- The joined row at a coordinate of its fourth part is the static projection. -/
theorem refZ_cat_st (n : Fin 50000) (h : Fin 128) :
    Read.val_main_v25 x0 x1 x3 x4 x5 x6 x7 x8 x9 x10 (ix2 n (⟨h.val + 288, by have := h.isLt; omega⟩ : Fin 416))
      = Read.val_main_v24 x5 x9 x10 (ix2 n h) := by
  unfold Read.val_main_v25
  refine concatenate_apply_piece (t := S50000x416) (1 : Fin 2) _ _ _ 3 ?_ S50000x128 (Read.val_main_v24 x5 x9 x10) ?_ rfl 288 ?_
    (ix2 n h) ?_ ?_
  · show 3 < 4; omega
  · rfl
  · rfl
  · intro b hb
    match b with
    | ⟨0, _⟩ => rfl
    | ⟨1, _⟩ => exact absurd rfl hb
  · exact Nat.add_comm _ _

/-- The contraction's left index at row `n`, contracted coordinate `k`. -/
theorem refZ_lidx_eq (n : Fin 50000) (d : Fin 512) (k : Fin 416) : Read.lidx_main_v27 (ix2 n d) k = ix2 n k := by
  funext a
  match a with
  | ⟨0, _⟩ => rfl
  | ⟨1, _⟩ => rfl

/-- The transposed LSTM matrix at (contracted coordinate, output column) is the matrix at (output column, contracted coordinate). -/
theorem refZ_wT_apply (n : Fin 50000) (d : Fin 512) (k : Fin 416) :
    Read.val_main_v26 x11 (Read.ridx_main_v27 (ix2 n d) k) = x11 (ix2 d k) := by
  rw [Read.val_main_v26_apply]
  congr 1
  funext a
  match a with
  | ⟨0, _⟩ => rfl
  | ⟨1, _⟩ => rfl

/-- The broadcast bias at row `n`, column `d` is the bias at `d`. -/
theorem refZ_bias_apply (n : Fin 50000) (d : Fin 512) : Read.val_main_v29 x12 (ix2 n d) = x12 (ix1 d) := by
  rw [Read.val_main_v29_apply, Read.val_main_v28_apply]
  congr 1
  funext a
  match a with
  | ⟨0, _⟩ => rfl

/-- The reference's pre-activation at row `n`, column `d` is the row's `z`: its ONE contraction over the 416 joined
    coordinates [x | h | context | static projection] is the sum of the four parts. -/
theorem z_apply (n : Fin 50000) (d : Fin 512) :
    Read.val_main_v30 x0 x1 x3 x4 x5 x6 x7 x8 x9 x10 x11 x12 (ix2 n d)
      = z (arrW x6 x7 x8 x9 x10 x11 x12 x13 x14) (arrRow x0 x1 x2 x3 x4 x5 n) d := by
  rw [Read.val_main_v30_apply, Read.val_main_v27_apply, refZ_bias_apply]
  show (∑ k : Fin 416, Read.val_main_v25 x0 x1 x3 x4 x5 x6 x7 x8 x9 x10 (Read.lidx_main_v27 (ix2 n d) k)
      * Read.val_main_v26 x11 (Read.ridx_main_v27 (ix2 n d) k)) + x12 (ix1 d) = _
  unfold z
  refine congrArg₂ (· + ·) ?_ rfl
  have e : ∀ k : Fin 416, Read.val_main_v25 x0 x1 x3 x4 x5 x6 x7 x8 x9 x10 (Read.lidx_main_v27 (ix2 n d) k)
      * Read.val_main_v26 x11 (Read.ridx_main_v27 (ix2 n d) k)
      = Read.val_main_v25 x0 x1 x3 x4 x5 x6 x7 x8 x9 x10 (ix2 n k) * x11 (ix2 d k) := fun k => by
    rw [refZ_lidx_eq, refZ_wT_apply]
  refine (Finset.sum_congr rfl fun k _ => e k).trans ?_
  refine (refZ_sum_416 (fun k => Read.val_main_v25 x0 x1 x3 x4 x5 x6 x7 x8 x9 x10 (ix2 n k) * x11 (ix2 d k))).trans ?_
  refine congrArg₂ (· + ·) (congrArg₂ (· + ·) (congrArg₂ (· + ·) ?_ ?_) ?_) ?_
  · exact Finset.sum_congr rfl fun j _ => congrArg (· * _) (refZ_cat_x x0 x1 x3 x4 x5 x6 x7 x8 x9 x10 n j)
  · exact Finset.sum_congr rfl fun h _ => congrArg (· * _) (refZ_cat_h x0 x1 x3 x4 x5 x6 x7 x8 x9 x10 n h)
  · exact Finset.sum_congr rfl fun h _ => congrArg (· * _)
      ((refZ_cat_ctx x0 x1 x3 x4 x5 x6 x7 x8 x9 x10 n h).trans (context_apply x0 x1 x2 x3 x4 x5 x6 x7 x8 x9 x10 x11 x12 x13 x14 n h))
  · exact Finset.sum_congr rfl fun h _ => congrArg (· * _)
      ((refZ_cat_st x0 x1 x3 x4 x5 x6 x7 x8 x9 x10 n h).trans (static_apply x0 x1 x2 x3 x4 x5 x6 x7 x8 x9 x10 x11 x12 x13 x14 n h))

end Cert.ReferenceIdeal.RefValue

end
-- ==== Proof.RefTail.lean ====
/-
  The reference's two results are the cell's, as whole arrays.

  The four 128-column slices of the pre-activations are the four quarters of the row's `z`; the expansion
  1 / (1 + exp (-x)) is the logistic function once the literal 1.0 is read as the number one; the row sums start
  from the zero literal, and the literals 128.0 and the variance's offset are kept as their words, which are the
  same on both sides.
-/
import proofs.«409955_j30081950941525_3_alg».proof.Proof.RefZ
import proofs.«409955_j30081950941525_3_alg».proof.Proof.CellArrays
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.RiverCell

variable (x0 : (⟨S50000x32, .f32⟩ : BufTy).Contents (Elt Ideal)) (x1 x2 : (⟨S50000x128, .f32⟩ : BufTy).Contents (Elt Ideal))
  (x3 : (⟨S50000x8x128, .f32⟩ : BufTy).Contents (Elt Ideal)) (x4 : (⟨S50000x8, .i1⟩ : BufTy).Contents (Elt Ideal))
  (x5 : (⟨S50000x27, .f32⟩ : BufTy).Contents (Elt Ideal)) (x6 : (⟨S128x128, .f32⟩ : BufTy).Contents (Elt Ideal))
  (x7 : (⟨S128x256, .f32⟩ : BufTy).Contents (Elt Ideal)) (x8 : (⟨S128, .f32⟩ : BufTy).Contents (Elt Ideal))
  (x9 : (⟨S128x27, .f32⟩ : BufTy).Contents (Elt Ideal)) (x10 : (⟨S128, .f32⟩ : BufTy).Contents (Elt Ideal))
  (x11 : (⟨S512x416, .f32⟩ : BufTy).Contents (Elt Ideal)) (x12 : (⟨S512, .f32⟩ : BufTy).Contents (Elt Ideal))
  (x13 x14 : (⟨S128, .f32⟩ : BufTy).Contents (Elt Ideal))

/-- The single-precision word of the literal 1.0 is the number one. -/
theorem tail_ofBits_one_f32 : Ideal.ofBits .f32 0x3F800000#32 = 1 := by
  simp [Ideal.ofBits, Ideal.ieee, -EReal.coe_mul]; norm_num

/-- The expansion 1 / (1 + exp (-x)) of the sigmoid is the logistic function. -/
theorem sigmoid_read (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [tail_ofBits_one_f32]; rfl

/-- The first 128-column slice of the pre-activations at row `n`, column `o`. -/
theorem slice0_apply (n : Fin 50000) (o : Fin 128) :
    Read.val_main_v31 x0 x1 x3 x4 x5 x6 x7 x8 x9 x10 x11 x12 (ix2 n o)
      = z (arrW x6 x7 x8 x9 x10 x11 x12 x13 x14) (arrRow x0 x1 x2 x3 x4 x5 n) (quarter 0 o) := by
  rw [Read.val_main_v31_apply]
  have hidx : Read.idx_main_v31 (ix2 n o) = ix2 n (quarter 0 o) :=
    funext fun a => Fin.ext (by
      match a with
      | ⟨0, _⟩ => rfl
      | ⟨1, _⟩ => show o.val = o.val + 128 * 0; omega)
  rw [hidx]
  exact z_apply x0 x1 x2 x3 x4 x5 x6 x7 x8 x9 x10 x11 x12 x13 x14 n (quarter 0 o)

/-- The second 128-column slice of the pre-activations at row `n`, column `o`. -/
theorem slice1_apply (n : Fin 50000) (o : Fin 128) :
    Read.val_main_v32 x0 x1 x3 x4 x5 x6 x7 x8 x9 x10 x11 x12 (ix2 n o)
      = z (arrW x6 x7 x8 x9 x10 x11 x12 x13 x14) (arrRow x0 x1 x2 x3 x4 x5 n) (quarter 1 o) := by
  rw [Read.val_main_v32_apply]
  have hidx : Read.idx_main_v32 (ix2 n o) = ix2 n (quarter 1 o) :=
    funext fun a => Fin.ext (by
      match a with
      | ⟨0, _⟩ => rfl
      | ⟨1, _⟩ => show 128 + o.val = o.val + 128 * 1; omega)
  rw [hidx]
  exact z_apply x0 x1 x2 x3 x4 x5 x6 x7 x8 x9 x10 x11 x12 x13 x14 n (quarter 1 o)

/-- The third 128-column slice of the pre-activations at row `n`, column `o`. -/
theorem slice2_apply (n : Fin 50000) (o : Fin 128) :
    Read.val_main_v33 x0 x1 x3 x4 x5 x6 x7 x8 x9 x10 x11 x12 (ix2 n o)
      = z (arrW x6 x7 x8 x9 x10 x11 x12 x13 x14) (arrRow x0 x1 x2 x3 x4 x5 n) (quarter 2 o) := by
  rw [Read.val_main_v33_apply]
  have hidx : Read.idx_main_v33 (ix2 n o) = ix2 n (quarter 2 o) :=
    funext fun a => Fin.ext (by
      match a with
      | ⟨0, _⟩ => rfl
      | ⟨1, _⟩ => show 256 + o.val = o.val + 128 * 2; omega)
  rw [hidx]
  exact z_apply x0 x1 x2 x3 x4 x5 x6 x7 x8 x9 x10 x11 x12 x13 x14 n (quarter 2 o)

/-- The fourth 128-column slice of the pre-activations at row `n`, column `o`. -/
theorem slice3_apply (n : Fin 50000) (o : Fin 128) :
    Read.val_main_v34 x0 x1 x3 x4 x5 x6 x7 x8 x9 x10 x11 x12 (ix2 n o)
      = z (arrW x6 x7 x8 x9 x10 x11 x12 x13 x14) (arrRow x0 x1 x2 x3 x4 x5 n) (quarter 3 o) := by
  rw [Read.val_main_v34_apply]
  have hidx : Read.idx_main_v34 (ix2 n o) = ix2 n (quarter 3 o) :=
    funext fun a => Fin.ext (by
      match a with
      | ⟨0, _⟩ => rfl
      | ⟨1, _⟩ => show 384 + o.val = o.val + 128 * 3; omega)
  rw [hidx]
  exact z_apply x0 x1 x2 x3 x4 x5 x6 x7 x8 x9 x10 x11 x12 x13 x14 n (quarter 3 o)

/-- The reference's new cell state at row `n`, column `o`. -/
theorem cell_apply (n : Fin 50000) (o : Fin 128) :
    Read.val_main_v50 x0 x1 x2 x3 x4 x5 x6 x7 x8 x9 x10 x11 x12 (ix2 n o)
      = cNew (arrW x6 x7 x8 x9 x10 x11 x12 x13 x14) (arrRow x0 x1 x2 x3 x4 x5 n) o := by
  have h1 := slice1_apply x0 x1 x2 x3 x4 x5 x6 x7 x8 x9 x10 x11 x12 x13 x14 n o
  have h0 := slice0_apply x0 x1 x2 x3 x4 x5 x6 x7 x8 x9 x10 x11 x12 x13 x14 n o
  have h3 := slice3_apply x0 x1 x2 x3 x4 x5 x6 x7 x8 x9 x10 x11 x12 x13 x14 n o
  show (FloatOps.hostDivf (F := Ideal) (φ := .f32) (Read.val_main_v39 (F := Ideal) (ix2 n o))
          (FloatOps.addf (Read.val_main_v37 (F := Ideal) (ix2 n o))
            (FloatOps.hostUnary .exp (FloatOps.hostNegf (Read.val_main_v32 x0 x1 x3 x4 x5 x6 x7 x8 x9 x10 x11 x12 (ix2 n o))))))
        * x2 (ix2 n o)
      + (FloatOps.hostDivf (F := Ideal) (φ := .f32) (Read.val_main_v46 (F := Ideal) (ix2 n o))
          (FloatOps.addf (Read.val_main_v44 (F := Ideal) (ix2 n o))
            (FloatOps.hostUnary .exp (FloatOps.hostNegf (Read.val_main_v31 x0 x1 x3 x4 x5 x6 x7 x8 x9 x10 x11 x12 (ix2 n o))))))
        * Ideal.tanh (Read.val_main_v34 x0 x1 x3 x4 x5 x6 x7 x8 x9 x10 x11 x12 (ix2 n o)) = _
  rw [Read.val_main_v39_apply, Read.val_main_v37_apply, Read.val_main_v46_apply, Read.val_main_v44_apply,
    Read.val_main_cst_2_apply, Read.val_main_cst_3_apply, Read.val_main_cst_4_apply, Read.val_main_cst_5_apply,
    sigmoid_read, sigmoid_read, h1, h0, h3]
  rfl

/-- The reference's hidden state before normalisation at row `n`, column `o`. -/
theorem hraw_apply (n : Fin 50000) (o : Fin 128) :
    Read.val_main_v58 x0 x1 x2 x3 x4 x5 x6 x7 x8 x9 x10 x11 x12 (ix2 n o)
      = hRaw (arrW x6 x7 x8 x9 x10 x11 x12 x13 x14) (arrRow x0 x1 x2 x3 x4 x5 n) o := by
  have h2 := slice2_apply x0 x1 x2 x3 x4 x5 x6 x7 x8 x9 x10 x11 x12 x13 x14 n o
  have hc := cell_apply x0 x1 x2 x3 x4 x5 x6 x7 x8 x9 x10 x11 x12 x13 x14 n o
  show (FloatOps.hostDivf (F := Ideal) (φ := .f32) (Read.val_main_v55 (F := Ideal) (ix2 n o))
          (FloatOps.addf (Read.val_main_v53 (F := Ideal) (ix2 n o))
            (FloatOps.hostUnary .exp (FloatOps.hostNegf (Read.val_main_v33 x0 x1 x3 x4 x5 x6 x7 x8 x9 x10 x11 x12 (ix2 n o))))))
        * Ideal.tanh (Read.val_main_v50 x0 x1 x2 x3 x4 x5 x6 x7 x8 x9 x10 x11 x12 (ix2 n o)) = _
  rw [Read.val_main_v55_apply, Read.val_main_v53_apply, Read.val_main_cst_7_apply, Read.val_main_cst_6_apply,
    sigmoid_read, h2, hc]
  rfl

/-- The reference's row mean: the zero literal plus the 128 terms, over the literal 128. -/
theorem mean_apply (n : Fin 50000) :
    Read.val_main_v62 x0 x1 x2 x3 x4 x5 x6 x7 x8 x9 x10 x11 x12 (ix2 n (0 : Fin 1))
      = mean (arrW x6 x7 x8 x9 x10 x11 x12 x13 x14) (arrRow x0 x1 x2 x3 x4 x5 n) := by
  show FloatOps.hostDivf (F := Ideal) (φ := .f32) (Read.val_main_v60 x0 x1 x2 x3 x4 x5 x6 x7 x8 x9 x10 x11 x12 (ix2 n (0 : Fin 1)))
      (Read.val_main_v61 (F := Ideal) (ix2 n (0 : Fin 1))) = _
  rw [Read.val_main_v60_apply, Read.val_main_v59_apply, Read.val_main_v61_apply, Read.val_main_cst_9_apply,
    Read.val_main_cst_8_apply]
  show Ideal.div (Ideal.ofBits .f32 0x00000000#32 + _) (Ideal.ofBits .f32 0x43000000#32) = _
  rw [Ideal.ofBits_zero_f32, zero_add]
  refine congrArg (Ideal.div · _) (Finset.sum_congr rfl fun k _ => ?_)
  have hidx : Read.idx_main_v59 (Read.idx_main_v60 (ix2 n (0 : Fin 1))) k = ix2 n k :=
    funext fun a => Fin.ext (by match a with | ⟨0, _⟩ => rfl | ⟨1, _⟩ => rfl)
  rw [hidx]
  exact hraw_apply x0 x1 x2 x3 x4 x5 x6 x7 x8 x9 x10 x11 x12 x13 x14 n k

/-- The deviation from the mean that enters the variance. -/
theorem centred_apply (n : Fin 50000) (o : Fin 128) :
    Read.val_main_v64 x0 x1 x2 x3 x4 x5 x6 x7 x8 x9 x10 x11 x12 (ix2 n o)
      = hRaw (arrW x6 x7 x8 x9 x10 x11 x12 x13 x14) (arrRow x0 x1 x2 x3 x4 x5 n) o - mean (arrW x6 x7 x8 x9 x10 x11 x12 x13 x14) (arrRow x0 x1 x2 x3 x4 x5 n) := by
  show Read.val_main_v58 x0 x1 x2 x3 x4 x5 x6 x7 x8 x9 x10 x11 x12 (ix2 n o) - Read.val_main_v63 x0 x1 x2 x3 x4 x5 x6 x7 x8 x9 x10 x11 x12 (ix2 n o) = _
  rw [Read.val_main_v63_apply, hraw_apply x0 x1 x2 x3 x4 x5 x6 x7 x8 x9 x10 x11 x12 x13 x14 n o]
  have hidx : Read.idx_main_v63 (ix2 n o) = ix2 n (0 : Fin 1) :=
    funext fun a => Fin.ext (by match a with | ⟨0, _⟩ => rfl | ⟨1, _⟩ => rfl)
  rw [hidx, mean_apply x0 x1 x2 x3 x4 x5 x6 x7 x8 x9 x10 x11 x12 x13 x14 n]

/-- The deviation from the mean that is rescaled. -/
theorem centred'_apply (n : Fin 50000) (o : Fin 128) :
    Read.val_main_v71 x0 x1 x2 x3 x4 x5 x6 x7 x8 x9 x10 x11 x12 (ix2 n o)
      = hRaw (arrW x6 x7 x8 x9 x10 x11 x12 x13 x14) (arrRow x0 x1 x2 x3 x4 x5 n) o - mean (arrW x6 x7 x8 x9 x10 x11 x12 x13 x14) (arrRow x0 x1 x2 x3 x4 x5 n) := by
  show Read.val_main_v58 x0 x1 x2 x3 x4 x5 x6 x7 x8 x9 x10 x11 x12 (ix2 n o) - Read.val_main_v70 x0 x1 x2 x3 x4 x5 x6 x7 x8 x9 x10 x11 x12 (ix2 n o) = _
  rw [Read.val_main_v70_apply, hraw_apply x0 x1 x2 x3 x4 x5 x6 x7 x8 x9 x10 x11 x12 x13 x14 n o]
  have hidx : Read.idx_main_v70 (ix2 n o) = ix2 n (0 : Fin 1) :=
    funext fun a => Fin.ext (by match a with | ⟨0, _⟩ => rfl | ⟨1, _⟩ => rfl)
  rw [hidx, mean_apply x0 x1 x2 x3 x4 x5 x6 x7 x8 x9 x10 x11 x12 x13 x14 n]

/-- The reference's row variance. -/
theorem var_apply (n : Fin 50000) :
    Read.val_main_v69 x0 x1 x2 x3 x4 x5 x6 x7 x8 x9 x10 x11 x12 (ix2 n (0 : Fin 1))
      = var (arrW x6 x7 x8 x9 x10 x11 x12 x13 x14) (arrRow x0 x1 x2 x3 x4 x5 n) := by
  show FloatOps.hostDivf (F := Ideal) (φ := .f32) (Read.val_main_v67 x0 x1 x2 x3 x4 x5 x6 x7 x8 x9 x10 x11 x12 (ix2 n (0 : Fin 1)))
      (Read.val_main_v68 (F := Ideal) (ix2 n (0 : Fin 1))) = _
  rw [Read.val_main_v67_apply, Read.val_main_v66_apply, Read.val_main_v68_apply, Read.val_main_cst_11_apply,
    Read.val_main_cst_10_apply]
  show Ideal.div (Ideal.ofBits .f32 0x00000000#32 + _) (Ideal.ofBits .f32 0x43000000#32) = _
  rw [Ideal.ofBits_zero_f32, zero_add]
  refine congrArg (Ideal.div · _) (Finset.sum_congr rfl fun k _ => ?_)
  have hidx : Read.idx_main_v66 (Read.idx_main_v67 (ix2 n (0 : Fin 1))) k = ix2 n k :=
    funext fun a => Fin.ext (by match a with | ⟨0, _⟩ => rfl | ⟨1, _⟩ => rfl)
  rw [hidx]
  show Read.val_main_v64 x0 x1 x2 x3 x4 x5 x6 x7 x8 x9 x10 x11 x12 (ix2 n k) * Read.val_main_v64 x0 x1 x2 x3 x4 x5 x6 x7 x8 x9 x10 x11 x12 (ix2 n k) = _
  rw [centred_apply x0 x1 x2 x3 x4 x5 x6 x7 x8 x9 x10 x11 x12 x13 x14 n k]

/-- The reference's normalised hidden state at row `n`, column `o`. -/
theorem hidden_apply (n : Fin 50000) (o : Fin 128) :
    Read.val_main_v82 x0 x1 x2 x3 x4 x5 x6 x7 x8 x9 x10 x11 x12 x13 x14 (ix2 n o)
      = hOut (arrW x6 x7 x8 x9 x10 x11 x12 x13 x14) (arrRow x0 x1 x2 x3 x4 x5 n) o := by
  show ((Read.val_main_v71 x0 x1 x2 x3 x4 x5 x6 x7 x8 x9 x10 x11 x12 (ix2 n o) * Read.val_main_v75 x0 x1 x2 x3 x4 x5 x6 x7 x8 x9 x10 x11 x12 (ix2 n o))
        * Read.val_main_v78 x13 (ix2 n o)) + Read.val_main_v81 x14 (ix2 n o) = _
  rw [Read.val_main_v75_apply, Read.val_main_v78_apply, Read.val_main_v77_apply, Read.val_main_v81_apply,
    Read.val_main_v80_apply]
  have h75 : Read.idx_main_v75 (ix2 n o) = ix2 n (0 : Fin 1) :=
    funext fun a => Fin.ext (by match a with | ⟨0, _⟩ => rfl | ⟨1, _⟩ => rfl)
  have h78 : Read.idx_main_v77 (Read.idx_main_v78 (ix2 n o)) = ix1 o :=
    funext fun a => Fin.ext (by match a with | ⟨0, _⟩ => rfl)
  have h81 : Read.idx_main_v80 (Read.idx_main_v81 (ix2 n o)) = ix1 o :=
    funext fun a => Fin.ext (by match a with | ⟨0, _⟩ => rfl)
  rw [h75, h78, h81, centred'_apply x0 x1 x2 x3 x4 x5 x6 x7 x8 x9 x10 x11 x12 x13 x14 n o]
  show (_ * Ideal.rsqrt (Read.val_main_v69 x0 x1 x2 x3 x4 x5 x6 x7 x8 x9 x10 x11 x12 (ix2 n (0 : Fin 1)) + Read.val_main_v72 (F := Ideal) (ix2 n (0 : Fin 1)))) * _ + _ = _
  rw [var_apply x0 x1 x2 x3 x4 x5 x6 x7 x8 x9 x10 x11 x12 x13 x14 n, Read.val_main_v72_apply, Read.val_main_cst_12_apply]
  rfl

/-- The second result as a whole array. -/
theorem cell_eq :
    Read.val_main_v50 x0 x1 x2 x3 x4 x5 x6 x7 x8 x9 x10 x11 x12
      = cell x0 x1 x2 x3 x4 x5 x6 x7 x8 x9 x10 x11 x12 x13 x14 := by
  funext i
  obtain ⟨n, o, rfl⟩ : ∃ (n : Fin 50000) (o : Fin 128), i = ix2 n o := ⟨i 0, i 1, eq_ix2 i⟩
  exact cell_apply x0 x1 x2 x3 x4 x5 x6 x7 x8 x9 x10 x11 x12 x13 x14 n o

/-- The first result as a whole array. -/
theorem hidden_eq :
    Read.val_main_v82 x0 x1 x2 x3 x4 x5 x6 x7 x8 x9 x10 x11 x12 x13 x14
      = hidden x0 x1 x2 x3 x4 x5 x6 x7 x8 x9 x10 x11 x12 x13 x14 := by
  funext i
  obtain ⟨n, o, rfl⟩ : ∃ (n : Fin 50000) (o : Fin 128), i = ix2 n o := ⟨i 0, i 1, eq_ix2 i⟩
  exact hidden_apply x0 x1 x2 x3 x4 x5 x6 x7 x8 x9 x10 x11 x12 x13 x14 n o

end Cert.ReferenceIdeal.RefValue

end
-- ==== Proof.lean ====
/-
  A neighbour-gated LSTM cell with layer normalisation over 50000 rows: the tiled kernel against the plain reference.

  For every row, eight neighbours each send a message `Wn · h_k`, gated by `σ(Wg · [h_k | h] + bg)` and weighted by a
  validity bit; their sum, the row's own features and a static projection feed one LSTM step, whose hidden state is
  layer-normalised. The kernel works on 50 blocks of 1000 rows with the weights pre-transposed, and regroups two
  contractions: the gate's over the 256 joined coordinates `[h_k | h]` as its two halves, and the LSTM's over the 416
  joined coordinates `[x | h | context | static]` as its four parts. Read on the extended reals, where a change of float
  format is the identity and every operation is exact, both programs compute, row by row, the one function of
  CellSpec.lean: a finite sum in the additive commutative monoid of the extended reals does not depend on how its terms
  are grouped, the kernel's one-operation logistic is by definition the reference's `1 / (1 + e^(−x))`, and every
  literal (128, the normalisation's ε, 0, 1) is the same word on both sides. No distributive law, no cancellation and
  hence no finiteness of the inputs is used.

  The idealized kernel's two result arrays are `hidden` and `cell` of the arguments (KernelArray.lean, over the
  kernel body read at an element in KernelNbr.lean and KernelTail.lean and the pre-transposed weights read back in
  KernelHost.lean); the reference's are the same two functions (RefContext.lean, RefZ.lean, RefTail.lean).
  The three frames are the programs' runs with the results dropped; the idealization rewrote nothing.
-/
import proofs.«409955_j30081950941525_3_alg».proof.Defs
import proofs.«409955_j30081950941525_3_alg».proof.Proof.Gen.Kernel
import proofs.«409955_j30081950941525_3_alg».proof.Proof.Gen.Kernel.Skeleton
import proofs.«409955_j30081950941525_3_alg».proof.Proof.Gen.Kernel.Launch
import proofs.«409955_j30081950941525_3_alg».proof.Proof.Gen.Kernel.Points
import proofs.«409955_j30081950941525_3_alg».proof.Proof.Gen.Kernel.Frame
import proofs.«409955_j30081950941525_3_alg».proof.Proof.Gen.KernelIdeal
import proofs.«409955_j30081950941525_3_alg».proof.Proof.Gen.KernelIdeal.Skeleton
import proofs.«409955_j30081950941525_3_alg».proof.Proof.Gen.KernelIdeal.Launch
import proofs.«409955_j30081950941525_3_alg».proof.Proof.Gen.KernelIdeal.Points
import proofs.«409955_j30081950941525_3_alg».proof.Proof.Gen.KernelIdeal.Frame
import proofs.«409955_j30081950941525_3_alg».proof.Proof.Gen.ReferenceIdeal
import proofs.«409955_j30081950941525_3_alg».proof.Proof.Gen.ReferenceIdeal.Run
import proofs.«409955_j30081950941525_3_alg».proof.Proof.Gen.ReferenceIdeal.Read
import proofs.«409955_j30081950941525_3_alg».proof.Proof.Gen.Pre_finite_inputs
import proofs.«409955_j30081950941525_3_alg».proof.Proof.KernelArray
import proofs.«409955_j30081950941525_3_alg».proof.Proof.RefTail
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame is its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both idealized programs, from memories that agree on the arguments, end with both results at `hidden` and `cell`
    of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.ArrayValue.hiddenOf m c, fun c => Cert.KernelIdeal.ArrayValue.cellOf m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v82_eq, e0, e1, e2, e3, e4, e5, e6, e7, e8, e9, e10, e11, e12, e13, e14]
    exact Cert.ReferenceIdeal.RefValue.hidden_eq _ _ _ _ _ _ _ _ _ _ _ _ _ _ _
  · obtain ⟨e0, e1, e2, e3, e4, e5, e6, e7, e8, e9, e10, e11, e12, e13, e14⟩ := hagree c
    rw [Cert.ReferenceIdeal.Read.val_main_v50_eq, e0, e1, e2, e3, e4, e5, e6, e7, e8, e9, e10, e11, e12]
    exact Cert.ReferenceIdeal.RefValue.cell_eq _ _ _ _ _ _ _ _ _ _ _ _ _
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
